-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x2048 : Shape := ⟨3, ![4, 512, 2048]⟩
abbrev S4x512 : Shape := ⟨2, ![4, 512]⟩
abbrev S4 : Shape := ⟨1, ![4]⟩
abbrev S32000x2048 : Shape := ⟨2, ![32000, 2048]⟩
abbrev S_ : Shape := ⟨0, ![]⟩

class Facts : Prop where
  bcast_S_S4x512x2048 : S_.BroadcastsInDim S4x512x2048 (![] : Fin 0 → Fin S4x512x2048.rank)
  reducesTo_S4x512x2048_S_d0_1_2 : S4x512x2048.ReducesTo [0, 1, 2] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S4x512 : S_.BroadcastsInDim S4x512 (![] : Fin 0 → Fin S4x512.rank)
  reducesTo_S4x512_S_d0_1 : S4x512.ReducesTo [0, 1] S_

variable [Facts]

def fn_part1 {F : FTy → Type} [FloatOps F] (main_arg2 : IVec S4x512 32) (main_v13 : IVec S_ 1) (main_v16 : IVec S32000x2048 1) : IVec S_ 1 :=
  let main_c_5 : IVec S_ 1 := constantI S_ 1 1#1
  let main_v17 : IVec S_ 1 := (fun x v => Host.reduce IntOp.andi x v reducesTo_S32000x2048_S_d0_1 h_S_) main_v16 main_c_5
  let main_v18 : IVec S_ 1 := andi main_v13 main_v17
  let main_c_6 : IVec S_ 32 := constantI S_ 32 4294967196#32
  let main_v19 : IVec S4x512 32 := broadcastInDim S4x512 ![] bcast_S_S4x512 main_c_6
  let main_v20 : IVec S4x512 1 := cmpi .eq main_arg2 main_v19
  let main_c_7 : IVec S_ 32 := constantI S_ 32 0#32
  let main_v21 : IVec S4x512 32 := broadcastInDim S4x512 ![] bcast_S_S4x512 main_c_7
  let main_v22 : IVec S4x512 1 := cmpi .sge main_arg2 main_v21
  let main_c_8 : IVec S_ 32 := constantI S_ 32 32000#32
  let main_v23 : IVec S4x512 32 := broadcastInDim S4x512 ![] bcast_S_S4x512 main_c_8
  let main_v24 : IVec S4x512 1 := cmpi .slt main_arg2 main_v23
  let main_v25 : IVec S4x512 1 := andi main_v22 main_v24
  let main_v26 : IVec S4x512 1 := ori main_v20 main_v25
  let main_c_9 : IVec S_ 1 := constantI S_ 1 1#1
  let main_v27 : IVec S_ 1 := (fun x v => Host.reduce IntOp.andi x v reducesTo_S4x512_S_d0_1 h_S_) main_v26 main_c_9
  let main_v28 : IVec S_ 1 := andi main_v18 main_v27
  main_v28

def fn {F : FTy → Type} [FloatOps F] (main_arg0 : FVec F S4x512x2048 .f32) (main_arg1 : FVec F S4x512x2048 .f32) (main_arg2 : IVec S4x512 32) (main_arg3 : IVec S4 1) (main_arg4 : FVec F S32000x2048 .f32) (main_arg5 : FVec F S32000x2048 .f32) : IVec S_ 1 :=
  let main_v0 : FVec F S4x512x2048 .f32 := Host.absf main_arg0
  let main_cst : FVec F S_ .f32 := constant S_ .f32 0x7F800000#32
  let main_v1 : FVec F S4x512x2048 .f32 := broadcastInDim S4x512x2048 ![] bcast_S_S4x512x2048 main_cst
  let main_v2 : IVec S4x512x2048 1 := cmpf .olt main_v0 main_v1
  let main_c : IVec S_ 1 := constantI S_ 1 1#1
  let main_v3 : IVec S_ 1 := (fun x v => Host.reduce IntOp.andi x v reducesTo_S4x512x2048_S_d0_1_2 h_S_) main_v2 main_c
  let main_v4 : FVec F S4x512x2048 .f32 := Host.absf main_arg1
  let main_cst_0 : FVec F S_ .f32 := constant S_ .f32 0x7F800000#32
  let main_v5 : FVec F S4x512x2048 .f32 := broadcastInDim S4x512x2048 ![] bcast_S_S4x512x2048 main_cst_0
  let main_v6 : IVec S4x512x2048 1 := cmpf .olt main_v4 main_v5
  let main_c_1 : IVec S_ 1 := constantI S_ 1 1#1
  let main_v7 : IVec S_ 1 := (fun x v => Host.reduce IntOp.andi x v reducesTo_S4x512x2048_S_d0_1_2 h_S_) main_v6 main_c_1
  let main_v8 : IVec S_ 1 := andi main_v3 main_v7
  let main_v9 : FVec F S32000x2048 .f32 := Host.absf main_arg4
  let main_cst_2 : FVec F S_ .f32 := constant S_ .f32 0x7F800000#32
  let main_v10 : FVec F S32000x2048 .f32 := broadcastInDim S32000x2048 ![] bcast_S_S32000x2048 main_cst_2
  let main_v11 : IVec S32000x2048 1 := cmpf .olt main_v9 main_v10
  let main_c_3 : IVec S_ 1 := constantI S_ 1 1#1
  let main_v12 : IVec S_ 1 := (fun x v => Host.reduce IntOp.andi x v reducesTo_S32000x2048_S_d0_1 h_S_) main_v11 main_c_3
  let main_v13 : IVec S_ 1 := andi main_v8 main_v12
  let main_v14 : FVec F S32000x2048 .f32 := Host.absf main_arg5
  let main_cst_4 : FVec F S_ .f32 := constant S_ .f32 0x7F800000#32
  let main_v15 : FVec F S32000x2048 .f32 := broadcastInDim S32000x2048 ![] bcast_S_S32000x2048 main_cst_4
  let main_v16 : IVec S32000x2048 1 := cmpf .olt main_v14 main_v15
  fn_part1 (F := F) main_arg2 main_v13 main_v16
-- ==== Kernel.lean ====
abbrev S4x512x2048 : Shape := ⟨3, ![4, 512, 2048]⟩
abbrev S4x512 : Shape := ⟨2, ![4, 512]⟩
abbrev S4 : Shape := ⟨1, ![4]⟩
abbrev S32000x2048 : Shape := ⟨2, ![32000, 2048]⟩
abbrev S_ : Shape := ⟨0, ![]⟩
abbrev S2048x1 : Shape := ⟨2, ![2048, 1]⟩
abbrev S2048x2048 : Shape := ⟨2, ![2048, 2048]⟩
abbrev S1x2048x2048 : Shape := ⟨3, ![1, 2048, 2048]⟩
abbrev S2x2048x2048 : Shape := ⟨3, ![2, 2048, 2048]⟩
abbrev S1x32000x2048 : Shape := ⟨3, ![1, 32000, 2048]⟩
abbrev S2x32000x2048 : Shape := ⟨3, ![2, 32000, 2048]⟩
abbrev S2x2048x1 : Shape := ⟨3, ![2, 2048, 1]⟩
abbrev S1x1280x2048 : Shape := ⟨3, ![1, 1280, 2048]⟩
abbrev S1x2048x1 : Shape := ⟨3, ![1, 2048, 1]⟩
abbrev S1280x2048 : Shape := ⟨2, ![1280, 2048]⟩
abbrev S1x512x2048 : Shape := ⟨3, ![1, 512, 2048]⟩
abbrev S512x2048 : Shape := ⟨2, ![512, 2048]⟩
abbrev S512x1280 : Shape := ⟨2, ![512, 1280]⟩
abbrev S512x1 : Shape := ⟨2, ![512, 1]⟩
abbrev S512 : Shape := ⟨1, ![512]⟩

abbrev nBuf : Space → Nat
  | .hbm => 70
  | .vmem => 10
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512, .i32⟩
  | .hbm, ⟨3, _⟩ => ⟨S4, .i1⟩
  | .hbm, ⟨4, _⟩ => ⟨S32000x2048, .f32⟩
  | .hbm, ⟨5, _⟩ => ⟨S32000x2048, .f32⟩
  | .hbm, ⟨6, _⟩ => ⟨S_, .i32⟩
  | .hbm, ⟨7, _⟩ => ⟨S4x512, .i32⟩
  | .hbm, ⟨8, _⟩ => ⟨S4x512, .i1⟩
  | .hbm, ⟨9, _⟩ => ⟨S_, .i32⟩
  | .hbm, ⟨10, _⟩ => ⟨S_, .i32⟩
  | .hbm, ⟨11, _⟩ => ⟨S4x512, .i32⟩
  | .hbm, ⟨12, _⟩ => ⟨S4x512, .i32⟩
  | .hbm, ⟨13, _⟩ => ⟨S2048x1, .i32⟩
  | .hbm, ⟨14, _⟩ => ⟨S2048x2048, .f32⟩
  | .hbm, ⟨15, _⟩ => ⟨S2048x2048, .bf16⟩
  | .hbm, ⟨16, _⟩ => ⟨S2048x2048, .f32⟩
  | .hbm, ⟨17, _⟩ => ⟨S2048x2048, .bf16⟩
  | .hbm, ⟨18, _⟩ => ⟨S1x2048x2048, .bf16⟩
  | .hbm, ⟨19, _⟩ => ⟨S1x2048x2048, .bf16⟩
  | .hbm, ⟨20, _⟩ => ⟨S2x2048x2048, .bf16⟩
  | .hbm, ⟨21, _⟩ => ⟨S32000x2048, .bf16⟩
  | .hbm, ⟨22, _⟩ => ⟨S32000x2048, .bf16⟩
  | .hbm, ⟨23, _⟩ => ⟨S1x32000x2048, .bf16⟩
  | .hbm, ⟨24, _⟩ => ⟨S1x32000x2048, .bf16⟩
  | .hbm, ⟨25, _⟩ => ⟨S2x32000x2048, .bf16⟩
  | .hbm, ⟨26, _⟩ => ⟨S2x2048x1, .f32⟩
  | .hbm, ⟨27, _⟩ => ⟨S1x2048x1, .f32⟩
  | .hbm, ⟨28, _⟩ => ⟨S2048x1, .f32⟩
  | .hbm, ⟨29, _⟩ => ⟨S4x512, .f32⟩
  | .hbm, ⟨30, _⟩ => ⟨S1x2048x1, .f32⟩
  | .hbm, ⟨31, _⟩ => ⟨S2048x1, .f32⟩
  | .hbm, ⟨32, _⟩ => ⟨S4x512, .f32⟩
  | .hbm, ⟨33, _⟩ => ⟨S4x512, .f32⟩
  | .hbm, ⟨34, _⟩ => ⟨S_, .f32⟩
  | .hbm, ⟨35, _⟩ => ⟨S4, .f32⟩
  | .hbm, ⟨36, _⟩ => ⟨S4x512, .f32⟩
  | .hbm, ⟨37, _⟩ => ⟨S_, .f32⟩
  | .hbm, ⟨38, _⟩ => ⟨S4, .f32⟩
  | .hbm, ⟨39, _⟩ => ⟨S4, .f32⟩
  | .hbm, ⟨40, _⟩ => ⟨S4x512, .f32⟩
  | .hbm, ⟨41, _⟩ => ⟨S_, .f32⟩
  | .hbm, ⟨42, _⟩ => ⟨S4, .f32⟩
  | .hbm, ⟨43, _⟩ => ⟨S4, .f32⟩
  | .hbm, ⟨44, _⟩ => ⟨S4, .f32⟩
  | .hbm, ⟨45, _⟩ => ⟨S_, .f32⟩
  | .hbm, ⟨46, _⟩ => ⟨S_, .f32⟩
  | .hbm, ⟨47, _⟩ => ⟨S4, .f32⟩
  | .hbm, ⟨48, _⟩ => ⟨S4, .f32⟩
  | .hbm, ⟨49, _⟩ => ⟨S4, .f32⟩
  | .hbm, ⟨50, _⟩ => ⟨S_, .f32⟩
  | .hbm, ⟨51, _⟩ => ⟨S4, .f32⟩
  | .hbm, ⟨52, _⟩ => ⟨S4, .f32⟩
  | .hbm, ⟨53, _⟩ => ⟨S4, .f32⟩
  | .hbm, ⟨54, _⟩ => ⟨S4, .f32⟩
  | .hbm, ⟨55, _⟩ => ⟨S4, .f32⟩
  | .hbm, ⟨56, _⟩ => ⟨S4, .f32⟩
  | .hbm, ⟨57, _⟩ => ⟨S_, .f32⟩
  | .hbm, ⟨58, _⟩ => ⟨S4, .f32⟩
  | .hbm, ⟨59, _⟩ => ⟨S4, .f32⟩
  | .hbm, ⟨60, _⟩ => ⟨S_, .f32⟩
  | .hbm, ⟨61, _⟩ => ⟨S4, .f32⟩
  | .hbm, ⟨62, _⟩ => ⟨S4, .f32⟩
  | .hbm, ⟨63, _⟩ => ⟨S_, .f32⟩
  | .hbm, ⟨64, _⟩ => ⟨S4, .f32⟩
  | .hbm, ⟨65, _⟩ => ⟨S4, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .local _ .vmem, ⟨0, _⟩ => ⟨S1x2048x2048, .bf16⟩
  | .local _ .vmem, ⟨1, _⟩ => ⟨S1x2048x2048, .bf16⟩
  | .local _ .vmem, ⟨2, _⟩ => ⟨S1x1280x2048, .bf16⟩
  | .local _ .vmem, ⟨3, _⟩ => ⟨S1x1280x2048, .bf16⟩
  | .local _ .vmem, ⟨4, _⟩ => ⟨S2048x1, .i32⟩
  | .local _ .vmem, ⟨5, _⟩ => ⟨S1x2048x1, .f32⟩
  | .local _ .vmem, ⟨6, _⟩ => ⟨S1x2048x1, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_cst_4 : Ref sig .tc := ⟨.hbm, 46, rfl⟩
abbrev main_call1_v0 : Ref sig .tc := ⟨.hbm, 47, rfl⟩
abbrev main_call1_v1 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 25], ![false, false]⟩

def k0_mult1 : BitVec 32 :=
  let c0_i32_3 : BitVec 32 := 0#32
  let c512_i32 : BitVec 32 := 512#32
  let v6 : BitVec 32 := Scalar.muli c0_i32_3 c512_i32
  v6
def k0_off1 (c0_i32_3 : BitVec 32) : Fin 3 → Nat :=
  let c0_4 : Index := 0#32
  let c512_i32 : BitVec 32 := 512#32
  let v6 : BitVec 32 := Scalar.muli c0_i32_3 c512_i32
  let v7 : BitVec 32 := v6
  let v8 : Index := Scalar.indexCast v7
  let c0_5 : Index := 0#32
  ![0, v8.toNat, 0]
def k0_off2 (c0_i32_3 : BitVec 32) : Fin 2 → Nat :=
  let c512_i32 : BitVec 32 := 512#32
  let v6 : BitVec 32 := Scalar.muli c0_i32_3 c512_i32
  let v7 : BitVec 32 := v6
  let v12 : Index := Scalar.indexCast v7
  let c0_6 : Index := 0#32
  ![v12.toNat, 0]
def k0_mult2 : BitVec 32 :=
  let c1_i32 : BitVec 32 := 1#32
  let c512_i32_17 : BitVec 32 := 512#32
  let v55 : BitVec 32 := Scalar.muli c1_i32 c512_i32_17
  v55
def k0_mult3 : BitVec 32 :=
  let c2_i32 : BitVec 32 := 2#32
  let c512_i32_32 : BitVec 32 := 512#32
  let v104 : BitVec 32 := Scalar.muli c2_i32 c512_i32_32
  v104
def k0_mult4 : BitVec 32 :=
  let c3_i32 : BitVec 32 := 3#32
  let c512_i32_47 : BitVec 32 := 512#32
  let v153 : BitVec 32 := Scalar.muli c3_i32 c512_i32_47
  v153
def k0_cond2 (i : grid0.Coords) : BitVec 1 :=
  let arg1 : BitVec 32 := BitVec.ofNat 32 (i 1).val
  let c24_i32 : BitVec 32 := 24#32
  let v202 : BitVec 1 := Scalar.cmpi .eq arg1 c24_i32
  let v203 : BitVec 32 := Scalar.extui v202
  let c0_i32_62 : BitVec 32 := 0#32
  let v204 : BitVec 1 := Scalar.cmpi .ne v203 c0_i32_62
  v204

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S4x512 : S_.BroadcastsInDim S4x512 (![] : Fin 0 → Fin S4x512.rank)
  shapeCasts_S4x512_S2048x1 : S4x512.ShapeCasts S2048x1
  shapeCasts_S4x512x2048_S2048x2048 : S4x512x2048.ShapeCasts S2048x2048
  bitsLt_bf16_f32 : FTy.bits .bf16 < FTy.bits .f32
  bcast_S2048x2048_S1x2048x2048_1_2 : S2048x2048.BroadcastsInDim S1x2048x2048 (![1, 2] : Fin 2 → Fin S1x2048x2048.rank)
  concatenates_S1x2048x2048_S1x2048x2048_S2x2048x2048_d0 : Shape.Concatenates [S1x2048x2048, S1x2048x2048] S2x2048x2048 0
  bcast_S32000x2048_S1x32000x2048_1_2 : S32000x2048.BroadcastsInDim S1x32000x2048 (![1, 2] : Fin 2 → Fin S1x32000x2048.rank)
  concatenates_S1x32000x2048_S1x32000x2048_S2x32000x2048_d0 : Shape.Concatenates [S1x32000x2048, S1x32000x2048] S2x32000x2048 0
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1280x2048_S1x1280x2048_0_0_0 : ∀ a, (![0, 0, 0] : Fin 3 → Nat) a + S1x1280x2048.size a ≤ S1x1280x2048.size a
  h_S1x1280x2048 : 0 < S1x1280x2048.numel
  shapeCasts_S1x1280x2048_S1280x2048 : S1x1280x2048.ShapeCasts S1280x2048
  h_S1x512x2048 : 0 < S1x512x2048.numel
  shapeCasts_S1x512x2048_S512x2048 : S1x512x2048.ShapeCasts S512x2048
  h_S512x1 : 0 < S512x1.numel
  shapeCasts_S512x1_S512x1 : S512x1.ShapeCasts S512x1
  iota_S512x1280_d1_w32 : S512x1280.Iotas .tc 32 [1]
  broadcasts_S512x1_S512x1280 : S512x1.Broadcasts S512x1280
  reduces_S512x1280_S512 : S512x1280.Reduces [1] S512
  shapeCasts_S512_S512x1 : S512.ShapeCasts S512x1
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  slices_S2x2048x1_S1x2048x1_0_0_0 : S2x2048x1.Slices ![0, 0, 0] S1x2048x1
  shapeCasts_S2048x1_S4x512 : S2048x1.ShapeCasts S4x512
  slices_S2x2048x1_S1x2048x1_1_0_0 : S2x2048x1.Slices ![1, 0, 0] S1x2048x1
  reducesTo_S4x512_S4_d1 : S4x512.ReducesTo [1] S4
  h_S_ : 0 < S_.numel
  bcast_S_S4 : S_.BroadcastsInDim S4 (![] : Fin 0 → Fin S4.rank)
  reducesTo_S4_S_d0 : S4.ReducesTo [0] S_
  dot_S512x2048_S1280x2048_S512x1280_1_1_0_0_n_n_wf : DotDims.WF S512x2048 S1280x2048 S512x1280 [1] [1] [0] [0] [] []
  hrank0 : 0 < grid0.rank
  k0_mult1_dvd : 512 ∣ k0_mult1.toNat
  k0_off1_inb : ∀ (r : Fin 4), ∀ a, (k0_off1 (BitVec.ofNat 32 r.val)) a + S1x512x2048.size a ≤ S1x2048x2048.size a
  k0_off2_inb : ∀ (r : Fin 4), ∀ a, (k0_off2 (BitVec.ofNat 32 r.val)) a + S512x1.size a ≤ S2048x1.size a
  k0_mult2_dvd : 512 ∣ k0_mult2.toNat
  k0_mult3_dvd : 512 ∣ k0_mult3.toNat
  k0_mult4_dvd : 512 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x2048.size a ≤ S2x2048x2048.size a
  hwx0_0 : ∀ i : grid0.Coords, EltTy.bits .bf16 = 32 ∨ (Rect.block (s := S2x2048x2048) S1x2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1280x2048.size a ≤ S2x32000x2048.size a
  hwx0_1 : ∀ i : grid0.Coords, EltTy.bits .bf16 = 32 ∨ (Rect.block (s := S2x32000x2048) S1x1280x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S2048x1.size a
  hwx0_2 : ∀ i : grid0.Coords, EltTy.bits .i32 = 32 ∨ (Rect.block (s := S2048x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1.size a ≤ S2x2048x1.size a
  hwx0_3 : ∀ i : grid0.Coords, EltTy.bits .f32 = 32 ∨ (Rect.block (s := S2x2048x1) S1x2048x1.size (cc0_transform_3 i) (hinb0_3 i)).WholeWords (EltTy.packing .f32)

variable [Facts₀]

def dot_S512x2048_S1280x2048_S512x1280_1_1_0_0_n_n : DotDims S512x2048 S1280x2048 S512x1280 where
  lhsContracting := [1]
  rhsContracting := [1]
  lhsNonContracting := [0]
  rhsNonContracting := [0]
  lhsBatch := []
  rhsBatch := []
  wf := dot_S512x2048_S1280x2048_S512x1280_1_1_0_0_n_n_wf

abbrev win0_0 : Pipeline.Window sig grid0 :=
  Pipeline.Window.ofSpec (Memref.whole main_v10) S1x2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x1280x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x512x2048 : Shape := ⟨3, ![4, 512, 2048]⟩
abbrev S4x512 : Shape := ⟨2, ![4, 512]⟩
abbrev S4 : Shape := ⟨1, ![4]⟩
abbrev S32000x2048 : Shape := ⟨2, ![32000, 2048]⟩
abbrev S4x512x32000 : Shape := ⟨3, ![4, 512, 32000]⟩
abbrev S_ : Shape := ⟨0, ![]⟩
abbrev S4x512x1 : Shape := ⟨3, ![4, 512, 1]⟩
abbrev S4x512x1x1 : Shape := ⟨4, ![4, 512, 1, 1]⟩
abbrev S1 : Shape := ⟨1, ![1]⟩
abbrev S1x1x1x1 : Shape := ⟨4, ![1, 1, 1, 1]⟩

abbrev nBuf : Space → Nat
  | .hbm => 144
  | .vmem => 0
  | .smem => 0
  | _ => 0

abbrev hbmTy0_0 (i : Nat) : BufTy := match i % 128 with
  | 0 => ⟨S4x512x2048, .f32⟩
  | 1 => ⟨S4x512x2048, .f32⟩
  | 2 => ⟨S4x512, .i32⟩
  | 3 => ⟨S4, .i1⟩
  | 4 => ⟨S32000x2048, .f32⟩
  | 5 => ⟨S32000x2048, .f32⟩
  | 6 => ⟨S4x512x32000, .f32⟩
  | 7 => ⟨S_, .f32⟩
  | 8 => ⟨S4x512, .f32⟩
  | 9 => ⟨S_, .f32⟩
  | 10 => ⟨S4x512, .f32⟩
  | 11 => ⟨S4x512, .f32⟩
  | 12 => ⟨S4x512x1, .f32⟩
  | 13 => ⟨S4x512x32000, .f32⟩
  | 14 => ⟨S4x512x32000, .f32⟩
  | 15 => ⟨S4x512x32000, .f32⟩
  | 16 => ⟨S_, .f32⟩
  | 17 => ⟨S4x512, .f32⟩
  | 18 => ⟨S4x512x1, .f32⟩
  | 19 => ⟨S4x512x1, .f32⟩
  | 20 => ⟨S4x512x32000, .f32⟩
  | 21 => ⟨S4x512x32000, .f32⟩
  | 22 => ⟨S_, .i32⟩
  | 23 => ⟨S4x512, .i32⟩
  | 24 => ⟨S4x512, .i1⟩
  | 25 => ⟨S_, .i32⟩
  | 26 => ⟨S_, .i32⟩
  | 27 => ⟨S4x512, .i32⟩
  | 28 => ⟨S4x512, .i32⟩
  | 29 => ⟨S4x512x1, .i32⟩
  | 30 => ⟨S_, .i32⟩
  | 31 => ⟨S4x512x1, .i32⟩
  | 32 => ⟨S4x512x1, .i1⟩
  | 33 => ⟨S_, .i32⟩
  | 34 => ⟨S4x512x1, .i32⟩
  | 35 => ⟨S4x512x1, .i32⟩
  | 36 => ⟨S4x512x1, .i32⟩
  | 37 => ⟨S4x512x1x1, .i32⟩
  | 38 => ⟨S1, .i32⟩
  | 39 => ⟨S_, .i32⟩
  | 40 => ⟨S4x512x1x1, .i32⟩
  | 41 => ⟨S4x512x1x1, .i1⟩
  | 42 => ⟨S1x1x1x1, .i32⟩
  | 43 => ⟨S4x512x1x1, .i32⟩
  | 44 => ⟨S4x512x1x1, .i1⟩
  | 45 => ⟨S4x512x1x1, .i1⟩
  | 46 => ⟨S_, .i1⟩
  | 47 => ⟨S4x512x1, .i1⟩
  | 48 => ⟨S4x512x1, .f32⟩
  | 49 => ⟨S_, .f32⟩
  | 50 => ⟨S4x512x1, .f32⟩
  | 51 => ⟨S4x512x1, .f32⟩
  | 52 => ⟨S4x512, .f32⟩
  | 53 => ⟨S4x512, .f32⟩
  | 54 => ⟨S4x512, .f32⟩
  | 55 => ⟨S_, .f32⟩
  | 56 => ⟨S4, .f32⟩
  | 57 => ⟨S4x512, .i32⟩
  | 58 => ⟨S_, .i32⟩
  | 59 => ⟨S4, .i32⟩
  | 60 => ⟨S4, .f32⟩
  | 61 => ⟨S4, .f32⟩
  | 62 => ⟨S4x512x32000, .f32⟩
  | 63 => ⟨S_, .f32⟩
  | 64 => ⟨S4x512, .f32⟩
  | 65 => ⟨S_, .f32⟩
  | 66 => ⟨S4x512, .f32⟩
  | 67 => ⟨S4x512, .f32⟩
  | 68 => ⟨S4x512x1, .f32⟩
  | 69 => ⟨S4x512x32000, .f32⟩
  | 70 => ⟨S4x512x32000, .f32⟩
  | 71 => ⟨S4x512x32000, .f32⟩
  | 72 => ⟨S_, .f32⟩
  | 73 => ⟨S4x512, .f32⟩
  | 74 => ⟨S4x512x1, .f32⟩
  | 75 => ⟨S4x512x1, .f32⟩
  | 76 => ⟨S4x512x32000, .f32⟩
  | 77 => ⟨S4x512x32000, .f32⟩
  | 78 => ⟨S_, .i32⟩
  | 79 => ⟨S4x512, .i32⟩
  | 80 => ⟨S4x512, .i1⟩
  | 81 => ⟨S_, .i32⟩
  | 82 => ⟨S_, .i32⟩
  | 83 => ⟨S4x512, .i32⟩
  | 84 => ⟨S4x512, .i32⟩
  | 85 => ⟨S4x512x1, .i32⟩
  | 86 => ⟨S_, .i32⟩
  | 87 => ⟨S4x512x1, .i32⟩
  | 88 => ⟨S4x512x1, .i1⟩
  | 89 => ⟨S_, .i32⟩
  | 90 => ⟨S4x512x1, .i32⟩
  | 91 => ⟨S4x512x1, .i32⟩
  | 92 => ⟨S4x512x1, .i32⟩
  | 93 => ⟨S4x512x1x1, .i32⟩
  | 94 => ⟨S1, .i32⟩
  | 95 => ⟨S_, .i32⟩
  | 96 => ⟨S4x512x1x1, .i32⟩
  | 97 => ⟨S4x512x1x1, .i1⟩
  | 98 => ⟨S1x1x1x1, .i32⟩
  | 99 => ⟨S4x512x1x1, .i32⟩
  | 100 => ⟨S4x512x1x1, .i1⟩
  | 101 => ⟨S4x512x1x1, .i1⟩
  | 102 => ⟨S_, .i1⟩
  | 103 => ⟨S4x512x1, .i1⟩
  | 104 => ⟨S4x512x1, .f32⟩
  | 105 => ⟨S_, .f32⟩
  | 106 => ⟨S4x512x1, .f32⟩
  | 107 => ⟨S4x512x1, .f32⟩
  | 108 => ⟨S4x512, .f32⟩
  | 109 => ⟨S4x512, .f32⟩
  | 110 => ⟨S4x512, .f32⟩
  | 111 => ⟨S_, .f32⟩
  | 112 => ⟨S4, .f32⟩
  | 113 => ⟨S4x512, .i32⟩
  | 114 => ⟨S_, .i32⟩
  | 115 => ⟨S4, .i32⟩
  | 116 => ⟨S4, .f32⟩
  | 117 => ⟨S4, .f32⟩
  | 118 => ⟨S4, .f32⟩
  | 119 => ⟨S_, .f32⟩
  | 120 => ⟨S_, .f32⟩
  | 121 => ⟨S4, .f32⟩
  | 122 => ⟨S4, .f32⟩
  | 123 => ⟨S4, .f32⟩
  | 124 => ⟨S_, .f32⟩
  | 125 => ⟨S4, .f32⟩
  | 126 => ⟨S4, .f32⟩
  | 127 => ⟨S4, .f32⟩
  | _ => ⟨S4x512x2048, .f32⟩

abbrev hbmTy0_1 (i : Nat) : BufTy := match i % 128 with
  | 0 => ⟨S4, .f32⟩
  | 1 => ⟨S4, .f32⟩
  | 2 => ⟨S4, .f32⟩
  | 3 => ⟨S_, .f32⟩
  | 4 => ⟨S4, .f32⟩
  | 5 => ⟨S4, .f32⟩
  | 6 => ⟨S_, .f32⟩
  | 7 => ⟨S4, .f32⟩
  | 8 => ⟨S4, .f32⟩
  | 9 => ⟨S_, .f32⟩
  | 10 => ⟨S4, .f32⟩
  | 11 => ⟨S4, .f32⟩
  | 12 => ⟨S_, .f32⟩
  | 13 => ⟨S_, .f32⟩
  | 14 => ⟨S_, .f32⟩
  | 15 => ⟨S_, .f32⟩
  | _ => ⟨S4x512x2048, .f32⟩

abbrev hbmTy (i : Nat) : BufTy := match i / 128 with
  | 0 => hbmTy0_0 i
  | 1 => hbmTy0_1 i
  | _ => ⟨S4x512x2048, .f32⟩

abbrev bufTy : (tb : Table) → Fin (tcTables nBuf tb) → BufTy
  | .hbm, ⟨i, _⟩ => hbmTy i
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v1 : Ref sig .tc := ⟨.hbm, 21, rfl⟩
abbrev main_c : Ref sig .tc := ⟨.hbm, 22, rfl⟩
abbrev main_v2 : Ref sig .tc := ⟨.hbm, 23, rfl⟩
abbrev main_v3 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_v4 : Ref sig .tc := ⟨.hbm, 28, rfl⟩
abbrev main_v5 : Ref sig .tc := ⟨.hbm, 29, rfl⟩
abbrev main_call2_c : Ref sig .tc := ⟨.hbm, 30, rfl⟩
abbrev main_call2_v0 : Ref sig .tc := ⟨.hbm, 31, rfl⟩
abbrev main_call2_v1 : Ref sig .tc := ⟨.hbm, 32, rfl⟩
abbrev main_call2_c_0 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_c_1 : Ref sig .tc := ⟨.hbm, 38, rfl⟩
abbrev main_call2_c_2 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_3 : Ref sig .tc := ⟨.hbm, 46, rfl⟩
abbrev main_call2_v12 : Ref sig .tc := ⟨.hbm, 47, rfl⟩
abbrev main_call2_v13 : Ref sig .tc := ⟨.hbm, 48, rfl⟩
abbrev main_call2_cst : Ref sig .tc := ⟨.hbm, 49, rfl⟩
abbrev main_call2_v14 : Ref sig .tc := ⟨.hbm, 50, rfl⟩
abbrev main_v6 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_cst : Ref sig .tc := ⟨.hbm, 55, rfl⟩
abbrev main_v10 : Ref sig .tc := ⟨.hbm, 56, rfl⟩
abbrev main_v11 : Ref sig .tc := ⟨.hbm, 57, rfl⟩
abbrev main_c_1 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_call3_cst : Ref sig .tc := ⟨.hbm, 63, rfl⟩
abbrev main_call3_v0 : Ref sig .tc := ⟨.hbm, 64, rfl⟩
abbrev main_call3_cst_0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_v6 : Ref sig .tc := ⟨.hbm, 71, rfl⟩
abbrev main_call3_cst_1 : Ref sig .tc := ⟨.hbm, 72, rfl⟩
abbrev main_call3_v7 : Ref sig .tc := ⟨.hbm, 73, rfl⟩
abbrev main_call3_v8 : Ref sig .tc := ⟨.hbm, 74, rfl⟩
abbrev main_call3_v9 : Ref sig .tc := ⟨.hbm, 75, rfl⟩
abbrev main_call3_v10 : Ref sig .tc := ⟨.hbm, 76, rfl⟩
abbrev main_v16 : Ref sig .tc := ⟨.hbm, 77, rfl⟩
abbrev main_c_2 : Ref sig .tc := ⟨.hbm, 78, rfl⟩
abbrev main_v17 : Ref sig .tc := ⟨.hbm, 79, rfl⟩
abbrev main_v18 : Ref sig .tc := ⟨.hbm, 80, rfl⟩
abbrev main_c_3 : Ref sig .tc := ⟨.hbm, 81, rfl⟩
abbrev main_call4_v0 : Ref sig .tc := ⟨.hbm, 82, rfl⟩
abbrev main_call4_v1 : Ref sig .tc := ⟨.hbm, 83, rfl⟩
abbrev main_v19 : Ref sig .tc := ⟨.hbm, 84, rfl⟩
abbrev main_v20 : Ref sig .tc := ⟨.hbm, 85, rfl⟩
abbrev main_call5_c : Ref sig .tc := ⟨.hbm, 86, rfl⟩
abbrev main_call5_v0 : Ref sig .tc := ⟨.hbm, 87, rfl⟩
abbrev main_call5_v1 : Ref sig .tc := ⟨.hbm, 88, rfl⟩
abbrev main_call5_c_0 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_call5_v5 : Ref sig .tc := ⟨.hbm, 93, rfl⟩
abbrev main_call5_c_1 : Ref sig .tc := ⟨.hbm, 94, rfl⟩
abbrev main_call5_c_2 : Ref sig .tc := ⟨.hbm, 95, rfl⟩
abbrev main_call5_v6 : Ref sig .tc := ⟨.hbm, 96, rfl⟩
abbrev main_call5_v7 : Ref sig .tc := ⟨.hbm, 97, rfl⟩
abbrev main_call5_v8 : Ref sig .tc := ⟨.hbm, 98, rfl⟩
abbrev main_call5_v9 : Ref sig .tc := ⟨.hbm, 99, rfl⟩
abbrev main_call5_v10 : Ref sig .tc := ⟨.hbm, 100, rfl⟩
abbrev main_call5_v11 : Ref sig .tc := ⟨.hbm, 101, rfl⟩
abbrev main_call5_c_3 : Ref sig .tc := ⟨.hbm, 102, rfl⟩
abbrev main_call5_v12 : Ref sig .tc := ⟨.hbm, 103, rfl⟩
abbrev main_call5_v13 : Ref sig .tc := ⟨.hbm, 104, rfl⟩
abbrev main_call5_cst : Ref sig .tc := ⟨.hbm, 105, rfl⟩
abbrev main_call5_v14 : Ref sig .tc := ⟨.hbm, 106, rfl⟩
abbrev main_v21 : Ref sig .tc := ⟨.hbm, 107, rfl⟩
abbrev main_v22 : Ref sig .tc := ⟨.hbm, 108, rfl⟩
abbrev main_v23 : Ref sig .tc := ⟨.hbm, 109, rfl⟩
abbrev main_v24 : Ref sig .tc := ⟨.hbm, 110, rfl⟩
abbrev main_cst_4 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_v29 : Ref sig .tc := ⟨.hbm, 117, rfl⟩
abbrev main_v30 : Ref sig .tc := ⟨.hbm, 118, rfl⟩
abbrev main_cst_6 : Ref sig .tc := ⟨.hbm, 119, rfl⟩
abbrev main_cst_7 : Ref sig .tc := ⟨.hbm, 120, rfl⟩
abbrev main_call6_v0 : Ref sig .tc := ⟨.hbm, 121, rfl⟩
abbrev main_call6_v1 : Ref sig .tc := ⟨.hbm, 122, rfl⟩
abbrev main_v31 : Ref sig .tc := ⟨.hbm, 123, rfl⟩
abbrev main_cst_8 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_cst_9 : Ref sig .tc := ⟨.hbm, 131, rfl⟩
abbrev main_v38 : Ref sig .tc := ⟨.hbm, 132, rfl⟩
abbrev main_v39 : Ref sig .tc := ⟨.hbm, 133, rfl⟩
abbrev main_cst_10 : Ref sig .tc := ⟨.hbm, 134, rfl⟩
abbrev main_v40 : Ref sig .tc := ⟨.hbm, 135, rfl⟩
abbrev main_v41 : Ref sig .tc := ⟨.hbm, 136, rfl⟩
abbrev main_cst_11 : Ref sig .tc := ⟨.hbm, 137, rfl⟩
abbrev main_v42 : Ref sig .tc := ⟨.hbm, 138, rfl⟩
abbrev main_v43 : Ref sig .tc := ⟨.hbm, 139, rfl⟩
abbrev main_cst_12 : Ref sig .tc := ⟨.hbm, 140, rfl⟩
abbrev main_v44 : Ref sig .tc := ⟨.hbm, 141, rfl⟩
abbrev main_cst_13 : Ref sig .tc := ⟨.hbm, 142, rfl⟩
abbrev main_v45 : Ref sig .tc := ⟨.hbm, 143, rfl⟩

abbrev nD : Nat := 1
abbrev τ : Topo := Topo.v7x

variable {F : FTy → Type} [FloatOps F]

class Facts₀ : Prop where
  reducesTo_S4x512x32000_S4x512_d2 : S4x512x32000.ReducesTo [2] S4x512
  h_S_ : 0 < S_.numel
  bcast_S_S4x512 : S_.BroadcastsInDim S4x512 (![] : Fin 0 → Fin S4x512.rank)
  bcast_S4x512_S4x512x1_0_1 : S4x512.BroadcastsInDim S4x512x1 (![0, 1] : Fin 2 → Fin S4x512x1.rank)
  bcast_S4x512x1_S4x512x32000_0_1_2 : S4x512x1.BroadcastsInDim S4x512x32000 (![0, 1, 2] : Fin 3 → Fin S4x512x32000.rank)
  bcast_S_S4x512x1 : S_.BroadcastsInDim S4x512x1 (![] : Fin 0 → Fin S4x512x1.rank)
  shapeCasts_S4x512x1_S4x512x1x1 : S4x512x1.ShapeCasts S4x512x1x1
  bcast_S_S4x512x1x1 : S_.BroadcastsInDim S4x512x1x1 (![] : Fin 0 → Fin S4x512x1x1.rank)
  bcast_S1_S1x1x1x1_3 : S1.BroadcastsInDim S1x1x1x1 (![3] : Fin 1 → Fin S1x1x1x1.rank)
  bcast_S1x1x1x1_S4x512x1x1_0_1_2_3 : S1x1x1x1.BroadcastsInDim S4x512x1x1 (![0, 1, 2, 3] : Fin 4 → Fin S4x512x1x1.rank)
  reducesTo_S4x512x1x1_S4x512x1_d3 : S4x512x1x1.ReducesTo [3] S4x512x1
  shapeCasts_S4x512x1_S4x512 : S4x512x1.ShapeCasts S4x512
  reducesTo_S4x512_S4_d1 : S4x512.ReducesTo [1] S4
  natLt_1_32 : 1 < 32
  bcast_S_S4 : S_.BroadcastsInDim S4 (![] : Fin 0 → Fin S4.rank)
  reducesTo_S4_S_d0 : S4.ReducesTo [0] S_
  dot_S4x512x2048_S32000x2048_S4x512x32000_2_1_01_0_n_n_wf : DotDims.WF S4x512x2048 S32000x2048 S4x512x32000 [2] [1] [0, 1] [0] [] []
  gather_S4x512x32000_S4x512x1x1_S4x512x1_n_2_01_01_2_3_111_wf : GatherDims.WF S4x512x32000 S4x512x1x1 S4x512x1 [] [2] [0, 1] [2] [0, 1] 3 ![1, 1, 1]

variable [Facts₀]

def dot_S4x512x2048_S32000x2048_S4x512x32000_2_1_01_0_n_n : DotDims S4x512x2048 S32000x2048 S4x512x32000 where
  lhsContracting := [2]
  rhsContracting := [1]
  lhsNonContracting := [0, 1]
  rhsNonContracting := [0]
  lhsBatch := []
  rhsBatch := []
  wf := dot_S4x512x2048_S32000x2048_S4x512x32000_2_1_01_0_n_n_wf
def gather_S4x512x32000_S4x512x1x1_S4x512x1_n_2_01_01_2_3_111 : GatherDims S4x512x32000 S4x512x1x1 S4x512x1 where
  offsetDims := []
  collapsedSliceDims := [2]
  operandBatchingDims := [0, 1]
  startIndicesBatchingDims := [0, 1]
  startIndexMap := [2]
  indexVectorDim := 3
  sliceSizes := ![1, 1, 1]
  wf := gather_S4x512x32000_S4x512x1x1_S4x512x1_n_2_01_01_2_3_111_wf

class Facts : Prop extends Facts₀ where

variable [Facts]
-- ==== Proof.Spec.lean ====
/-
  The mathematics both programs compute, stated once and free of either program.

  A token's logits are the contractions of its hidden-state row with each of the 32000 vocabulary rows.
  One side takes the log-softmax of that row at the token's label in the textbook order: the logit there,
  less the row's maximum, less the logarithm of the sum of the exponentials of the shifted row.
  The other side walks the row in 25 chunks of 1280 columns and keeps three numbers per token: a running
  maximum `m`, a running sum `l` of exponentials taken relative to `m` (rescaled whenever `m` grows), and a
  running sum `t` of the logits at the columns equal to the label; it ends with `t - (m + log l)`.
  On finite logits the two are one number (OnlineSoftmax.lean).
-/
import Idealize.ShloMosaic.PureOps.Ideal
import Idealize.ShloMosaic.Lib.ValueIdx

noncomputable section

namespace Cert.Kto

open Idealize.ShloMosaic Idealize.ShloMosaic.ValueIdx

/-- A token's logit against vocabulary row `v`: the contraction over the 2048 hidden coordinates. -/
def logit (X : (⟨2, ![2048, 2048]⟩ : Shape).Idx → EReal) (W : (⟨2, ![32000, 2048]⟩ : Shape).Idx → EReal)
    (n : Fin 2048) (v : Fin 32000) : EReal := ∑ h : Fin 2048, X (ix2 n h) * W (ix2 v h)

/-- The same contraction inside one staged pair of blocks: all 2048 token rows of one model against the
    1280 vocabulary rows of one chunk (both blocks carry a leading unit axis). -/
def blockLogit (xb : (⟨3, ![1, 2048, 2048]⟩ : Shape).Idx → EReal) (wb : (⟨3, ![1, 1280, 2048]⟩ : Shape).Idx → EReal)
    (n : Fin 2048) (j : Fin 1280) : EReal := ∑ h : Fin 2048, xb (ix3 0 n h) * wb (ix3 0 j h)

/-- The maximum of a finite family, starting from -∞. -/
def maxOver {ι : Type} [Fintype ι] (f : ι → EReal) : EReal := (Finset.univ : Finset ι).fold max ⊥ f

/-- Log-softmax of the row `z` at entry `l`, in the textbook order of operations. -/
def logSoftmaxAt (z : Fin 32000 → EReal) (l : Fin 32000) : EReal :=
  (z l - maxOver z) - Ideal.log (∑ v : Fin 32000, Ideal.exp (z v - maxOver z))

/-- Column `j` of vocabulary chunk `k` (taken mod 32000 so that it is a column for every `k`; for `k < 25`
    it is `1280 * k + j`). -/
def col (k : ℕ) (j : Fin 1280) : Fin 32000 := ⟨(1280 * k + j.val) % 32000, Nat.mod_lt _ (by norm_num)⟩

/-- One chunk's update of the running maximum. -/
def stepM (m : EReal) (zc : Fin 1280 → EReal) : EReal := max m (maxOver zc)

/-- One chunk's update of the running sum of exponentials: the old sum rescaled to the new maximum, plus
    the chunk's own exponentials relative to the new maximum. -/
def stepL (m l : EReal) (zc : Fin 1280 → EReal) : EReal :=
  Ideal.exp (m - stepM m zc) * l + ∑ j : Fin 1280, Ideal.exp (zc j - stepM m zc)

/-- One chunk's update of the target-logit sum: the chunk's logits at the columns marked `hit`. -/
def stepT (t : EReal) (zc : Fin 1280 → EReal) (hit : Fin 1280 → Bool) : EReal :=
  t + ∑ j : Fin 1280, if hit j then zc j else 0

/-- The three running numbers `(m, l, t)` after the first `k` chunks of the row `z`. -/
def online (z : Fin 32000 → EReal) (hit : Fin 32000 → Bool) : ℕ → EReal × EReal × EReal
  | 0 => (⊥, 0, 0)
  | k + 1 =>
    (stepM (online z hit k).1 (fun j => z (col k j)),
     stepL (online z hit k).1 (online z hit k).2.1 (fun j => z (col k j)),
     stepT (online z hit k).2.2 (fun j => z (col k j)) (fun j => hit (col k j)))

/-- What is written for a token once its 25 chunks are done. -/
def onlineLogp (z : Fin 32000 → EReal) (hit : Fin 32000 → Bool) : EReal :=
  (online z hit 25).2.2 - ((online z hit 25).1 + Ideal.log (online z hit 25).2.1)

/-- The columns a 32-bit label word marks: those whose number is the word. -/
def hitOf (lab : BitVec 32) (v : Fin 32000) : Bool := decide (lab = BitVec.ofNat 32 v.val)

end Cert.Kto

end
-- ==== Proof.Loss.lean ====
/-
  What surrounds the per-token log-probabilities, stated once for both programs.

  Tokens are indexed by sequence `b : Fin 4` and position `t : Fin 512`.  A token's logit row contracts its hidden
  state with the 32000 vocabulary rows.  Its label word is its target when the target is not the ignore value -100
  and 0 otherwise, and its mask is 1 or 0 accordingly.  Each model's score of a sequence is the masked sum of the
  token values over the number of unmasked tokens; the loss of a sequence is `1 - 1 / (1 + exp (-(β (s_policy -
  s_reference) σ)))` with `β` the f32 nearest 0.1 and `σ = ±1` by the sequence's preference bit; the result is the
  sum of the four losses over 4.
-/
import proofs.«403809_j74698071212406_3_alg».proof.Proof.Spec

noncomputable section

namespace Cert.Kto

open Idealize.ShloMosaic Idealize.ShloMosaic.ValueIdx

/-- The logit row of token `(b, t)`: hidden state `x[b, t, :]` against every vocabulary row of `w`. -/
def rowZ (x : (⟨3, ![4, 512, 2048]⟩ : Shape).Idx → EReal) (w : (⟨2, ![32000, 2048]⟩ : Shape).Idx → EReal)
    (b : Fin 4) (t : Fin 512) : Fin 32000 → EReal := fun v => ∑ h : Fin 2048, x (ix3 b t h) * w (ix2 v h)

/-- The ignore value -100 as a 32-bit word. -/
abbrev ignoreWord : BitVec 32 := 4294967196#32

/-- A token's label word: its target unless that is the ignore value, then 0. -/
def labelOf (y : BitVec 32) : BitVec 32 := if y = ignoreWord then 0#32 else y

/-- A token's mask as an extended real: 0 at the ignore value, 1 elsewhere. -/
def maskOf (y : BitVec 32) : EReal := if y = ignoreWord then 0 else 1

/-- A sequence's masked average of per-token values, over a given denominator. -/
def maskedAvg (tok : Fin 4 → Fin 512 → EReal) (mk : Fin 4 → Fin 512 → EReal) (den : Fin 4 → EReal) (b : Fin 4) : EReal :=
  Ideal.div (0 + ∑ t : Fin 512, tok b t * mk b t) (den b)

/-- The number of unmasked tokens of a sequence, as the sum of the masks from 0. -/
def maskCount (mk : Fin 4 → Fin 512 → EReal) (b : Fin 4) : EReal := 0 + ∑ t : Fin 512, mk b t

/-- The preference sign: +1 where the bit is set, -1 where it is not (the f32 words of 1.0 and -1.0). -/
def prefSign (p : BitVec 1) : EReal :=
  if p = 1#1 then Ideal.ofBits .f32 0x3F800000#32 else Ideal.ofBits .f32 0xBF800000#32

/-- The loss from the two models' sequence scores and the preference signs, operation by operation. -/
def ktoLoss (sp sr sg : Fin 4 → EReal) : EReal :=
  Ideal.div
    (0 + ∑ b : Fin 4,
      (Ideal.ofBits .f32 0x3F800000#32
        - Ideal.div (Ideal.ofBits .f32 0x3F800000#32)
            (Ideal.ofBits .f32 0x3F800000#32
              + Ideal.exp (-(Ideal.ofBits .f32 0x3DCCCCCD#32 * (sp b - sr b) * sg b)))))
    (Ideal.ofBits .f32 0x40800000#32)

/-- The whole result from the two models' per-token values, the targets, the denominators and the preference bits. -/
def resultOf (tokP tokR : Fin 4 → Fin 512 → EReal) (y : Fin 4 → Fin 512 → BitVec 32) (den : Fin 4 → EReal)
    (pref : Fin 4 → BitVec 1) : EReal :=
  ktoLoss (maskedAvg tokP (fun b t => maskOf (y b t)) den) (maskedAvg tokR (fun b t => maskOf (y b t)) den)
    (fun b => prefSign (pref b))

end Cert.Kto

end
-- ==== Proof.KArrays.lean ====
/-
  The arrays the pipelined region works on, by coordinates.

  Before the region the program flattens the two hidden-state arrays to 2048 tokens each and stacks them (model 0 the
  policy, model 1 the reference model), stacks the two vocabulary matrices likewise, and flattens the label words
  (the target, or 0 at the ignore value) to a column of 2048; the changes of float format are the identity on
  extended reals.  Grid point `t` of the 2 x 25 grid is model `t / 25`, vocabulary chunk `t % 25`: its blocks are all
  2048 token rows of that model, the chunk's 1280 vocabulary rows of that model, and the whole label column.
-/
import proofs.«403809_j74698071212406_3_alg».proof.Proof.Gen.KernelIdeal.Frame
import proofs.«403809_j74698071212406_3_alg».proof.Proof.Loss
import Idealize.ShloMosaic.Lib.Pipeline.Value
import Idealize.ShloMosaic.Lib.Affine

set_option maxRecDepth 16384

noncomputable section

namespace Cert.Kto.K

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (c : Dev nD)

/-- The stacked hidden states, the stacked vocabulary matrices and the label column as the region finds them. -/
abbrev xarr : Vec Ideal S2x2048x2048 .bf16 := V m c main_v10
abbrev warr : Vec Ideal S2x32000x2048 .bf16 := V m c main_v15
abbrev larr : Vec Ideal S2048x1 .i32 := V m c main_v3

/-- The three input blocks staged at grid point `t`. -/
abbrev xblk (t : Fin cfg0.N) : Vec Ideal S1x2048x2048 .bf16 := iblk m c 0 t
abbrev wblk (t : Fin cfg0.N) : Vec Ideal S1x1280x2048 .bf16 := iblk m c 1 t
abbrev lblk (t : Fin cfg0.N) : Vec Ideal S2048x1 .i32 := iblk m c 2 t

/-- The program's six arguments. -/
abbrev a0 : Vec Ideal S4x512x2048 .f32 := m ((c.tc : Thread nD τ).loc main_arg0)
abbrev a1 : Vec Ideal S4x512x2048 .f32 := m ((c.tc : Thread nD τ).loc main_arg1)
abbrev a2 : Vec Ideal S4x512 .i32 := m ((c.tc : Thread nD τ).loc main_arg2)
abbrev a3 : Vec Ideal S4 .i1 := m ((c.tc : Thread nD τ).loc main_arg3)
abbrev a4 : Vec Ideal S32000x2048 .f32 := m ((c.tc : Thread nD τ).loc main_arg4)
abbrev a5 : Vec Ideal S32000x2048 .f32 := m ((c.tc : Thread nD τ).loc main_arg5)

/-- The flat number of token `(b, s)`. -/
def tokIx (b : Fin 4) (s : Fin 512) : Fin 2048 := ⟨512 * b.val + s.val, by omega⟩

/-- The model a grid point works on. -/
def mdlOf (t : Fin cfg0.N) : Fin 2 :=
  ⟨t.val / 25, by have h : t.val < 50 := lt_of_lt_of_eq t.isLt (show cfg0.N = 50 from N_0); omega⟩

/-- The blocks' index maps over the grid: the hidden-state block follows the model, the vocabulary block the model and
    the chunk, the label block stays put. -/
theorem idx_facts : ∀ t : Fin cfg0.N,
    win0_0.index t (0 : Fin 3) = t.val / 25 ∧ win0_0.index t (1 : Fin 3) = 0 ∧ win0_0.index t (2 : Fin 3) = 0
    ∧ win0_1.index t (0 : Fin 3) = t.val / 25 ∧ win0_1.index t (1 : Fin 3) = t.val % 25 ∧ win0_1.index t (2 : Fin 3) = 0
    ∧ win0_2.index t (0 : Fin 2) = 0 ∧ win0_2.index t (1 : Fin 2) = 0 :=
  (by decide +kernel : ∀ t : Fin grid0.N, _)

theorem xblk_apply (t : Fin cfg0.N) (n : Fin 2048) (h : Fin 2048) :
    xblk m c t (ix3 0 n h) = xarr m c (ix3 (mdlOf t) n h) := by
  obtain ⟨e0, e1, e2, -⟩ := idx_facts t
  show V m c main_v10 (((cfg0.win 0).blk t).view.emb (ix3 0 n h)) = V m c main_v10 (ix3 (mdlOf t) n h)
  refine congrArg _ (funext fun a => Fin.ext ?_)
  match a with
  | ⟨0, _⟩ => show win0_0.index t (0 : Fin 3) * 1 + 1 * 0 = t.val / 25; omega
  | ⟨1, _⟩ => show win0_0.index t (1 : Fin 3) * 2048 + 1 * n.val = n.val; omega
  | ⟨2, _⟩ => show win0_0.index t (2 : Fin 3) * 2048 + 1 * h.val = h.val; omega

theorem wblk_apply (t : Fin cfg0.N) (j : Fin 1280) (h : Fin 2048) :
    wblk m c t (ix3 0 j h) = warr m c (ix3 (mdlOf t) (col (t.val % 25) j) h) := by
  obtain ⟨-, -, -, e0, e1, e2, -⟩ := idx_facts t
  show V m c main_v15 (((cfg0.win 1).blk t).view.emb (ix3 0 j h)) = V m c main_v15 (ix3 (mdlOf t) (col (t.val % 25) j) h)
  refine congrArg _ (funext fun a => Fin.ext ?_)
  match a with
  | ⟨0, _⟩ => show win0_1.index t (0 : Fin 3) * 1 + 1 * 0 = t.val / 25; omega
  | ⟨1, _⟩ =>
    show win0_1.index t (1 : Fin 3) * 1280 + 1 * j.val = (1280 * (t.val % 25) + j.val) % 32000
    have hj : j.val < 1280 := j.isLt
    have hk : t.val % 25 < 25 := Nat.mod_lt _ (by norm_num)
    rw [Nat.mod_eq_of_lt (by omega)]; omega
  | ⟨2, _⟩ => show win0_1.index t (2 : Fin 3) * 2048 + 1 * h.val = h.val; omega

theorem lblk_apply (t : Fin cfg0.N) (n : Fin 2048) :
    lblk m c t (ix2 n 0) = larr m c (ix2 n 0) := by
  obtain ⟨-, -, -, -, -, -, e0, e1⟩ := idx_facts t
  show V m c main_v3 (((cfg0.win 2).blk t).view.emb (ix2 n 0)) = V m c main_v3 (ix2 n 0)
  refine congrArg _ (funext fun a => Fin.ext ?_)
  match a with
  | ⟨0, _⟩ => show win0_2.index t (0 : Fin 2) * 2048 + 1 * n.val = n.val; omega
  | ⟨1, _⟩ => show win0_2.index t (1 : Fin 2) * 1 + 1 * 0 = 0; omega

/-! ### The arrays before the region, as operations of the arguments -/

/-- The stacked hidden states: each argument flattened to 2048 tokens, given a leading unit axis, the two laid one
    after the other along it. -/
theorem xarr_eq : @Eq (Vec Ideal S2x2048x2048 .bf16) (V m c main_v10)
    (concatenate S2x2048x2048 0
      [⟨S1x2048x2048, broadcastInDim S1x2048x2048 ![1, 2] bcast_S2048x2048_S1x2048x2048_1_2
          (truncf (F := Ideal) .bf16 (shapeCast S2048x2048 (a0 m c) shapeCasts_S4x512x2048_S2048x2048) bitsLt_bf16_f32)⟩,
       ⟨S1x2048x2048, broadcastInDim S1x2048x2048 ![1, 2] bcast_S2048x2048_S1x2048x2048_1_2
          (truncf (F := Ideal) .bf16 (shapeCast S2048x2048 (a1 m c) shapeCasts_S4x512x2048_S2048x2048) bitsLt_bf16_f32)⟩]
      concatenates_S1x2048x2048_S1x2048x2048_S2x2048x2048_d0) := by
  dsimp only [Gen.V, Gen.V0]
  simp only [Gen.hostOps0, Gen.hostOps0_1, Gen.hostOps0_2, List.flatten_cons, List.flatten_nil, List.append_nil,
    List.cons_append, List.nil_append]
  after_results
  rfl

/-- The stacked vocabulary matrices: each argument given a leading unit axis, the two laid one after the other. -/
theorem warr_eq : @Eq (Vec Ideal S2x32000x2048 .bf16) (V m c main_v15)
    (concatenate S2x32000x2048 0
      [⟨S1x32000x2048, broadcastInDim S1x32000x2048 ![1, 2] bcast_S32000x2048_S1x32000x2048_1_2
          (truncf (F := Ideal) .bf16 (a4 m c) bitsLt_bf16_f32)⟩,
       ⟨S1x32000x2048, broadcastInDim S1x32000x2048 ![1, 2] bcast_S32000x2048_S1x32000x2048_1_2
          (truncf (F := Ideal) .bf16 (a5 m c) bitsLt_bf16_f32)⟩]
      concatenates_S1x32000x2048_S1x32000x2048_S2x32000x2048_d0) := by
  dsimp only [Gen.V, Gen.V0]
  simp only [Gen.hostOps0, Gen.hostOps0_1, Gen.hostOps0_2, List.flatten_cons, List.flatten_nil, List.append_nil,
    List.cons_append, List.nil_append]
  after_results

/-- The label column: the targets where they differ from the ignore value and 0 where they do not, flattened. -/
theorem larr_eq : @Eq (Vec Ideal S2048x1 .i32) (V m c main_v3)
    (shapeCast S2048x1
      (select (cmpi .ne (a2 m c) (broadcastInDim S4x512 ![] bcast_S_S4x512 (constantI S_ 32 4294967196#32)))
        (a2 m c) (broadcastInDim S4x512 ![] bcast_S_S4x512 (constantI S_ 32 0#32)))
      shapeCasts_S4x512_S2048x1) := by
  dsimp only [Gen.V, Gen.V0]
  simp only [Gen.hostOps0, Gen.hostOps0_1, Gen.hostOps0_2, List.flatten_cons, List.flatten_nil, List.append_nil,
    List.cons_append, List.nil_append]
  after_results
  rfl

/-! ### The same operations read at an index -/

/-- Flattening sequence and position to a token keeps the row-major place: token `512 b + s`. -/
theorem flat_apply (A : S4x512x2048.Idx → EReal) (b : Fin 4) (s : Fin 512) (h : Fin 2048) :
    shapeCast S2048x2048 A shapeCasts_S4x512x2048_S2048x2048 (ix2 (tokIx b s) h) = A (ix3 b s h) := by
  refine shapeCast_apply A _ _ (ix3 b s h) ?_
  rw [Shape.rowMajor_val_three, Shape.rowMajor_val_two]
  show (b.val * 512 + s.val) * 2048 + h.val = (512 * b.val + s.val) * 2048 + h.val
  omega

/-- A matrix given a leading unit axis, read there at `0`. -/
theorem lead_apply {r q : ℕ} (A : (⟨2, ![r, q]⟩ : Shape).Idx → EReal)
    (hb : (⟨2, ![r, q]⟩ : Shape).BroadcastsInDim ⟨3, ![1, r, q]⟩ ![1, 2]) (n : Fin r) (h : Fin q) :
    broadcastInDim ⟨3, ![1, r, q]⟩ ![1, 2] hb A (ix3 0 n h) = A (ix2 n h) := by
  refine broadcastInDim_apply _ hb A _ (ix2 n h) (fun a => ?_)
  match a with
  | ⟨0, _⟩ =>
    show n.val = if r = 1 then 0 else n.val
    split
    · next hr => have := n.isLt; omega
    · rfl
  | ⟨1, _⟩ =>
    show h.val = if q = 1 then 0 else h.val
    split
    · next hq => have := h.isLt; omega
    · rfl

/-- Two arrays with a leading unit axis stacked along it: model 0 reads the first. -/
theorem stack_zero {r q : ℕ} (P Q : (⟨3, ![1, r, q]⟩ : Shape).Idx → EReal)
    (hc : Shape.Concatenates [⟨3, ![1, r, q]⟩, ⟨3, ![1, r, q]⟩] ⟨3, ![2, r, q]⟩ 0) (n : Fin r) (h : Fin q) :
    concatenate ⟨3, ![2, r, q]⟩ 0 [⟨⟨3, ![1, r, q]⟩, P⟩, ⟨⟨3, ![1, r, q]⟩, Q⟩] hc (ix3 0 n h) = P (ix3 0 n h) := by
  refine concatenate_pair_apply_left (t := ⟨3, ![2, r, q]⟩) (0 : Fin 3) P Q hc (ix3 (0 : Fin 2) n h) rfl
    (ix3 (0 : Fin 1) n h) (fun a => ?_)
  match a with
  | ⟨0, _⟩ => rfl
  | ⟨1, _⟩ => rfl
  | ⟨2, _⟩ => rfl

/-- And model 1 reads the second. -/
theorem stack_one {r q : ℕ} (P Q : (⟨3, ![1, r, q]⟩ : Shape).Idx → EReal)
    (hc : Shape.Concatenates [⟨3, ![1, r, q]⟩, ⟨3, ![1, r, q]⟩] ⟨3, ![2, r, q]⟩ 0) (n : Fin r) (h : Fin q) :
    concatenate ⟨3, ![2, r, q]⟩ 0 [⟨⟨3, ![1, r, q]⟩, P⟩, ⟨⟨3, ![1, r, q]⟩, Q⟩] hc (ix3 1 n h) = Q (ix3 0 n h) := by
  refine concatenate_pair_apply_right (t := ⟨3, ![2, r, q]⟩) (0 : Fin 3) P Q hc (ix3 (1 : Fin 2) n h) rfl rfl
    (ix3 (0 : Fin 1) n h) (fun a ha => ?_) ?_
  · match a with
    | ⟨0, _⟩ => exact absurd rfl ha
    | ⟨1, _⟩ => rfl
    | ⟨2, _⟩ => rfl
  · show 0 + 1 = 1
    rfl

/-- The word kept where the target is not the ignore value, 0 where it is: the label word. -/
theorem label_word (y : BitVec 32) : Scalar.select (IntOp.cmpi .ne y 4294967196#32) y 0#32 = labelOf y := by
  unfold labelOf Scalar.select
  by_cases hy : y = ignoreWord
  · rw [if_pos hy]
    exact if_neg fun h => (IntOp.cmpi_ne.mp h) hy
  · rw [if_neg hy]
    exact if_pos (IntOp.cmpi_ne.mpr hy)

theorem xarr_policy (b : Fin 4) (s : Fin 512) (h : Fin 2048) :
    xarr m c (ix3 0 (tokIx b s) h) = a0 m c (ix3 b s h) := by
  refine (congrFun (xarr_eq m c) _).trans ?_
  refine (stack_zero _ _ _ (tokIx b s) h).trans ?_
  refine (lead_apply _ _ (tokIx b s) h).trans ?_
  exact flat_apply (a0 m c) b s h

theorem xarr_reference (b : Fin 4) (s : Fin 512) (h : Fin 2048) :
    xarr m c (ix3 1 (tokIx b s) h) = a1 m c (ix3 b s h) := by
  refine (congrFun (xarr_eq m c) _).trans ?_
  refine (stack_one _ _ _ (tokIx b s) h).trans ?_
  refine (lead_apply _ _ (tokIx b s) h).trans ?_
  exact flat_apply (a1 m c) b s h

theorem warr_policy (v : Fin 32000) (h : Fin 2048) : warr m c (ix3 0 v h) = a4 m c (ix2 v h) := by
  refine (congrFun (warr_eq m c) _).trans ?_
  refine (stack_zero _ _ _ v h).trans ?_
  exact lead_apply _ _ v h

theorem warr_reference (v : Fin 32000) (h : Fin 2048) : warr m c (ix3 1 v h) = a5 m c (ix2 v h) := by
  refine (congrFun (warr_eq m c) _).trans ?_
  refine (stack_one _ _ _ v h).trans ?_
  exact lead_apply _ _ v h

theorem larr_apply (b : Fin 4) (s : Fin 512) :
    larr m c (ix2 (tokIx b s) 0) = labelOf (a2 m c (ix2 b s)) := by
  refine (congrFun (larr_eq m c) _).trans ?_
  refine (shapeCast_apply _ _ _ (ix2 b s) ?_).trans ?_
  · rw [Shape.rowMajor_val_two, Shape.rowMajor_val_two]
    show b.val * 512 + s.val = (512 * b.val + s.val) * 1 + 0
    omega
  · show Scalar.select (IntOp.cmpi .ne (a2 m c (ix2 b s)) 4294967196#32) (a2 m c (ix2 b s)) 0#32 = _
    exact label_word _

end Cert.Kto.K

end
-- ==== Proof.KPieces.lean ====
/-
  What one grid point leaves behind, token by token.

  At every point, for every token row `n`, the body forms the row's 1280 logits against the staged vocabulary chunk
  and updates the three running numbers of the streamed log-softmax: from `(-∞, 0, 0)` at a model's first chunk
  (where the scratch is reset first), from what the point before left otherwise; at a model's last chunk it also
  writes `t - (m + log l)` of the updated numbers.  The four row chunks of 512 the body walks are four copies of the
  same update on disjoint rows, so the statement is uniform in the row.
-/
import proofs.«403809_j74698071212406_3_alg».proof.Proof.Gen.KernelIdeal.Frame
import proofs.«403809_j74698071212406_3_alg».proof.Proof.Loss
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.CanonAppend
import Idealize.ShloMosaic.Lib.Pipeline.RowLoads

set_option maxRecDepth 16384

noncomputable section

namespace Cert.Kto.K

open Idealize.ShloMosaic Idealize.ShloMosaic.ValueIdx Idealize.ShloMosaic.TcCoe Idealize.SL.Sem
open Cert.KernelIdeal Cert.KernelIdeal.Gen
open Idealize.ShloMosaic.Tactic

section Layout
variable {α : Type}

/-- A vector of 512 entries viewed as a column reads, at row p, its entry p. -/
theorem castCol_apply (v : S512.Idx → α) (h : S512.ShapeCasts S512x1) (p : Fin 512) (q : Fin 1) :
    shapeCast S512x1 v h (ix2 p q) = v (ix1 p) :=
  shapeCast_apply v h _ _ (by
    have hq : q.val = 0 := by omega
    rw [Shape.rowMajor_val_two, Shape.rowMajor_val_one]
    show p.val = p.val * 1 + q.val
    omega)

/-- A column broadcast along the 1280 lanes reads, at (p, j), the column's entry p. -/
theorem bcastCol_apply (v : S512x1.Idx → α) (h : S512x1.Broadcasts S512x1280) (p : Fin 512) (j : Fin 1280) :
    broadcastTo S512x1280 v h (ix2 p j) = v (ix2 p (0 : Fin 1)) := by
  refine broadcastTo_apply v h (ix2 p j) (ix2 p (0 : Fin 1)) fun ax => ?_
  match ax with
  | ⟨0, _⟩ => rfl
  | ⟨1, _⟩ => rfl

end Layout

/-- The f32 pattern of -∞ is the extended real -∞. -/
theorem ofBits_negInf : Ideal.ofBits .f32 0xFF800000#32 = (⊥ : EReal) := by
  simp [Ideal.ofBits, Ideal.ieee]

/-- The lane maximum then the running maximum: one step of the running maximum. -/
theorem pay28_apply (lg : FVec Ideal S512x1280 .f32) (mp : Vec Ideal S512x1 .f32) (p : Fin 512) :
    k0_pay28 (F := Ideal) lg mp (ix2 p (0 : Fin 1)) = stepM (mp (ix2 p (0 : Fin 1))) (fun j => lg (ix2 p j)) := by
  unfold k0_pay28 stepM maxOver
  refine (maximumf_apply _ _ _).trans ?_
  refine congrArg (max (mp (ix2 p (0 : Fin 1)))) ?_
  refine (castCol_apply _ _ p 0).trans ?_
  refine (Ideal.multiReduction_maximumf_single (a := (1 : Fin S512x1280.rank)) (t := S512) lg 0xFF800000#32 Facts₀.reduces_S512x1280_S512 (.inl rfl) rfl (ix1 p)).trans ?_
  have hl : ∀ j : Fin 1280, Facts₀.reduces_S512x1280_S512.lift (ix1 p) j = ix2 p j := fun j => by
    funext a; apply Fin.ext
    match a with
    | ⟨0, _⟩ => rfl
    | ⟨1, _⟩ => rfl
  have hb : FloatOps.ofBits (F := Ideal) .f32 0xFF800000#32 = (⊥ : EReal) := ofBits_negInf
  rw [hb]
  exact congrArg (fun f => Finset.fold max (⊥ : EReal) f Finset.univ) (funext fun j => congrArg lg (hl j))

/-- The lift of row p with lane j, by coordinates. -/
theorem lift_row (p : Fin 512) (j : Fin 1280) : Facts₀.reduces_S512x1280_S512.lift (ix1 p) j = ix2 p j := by
  funext a; apply Fin.ext
  match a with
  | ⟨0, _⟩ => rfl
  | ⟨1, _⟩ => rfl

/-- One step of the running sum of exponentials. -/
theorem pay30_apply (lg : FVec Ideal S512x1280 .f32) (mp lp : Vec Ideal S512x1 .f32) (p : Fin 512) :
    k0_pay30 (F := Ideal) lg mp lp (ix2 p (0 : Fin 1))
      = stepL (mp (ix2 p (0 : Fin 1))) (lp (ix2 p (0 : Fin 1))) (fun j => lg (ix2 p j)) := by
  unfold k0_pay30 stepL
  refine (congrFun (shapeCast_self _ _) _).trans ?_
  refine (addf_apply _ _ _).trans ?_
  refine congrArg₂ (· + ·) ?_ ?_
  · refine (mulf_apply _ _ _).trans ?_
    refine congrArg (· * lp (ix2 p (0 : Fin 1))) ?_
    show Ideal.exp (mp (ix2 p (0 : Fin 1)) - k0_pay28 (F := Ideal) lg mp (ix2 p (0 : Fin 1))) = _
    rw [pay28_apply]
  · refine (castCol_apply _ _ p 0).trans ?_
    refine (Ideal.multiReduction_add_single (a := (1 : Fin S512x1280.rank)) (t := S512) _ 0x00000000#32 Facts₀.reduces_S512x1280_S512 (.inl rfl) rfl (ix1 p)).trans ?_
    refine Finset.sum_congr rfl ?_
    intro (j : Fin 1280) _
    rw [lift_row p j]
    show Ideal.exp (lg (ix2 p j) - broadcastTo S512x1280 (k0_pay28 (F := Ideal) lg mp) Facts₀.broadcasts_S512x1_S512x1280 (ix2 p j)) = _
    rw [bcastCol_apply, pay28_apply]

/-- One step of the target-logit sum over a lane mask. -/
theorem pay4_apply (lg : FVec Ideal S512x1280 .f32) (hit : IVec S512x1280 1) (tp : Vec Ideal S512x1 .f32) (p : Fin 512) :
    k0_pay4 (F := Ideal) lg hit (Scalar.ofBits .f32 0x00000000#32) tp (ix2 p (0 : Fin 1))
      = tp (ix2 p (0 : Fin 1)) + ∑ j : Fin 1280, (if hit (ix2 p j) = 1#1 then lg (ix2 p j) else 0) := by
  unfold k0_pay4
  refine (congrFun (shapeCast_self _ _) _).trans ?_
  refine (addf_apply _ _ _).trans ?_
  refine congrArg (tp (ix2 p (0 : Fin 1)) + ·) ?_
  refine (castCol_apply _ _ p 0).trans ?_
  refine (Ideal.multiReduction_add_single (a := (1 : Fin S512x1280.rank)) (t := S512) _ 0x00000000#32 Facts₀.reduces_S512x1280_S512 (.inl rfl) rfl (ix1 p)).trans ?_
  refine Finset.sum_congr rfl ?_
  intro (j : Fin 1280) _
  rw [lift_row p j]
  refine (select_apply _ _ _ _).trans ?_
  show (if hit (ix2 p j) = 1 then lg (ix2 p j) else Ideal.ofBits .f32 0x00000000#32) = _
  rw [Ideal.ofBits_zero_f32]
  rfl

/-! The product of a row chunk with the vocabulary block, at an index. -/

theorem dot_lhs0 (i : S512x1280.Idx) (q : dot_S512x2048_S1280x2048_S512x1280_1_1_0_0_n_n.contr.Idx) : (dot_S512x2048_S1280x2048_S512x1280_1_1_0_0_n_n.lhsIdx i q 0).val = (i 0).val := by
  unfold DotDims.lhsIdx
  rw [dif_neg (show ¬(0 : Fin S512x2048.rank) ∈ dot_S512x2048_S1280x2048_S512x1280_1_1_0_0_n_n.lhsBatch by decide), dif_pos (show (0 : Fin S512x2048.rank) ∈ dot_S512x2048_S1280x2048_S512x1280_1_1_0_0_n_n.lhsNonContracting by decide)]
  rfl
theorem dot_lhs1 (i : S512x1280.Idx) (q : dot_S512x2048_S1280x2048_S512x1280_1_1_0_0_n_n.contr.Idx) : (dot_S512x2048_S1280x2048_S512x1280_1_1_0_0_n_n.lhsIdx i q 1).val = (q ⟨0, by decide⟩).val :=
  dot_S512x2048_S1280x2048_S512x1280_1_1_0_0_n_n.lhsIdx_val_of_single rfl i q
theorem dot_rhs0 (i : S512x1280.Idx) (q : dot_S512x2048_S1280x2048_S512x1280_1_1_0_0_n_n.contr.Idx) : (dot_S512x2048_S1280x2048_S512x1280_1_1_0_0_n_n.rhsIdx i q 0).val = (i 1).val := by
  unfold DotDims.rhsIdx
  rw [dif_neg (show ¬(0 : Fin S1280x2048.rank) ∈ dot_S512x2048_S1280x2048_S512x1280_1_1_0_0_n_n.rhsBatch by decide), dif_pos (show (0 : Fin S1280x2048.rank) ∈ dot_S512x2048_S1280x2048_S512x1280_1_1_0_0_n_n.rhsNonContracting by decide)]
  rfl
theorem dot_rhs1 (i : S512x1280.Idx) (q : dot_S512x2048_S1280x2048_S512x1280_1_1_0_0_n_n.contr.Idx) : (dot_S512x2048_S1280x2048_S512x1280_1_1_0_0_n_n.rhsIdx i q 1).val = (q ⟨0, by decide⟩).val :=
  dot_S512x2048_S1280x2048_S512x1280_1_1_0_0_n_n.rhsIdx_val_of_single rfl i q

/-- Entry (p, j) of the product: row p of the token chunk against vocabulary row j of the block, over the 2048 hidden coordinates. -/
theorem pay32_apply (w : Vec Ideal S1x1280x2048 .bf16) (xr : Vec Ideal S1x512x2048 .bf16) (p : Fin 512) (j : Fin 1280) :
    k0_pay32 (F := Ideal) (k0_pay9 (F := Ideal) w) xr (ix2 p j)
      = ∑ h : Fin 2048, xr (ix3 (0 : Fin 1) p h) * w (ix3 (0 : Fin 1) j h) := by
  unfold k0_pay32 k0_pay9
  refine (Ideal.matmul_constant_zero_apply dot_S512x2048_S1280x2048_S512x1280_1_1_0_0_n_n none _ _ (ix2 p j)).trans ?_
  rw [← Equiv.sum_comp (ValueIdx.contrEquiv1 dot_S512x2048_S1280x2048_S512x1280_1_1_0_0_n_n 2048 rfl rfl).symm]
  refine Finset.sum_congr rfl fun h _ => ?_
  have hk := ValueIdx.contrEquiv1_symm_val dot_S512x2048_S1280x2048_S512x1280_1_1_0_0_n_n 2048 rfl rfl h
  have el : dot_S512x2048_S1280x2048_S512x1280_1_1_0_0_n_n.lhsIdx (ix2 p j) ((ValueIdx.contrEquiv1 dot_S512x2048_S1280x2048_S512x1280_1_1_0_0_n_n 2048 rfl rfl).symm h) = ix2 p h := funext fun a => Fin.ext (by
    match a with
    | ⟨0, _⟩ => exact dot_lhs0 _ _
    | ⟨1, _⟩ => exact (dot_lhs1 _ _).trans hk)
  have er : dot_S512x2048_S1280x2048_S512x1280_1_1_0_0_n_n.rhsIdx (ix2 p j) ((ValueIdx.contrEquiv1 dot_S512x2048_S1280x2048_S512x1280_1_1_0_0_n_n 2048 rfl rfl).symm h) = ix2 j h := funext fun a => Fin.ext (by
    match a with
    | ⟨0, _⟩ => exact dot_rhs0 _ _
    | ⟨1, _⟩ => exact (dot_rhs1 _ _).trans hk)
  rw [el, er, shapeCast_1ab_ab_apply, shapeCast_1ab_ab_apply]

/-! The lane mask: lane j is marked when the lane number is the label less the chunk's first column. -/

theorem pay33_apply (v5 : BitVec 32) (lab : Vec Ideal S512x1 .i32) (p : Fin 512) (j : Fin 1280) :
    k0_pay33 (F := Ideal) v5 lab (ix2 p j)
      = IntOp.cmpi .eq (BitVec.ofNat 32 j.val) (IntOp.subi (lab (ix2 p (0 : Fin 1))) v5) := by
  unfold k0_pay33
  show IntOp.cmpi .eq (iota .tc S512x1280 32 [1] Facts₀.iota_S512x1280_d1_w32 (ix2 p j))
      (broadcastTo S512x1280 (subi (shapeCast S512x1 lab Facts₀.shapeCasts_S512x1_S512x1) (broadcast S512x1 v5)) Facts₀.broadcasts_S512x1_S512x1280 (ix2 p j)) = _
  rw [iota_single_apply, bcastCol_apply, shapeCast_self]
  rfl

/-- In chunk k < 25 lane j is marked exactly when the label word is the number of column 1280 k + j. -/
theorem hit_iff (lab : BitVec 32) (k : Nat) (hk : k < 25) (j : Fin 1280) :
    IntOp.cmpi .eq (BitVec.ofNat 32 j.val) (IntOp.subi lab (Scalar.muli (BitVec.ofNat 32 k) 1280#32)) = 1#1
      ↔ hitOf lab (col k j) = true := by
  have hj := j.isLt
  have hcol : (col k j).val = 1280 * k + j.val := by
    show (1280 * k + j.val) % 32000 = _
    exact Nat.mod_eq_of_lt (by omega)
  unfold hitOf
  rw [hcol, decide_eq_true_iff]
  show BitVec.ofBool (BitVec.ofNat 32 j.val == lab - BitVec.ofNat 32 k * 1280#32) = 1#1 ↔ _
  have hw : BitVec.ofNat 32 (1280 * k + j.val) = BitVec.ofNat 32 j.val + BitVec.ofNat 32 k * 1280#32 := by
    apply BitVec.eq_of_toNat_eq
    simp only [BitVec.toNat_add, BitVec.toNat_mul, BitVec.toNat_ofNat]
    omega
  rw [hw]
  constructor
  · intro h
    have h' : (BitVec.ofNat 32 j.val == lab - BitVec.ofNat 32 k * 1280#32) = true := by
      cases hb : (BitVec.ofNat 32 j.val == lab - BitVec.ofNat 32 k * 1280#32)
      · rw [hb] at h; exact absurd h (by decide)
      · rfl
    have := eq_of_beq h'
    rw [this]; exact (BitVec.sub_add_cancel _ _).symm
  · intro h
    rw [h, BitVec.add_sub_cancel]
    simp

/-- One step of the target-logit sum in chunk k. -/
theorem payT_apply (lg : FVec Ideal S512x1280 .f32) (k : Nat) (hk : k < 25) (lab : Vec Ideal S512x1 .i32)
    (tp : Vec Ideal S512x1 .f32) (p : Fin 512) :
    k0_pay4 (F := Ideal) lg (k0_pay33 (F := Ideal) (Scalar.muli (BitVec.ofNat 32 k) 1280#32) lab) (Scalar.ofBits .f32 0x00000000#32) tp (ix2 p (0 : Fin 1))
      = stepT (tp (ix2 p (0 : Fin 1))) (fun j => lg (ix2 p j)) (fun j => hitOf (lab (ix2 p (0 : Fin 1))) (col k j)) := by
  rw [pay4_apply]
  unfold stepT
  refine congrArg (tp (ix2 p (0 : Fin 1)) + ·) (Finset.sum_congr rfl fun j _ => ?_)
  rw [pay33_apply]
  exact if_congr (hit_iff _ k hk j) rfl rfl

/-! Rows of a 512-row chunk as rows of the whole block. -/

/-- Row p of the column chunk at row offset o is row o + p of the column. -/
theorem emb2 (o : Nat) (inb : ∀ a, (![o, 0] : Fin 2 → Nat) a + S512x1.size a ≤ S2048x1.size a) (p : Fin 512) (h : o + p.val < 2048) :
    (Rect.unit (s := S2048x1) ![o, 0] S512x1.size inb).emb (ix2 p (0 : Fin 1)) = ix2 (⟨o + p.val, h⟩ : Fin 2048) (0 : Fin 1) := by
  funext a; apply Fin.ext
  match a with
  | ⟨0, _⟩ => show o + 1 * p.val = o + p.val; omega
  | ⟨1, _⟩ => rfl

/-- Row p of the hidden-state chunk at row offset o is row o + p of the staged block. -/
theorem emb3 (o : Nat) (inb : ∀ a, (![0, o, 0] : Fin 3 → Nat) a + S1x512x2048.size a ≤ S1x2048x2048.size a) (p : Fin 512) (hh : Fin 2048)
    (h : o + p.val < 2048) :
    (Rect.unit (s := S1x2048x2048) ![0, o, 0] S1x512x2048.size inb).emb (ix3 (0 : Fin 1) p hh) = ix3 (0 : Fin 1) (⟨o + p.val, h⟩ : Fin 2048) hh := by
  funext a; apply Fin.ext
  match a with
  | ⟨0, _⟩ => rfl
  | ⟨1, _⟩ => show o + 1 * p.val = o + p.val; omega
  | ⟨2, _⟩ => show 0 + 1 * hh.val = hh.val; omega

/-- Every index of a column chunk is (p, 0). -/
theorem eq_col (x : S512x1.Idx) : x = ix2 (x 0 : Fin 512) (0 : Fin 1) := by
  funext a
  match a with
  | ⟨0, _⟩ => rfl
  | ⟨1, _⟩ => exact Fin.ext (by have := idx2_lt1 x; show (x 1).val = 0; omega)

theorem exists_col (x : S512x1.Idx) : ∃ p : Fin 512, x = ix2 p (0 : Fin 1) := ⟨x 0, eq_col x⟩

/-- The chunk's logits at row p are the block's logits at row o + p. -/
theorem chunkLogit (x0 : Vec Ideal S1x2048x2048 .bf16) (x1 : Vec Ideal S1x1280x2048 .bf16) (o : Nat)
    (inb : ∀ a, (![0, o, 0] : Fin 3 → Nat) a + S1x512x2048.size a ≤ S1x2048x2048.size a) (p : Fin 512) (h : o + p.val < 2048) :
    (fun j : Fin 1280 => k0_pay32 (F := Ideal) (k0_pay9 (F := Ideal) x1) (View.ld x0 (Rect.unit (s := S1x2048x2048) ![0, o, 0] S1x512x2048.size inb)) (ix2 p j))
      = blockLogit x0 x1 ⟨o + p.val, h⟩ := by
  funext j
  rw [pay32_apply]
  unfold blockLogit
  refine Finset.sum_congr rfl fun hh _ => ?_
  show x0 ((Rect.unit (s := S1x2048x2048) ![0, o, 0] S1x512x2048.size inb).emb (ix3 (0 : Fin 1) p hh)) * _ = _
  rw [emb3 o inb p hh h]

/-! What the whole column holds after a point, as one function of the row. -/

/-- The running maximum after the point, from the column `xs0` before it. -/
def Gm (x0 : Vec Ideal S1x2048x2048 .bf16) (x1 : Vec Ideal S1x1280x2048 .bf16) (xs0 : S2048x1.Idx → EReal) : S2048x1.Idx → EReal :=
  fun y => stepM (xs0 y) (blockLogit x0 x1 (y 0))

/-- The running exponential sum after the point. -/
def Gl (x0 : Vec Ideal S1x2048x2048 .bf16) (x1 : Vec Ideal S1x1280x2048 .bf16) (xs0 xs1 : S2048x1.Idx → EReal) : S2048x1.Idx → EReal :=
  fun y => stepL (xs0 y) (xs1 y) (blockLogit x0 x1 (y 0))

/-- The running target-logit sum after the point, in vocabulary chunk k. -/
def Gt (x0 : Vec Ideal S1x2048x2048 .bf16) (x1 : Vec Ideal S1x1280x2048 .bf16) (x2 : Vec Ideal S2048x1 .i32) (k : Nat)
    (xs2 : S2048x1.Idx → EReal) : S2048x1.Idx → EReal :=
  fun y => stepT (xs2 y) (blockLogit x0 x1 (y 0)) (fun j => hitOf (x2 y) (col k j))

/-- A chunk's maximum update is the block's, on its rows. -/
theorem pieceM (x0 : Vec Ideal S1x2048x2048 .bf16) (x1 : Vec Ideal S1x1280x2048 .bf16) (xs0 : S2048x1.Idx → EReal) (o : Nat) (ho : o + 512 ≤ 2048)
    (inb3 : ∀ a, (![0, o, 0] : Fin 3 → Nat) a + S1x512x2048.size a ≤ S1x2048x2048.size a)
    (inb2 : ∀ a, (![o, 0] : Fin 2 → Nat) a + S512x1.size a ≤ S2048x1.size a) (x : S512x1.Idx) :
    k0_pay28 (F := Ideal) (k0_pay32 (F := Ideal) (k0_pay9 (F := Ideal) x1) (View.ld x0 (Rect.unit (s := S1x2048x2048) ![0, o, 0] S1x512x2048.size inb3)))
        (View.ld xs0 (Rect.unit (s := S2048x1) ![o, 0] S512x1.size inb2)) x
      = Gm x0 x1 xs0 ((Rect.unit (s := S2048x1) ![o, 0] S512x1.size inb2).emb x) := by
  obtain ⟨p, rfl⟩ := exists_col x
  have hp : o + p.val < 2048 := by have := p.isLt; omega
  rw [pay28_apply, chunkLogit x0 x1 o inb3 p hp]
  show stepM (xs0 ((Rect.unit (s := S2048x1) ![o, 0] S512x1.size inb2).emb (ix2 p (0 : Fin 1)))) _ = _
  rw [emb2 o inb2 p hp]
  rfl

/-- A chunk's exponential-sum update is the block's, on its rows. -/
theorem pieceL (x0 : Vec Ideal S1x2048x2048 .bf16) (x1 : Vec Ideal S1x1280x2048 .bf16) (xs0 xs1 : S2048x1.Idx → EReal) (o : Nat) (ho : o + 512 ≤ 2048)
    (inb3 : ∀ a, (![0, o, 0] : Fin 3 → Nat) a + S1x512x2048.size a ≤ S1x2048x2048.size a)
    (inb2 : ∀ a, (![o, 0] : Fin 2 → Nat) a + S512x1.size a ≤ S2048x1.size a) (x : S512x1.Idx) :
    k0_pay30 (F := Ideal) (k0_pay32 (F := Ideal) (k0_pay9 (F := Ideal) x1) (View.ld x0 (Rect.unit (s := S1x2048x2048) ![0, o, 0] S1x512x2048.size inb3)))
        (View.ld xs0 (Rect.unit (s := S2048x1) ![o, 0] S512x1.size inb2)) (View.ld xs1 (Rect.unit (s := S2048x1) ![o, 0] S512x1.size inb2)) x
      = Gl x0 x1 xs0 xs1 ((Rect.unit (s := S2048x1) ![o, 0] S512x1.size inb2).emb x) := by
  obtain ⟨p, rfl⟩ := exists_col x
  have hp : o + p.val < 2048 := by have := p.isLt; omega
  rw [pay30_apply, chunkLogit x0 x1 o inb3 p hp]
  show stepL (xs0 ((Rect.unit (s := S2048x1) ![o, 0] S512x1.size inb2).emb (ix2 p (0 : Fin 1))))
    (xs1 ((Rect.unit (s := S2048x1) ![o, 0] S512x1.size inb2).emb (ix2 p (0 : Fin 1)))) _ = _
  rw [emb2 o inb2 p hp]
  rfl

/-- A chunk's target-logit update is the block's, on its rows. -/
theorem pieceT (x0 : Vec Ideal S1x2048x2048 .bf16) (x1 : Vec Ideal S1x1280x2048 .bf16) (x2 : Vec Ideal S2048x1 .i32) (k : Nat) (hk : k < 25)
    (xs2 : S2048x1.Idx → EReal) (o : Nat) (ho : o + 512 ≤ 2048)
    (inb3 : ∀ a, (![0, o, 0] : Fin 3 → Nat) a + S1x512x2048.size a ≤ S1x2048x2048.size a)
    (inb2 : ∀ a, (![o, 0] : Fin 2 → Nat) a + S512x1.size a ≤ S2048x1.size a) (x : S512x1.Idx) :
    k0_pay4 (F := Ideal) (k0_pay32 (F := Ideal) (k0_pay9 (F := Ideal) x1) (View.ld x0 (Rect.unit (s := S1x2048x2048) ![0, o, 0] S1x512x2048.size inb3)))
        (k0_pay33 (F := Ideal) (Scalar.muli (BitVec.ofNat 32 k) 1280#32) (View.ld x2 (Rect.unit (s := S2048x1) ![o, 0] S512x1.size inb2)))
        (Scalar.ofBits .f32 0x00000000#32) (View.ld xs2 (Rect.unit (s := S2048x1) ![o, 0] S512x1.size inb2)) x
      = Gt x0 x1 x2 k xs2 ((Rect.unit (s := S2048x1) ![o, 0] S512x1.size inb2).emb x) := by
  obtain ⟨p, rfl⟩ := exists_col x
  have hp : o + p.val < 2048 := by have := p.isLt; omega
  rw [payT_apply _ k hk, chunkLogit x0 x1 o inb3 p hp]
  show stepT (xs2 ((Rect.unit (s := S2048x1) ![o, 0] S512x1.size inb2).emb (ix2 p (0 : Fin 1)))) _
    (fun j => hitOf (x2 ((Rect.unit (s := S2048x1) ![o, 0] S512x1.size inb2).emb (ix2 p (0 : Fin 1)))) (col k j)) = _
  rw [emb2 o inb2 p hp]
  rfl

/-- The same three with the column's loaded chunk named: whatever load reads the column's rows there. -/
theorem pieceM' (x0 : Vec Ideal S1x2048x2048 .bf16) (x1 : Vec Ideal S1x1280x2048 .bf16) (xs0 : S2048x1.Idx → EReal) (o : Nat) (ho : o + 512 ≤ 2048)
    (inb3 : ∀ a, (![0, o, 0] : Fin 3 → Nat) a + S1x512x2048.size a ≤ S1x2048x2048.size a)
    (inb2 : ∀ a, (![o, 0] : Fin 2 → Nat) a + S512x1.size a ≤ S2048x1.size a) (mp : Vec Ideal S512x1 .f32)
    (hmp : mp = View.ld (Val := Elt Ideal) (e' := .f32) xs0 (Rect.unit (s := S2048x1) ![o, 0] S512x1.size inb2)) (x : S512x1.Idx) :
    k0_pay28 (F := Ideal) (k0_pay32 (F := Ideal) (k0_pay9 (F := Ideal) x1) (View.ld x0 (Rect.unit (s := S1x2048x2048) ![0, o, 0] S1x512x2048.size inb3))) mp x
      = Gm x0 x1 xs0 ((Rect.unit (s := S2048x1) ![o, 0] S512x1.size inb2).emb x) := by
  subst hmp; exact pieceM x0 x1 xs0 o ho inb3 inb2 x

theorem pieceL' (x0 : Vec Ideal S1x2048x2048 .bf16) (x1 : Vec Ideal S1x1280x2048 .bf16) (xs0 xs1 : S2048x1.Idx → EReal) (o : Nat) (ho : o + 512 ≤ 2048)
    (inb3 : ∀ a, (![0, o, 0] : Fin 3 → Nat) a + S1x512x2048.size a ≤ S1x2048x2048.size a)
    (inb2 : ∀ a, (![o, 0] : Fin 2 → Nat) a + S512x1.size a ≤ S2048x1.size a) (mp lp : Vec Ideal S512x1 .f32)
    (hmp : mp = View.ld (Val := Elt Ideal) (e' := .f32) xs0 (Rect.unit (s := S2048x1) ![o, 0] S512x1.size inb2))
    (hlp : lp = View.ld (Val := Elt Ideal) (e' := .f32) xs1 (Rect.unit (s := S2048x1) ![o, 0] S512x1.size inb2)) (x : S512x1.Idx) :
    k0_pay30 (F := Ideal) (k0_pay32 (F := Ideal) (k0_pay9 (F := Ideal) x1) (View.ld x0 (Rect.unit (s := S1x2048x2048) ![0, o, 0] S1x512x2048.size inb3))) mp lp x
      = Gl x0 x1 xs0 xs1 ((Rect.unit (s := S2048x1) ![o, 0] S512x1.size inb2).emb x) := by
  subst hmp; subst hlp; exact pieceL x0 x1 xs0 xs1 o ho inb3 inb2 x

theorem pieceT' (x0 : Vec Ideal S1x2048x2048 .bf16) (x1 : Vec Ideal S1x1280x2048 .bf16) (x2 : Vec Ideal S2048x1 .i32) (k : Nat) (hk : k < 25)
    (xs2 : S2048x1.Idx → EReal) (o : Nat) (ho : o + 512 ≤ 2048)
    (inb3 : ∀ a, (![0, o, 0] : Fin 3 → Nat) a + S1x512x2048.size a ≤ S1x2048x2048.size a)
    (inb2 : ∀ a, (![o, 0] : Fin 2 → Nat) a + S512x1.size a ≤ S2048x1.size a) (tp : Vec Ideal S512x1 .f32)
    (htp : tp = View.ld (Val := Elt Ideal) (e' := .f32) xs2 (Rect.unit (s := S2048x1) ![o, 0] S512x1.size inb2)) (x : S512x1.Idx) :
    k0_pay4 (F := Ideal) (k0_pay32 (F := Ideal) (k0_pay9 (F := Ideal) x1) (View.ld x0 (Rect.unit (s := S1x2048x2048) ![0, o, 0] S1x512x2048.size inb3)))
        (k0_pay33 (F := Ideal) (Scalar.muli (BitVec.ofNat 32 k) 1280#32) (View.ld x2 (Rect.unit (s := S2048x1) ![o, 0] S512x1.size inb2)))
        (Scalar.ofBits .f32 0x00000000#32) tp x
      = Gt x0 x1 x2 k xs2 ((Rect.unit (s := S2048x1) ![o, 0] S512x1.size inb2).emb x) := by
  subst htp; exact pieceT x0 x1 x2 k hk xs2 o ho inb3 inb2 x

/-! The four row chunks spell one update: each chunk's stored values in the words of one of them. -/

theorem pay26_eq (v4 : FVec Ideal S1280x2048 .bf16) (x : Vec Ideal S1x512x2048 .bf16) :
    k0_pay26 (F := Ideal) v4 x = k0_pay32 (F := Ideal) v4 x := rfl
theorem pay18_eq (v4 : FVec Ideal S1280x2048 .bf16) (x : Vec Ideal S1x512x2048 .bf16) :
    k0_pay18 (F := Ideal) v4 x = k0_pay32 (F := Ideal) v4 x := rfl
theorem pay10_eq (w : Vec Ideal S1x1280x2048 .bf16) (x : Vec Ideal S1x512x2048 .bf16) :
    k0_pay10 (F := Ideal) w x = k0_pay32 (F := Ideal) (k0_pay9 (F := Ideal) w) x := rfl

theorem pay2_eq (lg : FVec Ideal S512x1280 .f32) (mp : Vec Ideal S512x1 .f32) :
    k0_pay2 (F := Ideal) lg mp = k0_pay28 (F := Ideal) lg mp := by
  unfold k0_pay2; exact (shapeCast_self _ _).trans rfl
theorem pay29_eq (lg : FVec Ideal S512x1280 .f32) (mp : Vec Ideal S512x1 .f32) :
    k0_pay29 (F := Ideal) lg mp = k0_pay28 (F := Ideal) lg mp := by
  unfold k0_pay29; exact shapeCast_self _ _
theorem pay23_eq (v4 : FVec Ideal S1280x2048 .bf16) (x : Vec Ideal S1x512x2048 .bf16) (mp : Vec Ideal S512x1 .f32) :
    k0_pay23 (F := Ideal) (k0_pay20 (F := Ideal) v4 x mp) = k0_pay28 (F := Ideal) (k0_pay32 (F := Ideal) v4 x) mp := by
  unfold k0_pay23; exact (shapeCast_self _ _).trans rfl
theorem pay15_eq (w : Vec Ideal S1x1280x2048 .bf16) (x : Vec Ideal S1x512x2048 .bf16) (mp : Vec Ideal S512x1 .f32) :
    k0_pay15 (F := Ideal) (k0_pay12 (F := Ideal) w x mp) = k0_pay28 (F := Ideal) (k0_pay32 (F := Ideal) (k0_pay9 (F := Ideal) w) x) mp := by
  unfold k0_pay15; exact (shapeCast_self _ _).trans rfl

theorem pay3_eq (lg : FVec Ideal S512x1280 .f32) (mp lp : Vec Ideal S512x1 .f32) :
    k0_pay3 (F := Ideal) lg mp lp = k0_pay30 (F := Ideal) lg mp lp := rfl
theorem pay24_eq (v4 : FVec Ideal S1280x2048 .bf16) (x : Vec Ideal S1x512x2048 .bf16) (mp lp : Vec Ideal S512x1 .f32) :
    k0_pay24 (F := Ideal) (k0_pay21 (F := Ideal) v4 x mp) (k0_pay22 (F := Ideal) v4 x mp) lp
      = k0_pay30 (F := Ideal) (k0_pay32 (F := Ideal) v4 x) mp lp := rfl
theorem pay16_eq (w : Vec Ideal S1x1280x2048 .bf16) (x : Vec Ideal S1x512x2048 .bf16) (mp lp : Vec Ideal S512x1 .f32) :
    k0_pay16 (F := Ideal) (k0_pay13 (F := Ideal) w x mp lp) (k0_pay14 (F := Ideal) w x mp)
      = k0_pay30 (F := Ideal) (k0_pay32 (F := Ideal) (k0_pay9 (F := Ideal) w) x) mp lp := rfl

theorem pay31_eq (v4 : FVec Ideal S1280x2048 .bf16) (v5 : BitVec 32) (x : Vec Ideal S1x512x2048 .bf16) (lab : Vec Ideal S512x1 .i32)
    (tp : Vec Ideal S512x1 .f32) :
    k0_pay31 (F := Ideal) (k0_pay27 (F := Ideal) v4 v5 x lab) tp
      = k0_pay4 (F := Ideal) (k0_pay32 (F := Ideal) v4 x) (k0_pay33 (F := Ideal) v5 lab) (Scalar.ofBits .f32 0x00000000#32) tp := rfl
theorem pay25_eq (v4 : FVec Ideal S1280x2048 .bf16) (v5 : BitVec 32) (x : Vec Ideal S1x512x2048 .bf16) (lab : Vec Ideal S512x1 .i32)
    (tp : Vec Ideal S512x1 .f32) :
    k0_pay25 (F := Ideal) (k0_pay19 (F := Ideal) v4 v5 x lab) tp
      = k0_pay4 (F := Ideal) (k0_pay32 (F := Ideal) v4 x) (k0_pay33 (F := Ideal) v5 lab) (Scalar.ofBits .f32 0x00000000#32) tp := rfl
theorem pay17_eq (i : grid0.Coords) (w : Vec Ideal S1x1280x2048 .bf16) (x : Vec Ideal S1x512x2048 .bf16) (lab : Vec Ideal S512x1 .i32)
    (tp : Vec Ideal S512x1 .f32) :
    k0_pay17 (F := Ideal) (k0_pay11 (F := Ideal) i w x lab) tp
      = k0_pay4 (F := Ideal) (k0_pay32 (F := Ideal) (k0_pay9 (F := Ideal) w) x)
          (k0_pay33 (F := Ideal) (Scalar.muli (BitVec.ofNat 32 (i 1).val) 1280#32) lab) (Scalar.ofBits .f32 0x00000000#32) tp := rfl

/-- The four 512-row pieces cover the column, whatever they hold. -/
theorem cover4 {Val : EltTy → Type} {e : EltTy} (w3 w2 w1 w0 : S512x1.Idx → Val e)
    (i3 : ∀ a, (![1536, 0] : Fin 2 → Nat) a + S512x1.size a ≤ S2048x1.size a)
    (i2 : ∀ a, (![1024, 0] : Fin 2 → Nat) a + S512x1.size a ≤ S2048x1.size a)
    (i1 : ∀ a, (![512, 0] : Fin 2 → Nat) a + S512x1.size a ≤ S2048x1.size a)
    (i0 : ∀ a, (![0, 0] : Fin 2 → Nat) a + S512x1.size a ≤ S2048x1.size a) (y : S2048x1.Idx) :
    ∃ p ∈ ([⟨Rect.unit ![1536, 0] S512x1.size i3, w3⟩, ⟨Rect.unit ![1024, 0] S512x1.size i2, w2⟩,
        ⟨Rect.unit ![512, 0] S512x1.size i1, w1⟩, ⟨Rect.unit ![0, 0] S512x1.size i0, w0⟩] : List (View.Piece Val S2048x1 e)),
      y ∈ p.1.set :=
  View.cover_of_tiledL (s := S2048x1) _ ![512, 1] (by sl_kernel_rfl) y

theorem hz3 : (![0, 0, 0] : Fin 3 → Nat) = fun _ => 0 := by funext a; fin_cases a <;> rfl
theorem hz2 : (![0, 0] : Fin 2 → Nat) = fun _ => 0 := by funext a; fin_cases a <;> rfl

/-! The output written at a model's last chunk. -/

/-- The written value at token n from the three columns. -/
theorem pay5_apply (a b c : Vec Ideal S2048x1 .f32) (n : Fin 2048) :
    k0_pay5 (F := Ideal) a b c (ix3 (0 : Fin 1) n (0 : Fin 1))
      = a (ix2 n (0 : Fin 1)) - (b (ix2 n (0 : Fin 1)) + Ideal.log (c (ix2 n (0 : Fin 1)))) := by
  unfold k0_pay5
  refine (shapeCast_ab_1ab_apply _ _ 0 n 0).trans ?_
  rfl

/-- A load of the whole column after stores reads what the stores left. -/
theorem readCov_whole_apply {sig : RefSig} {κ : Kind} {sp : Space} {S : Shape} {e : EltTy} (v : View sig κ sp S e)
    (L : List (View.Piece (Elt Ideal) S e)) {off : Fin S.rank → Nat} (hz : off = fun _ => 0)
    (inb : ∀ a, off a + S.size a ≤ S.size a) (y : S.Idx) :
    v.readCov L (Rect.unit off S.size inb).toLoadRect y = View.canon L y := by
  subst hz
  rw [View.readCov_eq_canon']
  show View.canon L ((Rect.whole S).emb y) = _
  rw [Rect.emb_whole_apply]

/-! A model's first chunk: the three columns are reset, then updated chunk by chunk. -/

theorem pay6_apply (y : S2048x1.Idx) : k0_pay6 (F := Ideal) y = (⊥ : EReal) := by
  unfold k0_pay6
  refine (congrFun (shapeCast_self _ _) y).trans ?_
  exact ofBits_negInf

theorem pay7_apply (y : S2048x1.Idx) : k0_pay7 (F := Ideal) y = (0 : EReal) := by
  unfold k0_pay7
  refine (congrFun (shapeCast_self _ _) y).trans ?_
  exact Ideal.ofBits_zero_f32

theorem pay8_apply (y : S2048x1.Idx) : k0_pay8 (F := Ideal) y = (0 : EReal) := by
  unfold k0_pay8
  refine (congrFun (shapeCast_self _ _) y).trans ?_
  exact Ideal.ofBits_zero_f32

/-- A load of a 512-row chunk passes over a stored chunk of other rows. -/
theorem readCov_skip {sig : RefSig} {κ : Kind} {sp : Space} (v : View sig κ sp S2048x1 .f32) (o o' : Nat) (h : o + 512 ≤ o' ∨ o' + 512 ≤ o)
    (w : S512x1.Idx → Elt Ideal .f32) (L : List (View.Piece (Elt Ideal) S2048x1 .f32))
    (inb : ∀ a, (![o, 0] : Fin 2 → Nat) a + S512x1.size a ≤ S2048x1.size a)
    (inb' : ∀ a, (![o', 0] : Fin 2 → Nat) a + S512x1.size a ≤ S2048x1.size a) :
    v.readCov ((⟨Rect.unit (s := S2048x1) ![o, 0] S512x1.size inb, w⟩ : View.Piece (Elt Ideal) S2048x1 .f32) :: L)
        (Rect.unit (s := S2048x1) ![o', 0] S512x1.size inb').toLoadRect
      = v.readCov L (Rect.unit (s := S2048x1) ![o', 0] S512x1.size inb').toLoadRect :=
  View.readCov_cons_of_rows_disjoint (m := 2048) (n := 1) (k := 512) (k' := 512) v o o' h w L inb inb'

/-- A load after the reset alone reads the reset's values. -/
theorem readCov_reset {sig : RefSig} {κ : Kind} {sp : Space} (v : View sig κ sp S2048x1 .f32) (w : S2048x1.Idx → Elt Ideal .f32)
    (inb : ∀ a, (![0, 0] : Fin 2 → Nat) a + S2048x1.size a ≤ S2048x1.size a) (r : Rect S2048x1) :
    v.readCov [(⟨Rect.unit (s := S2048x1) ![0, 0] S2048x1.size inb, w⟩ : View.Piece (Elt Ideal) S2048x1 .f32)] r.toLoadRect = View.ld w r := by
  rw [View.readCov_eq_canon', View.canon_unit_zero hz2]

theorem first_m (c : Dev nD) (i : grid0.Coords) (arg2 : Memref sig .tc .vmem S1x2048x2048 .bf16) (harg2 : arg2.IsWhole) (arg3 : Memref sig .tc .vmem S1x1280x2048 .bf16) (harg3 : arg3.IsWhole) (arg4 : Memref sig .tc .vmem S2048x1 .i32) (harg4 : arg4.IsWhole) (arg5 : Memref sig .tc .vmem S1x2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : cond0_0 i) (hc1 : ¬cond0_1 i)
    (x0 : Vec Ideal S1x2048x2048 .bf16) (x1 : Vec Ideal S1x1280x2048 .bf16) (x2 : Vec Ideal S2048x1 .i32) (n : Fin 2048) :
    sout0_A_0 (F := Ideal) c i arg2 harg2 arg3 harg3 arg4 harg4 arg5 harg5 arg6 harg6 arg7 harg7 arg8 harg8 hc0 hc1 x0 x1 x2 (ix2 n 0)
      = stepM ⊥ (blockLogit x0 x1 n) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  simp only [View.readAt_eq_ld, harg2.read_unread, harg3.read_unread,
    View.ld_unit_zero (S := S1x1280x2048) hz3, pay2_eq, pay29_eq, pay26_eq, pay23_eq, pay15_eq]
  refine (View.canon_append_of_pieces (Val := Elt Ideal) (S := S2048x1) (e := .f32) (Gm x0 x1 (k0_pay6 (F := Ideal))) [_] [_, _, _, _] ?_ (ix2 n 0)
    (cover4 _ _ _ _ _ _ _ _ _)).trans ?_
  · intro pc hpc
    simp only [List.mem_cons, List.not_mem_nil, or_false] at hpc
    rcases hpc with rfl | rfl | rfl | rfl
    · exact pieceM' x0 x1 (k0_pay6 (F := Ideal)) 1536 (by norm_num) _ _ _ ((readCov_skip _ 1024 1536 (Or.inl (by norm_num)) _ _ _ _).trans ((readCov_skip _ 512 1536 (Or.inl (by norm_num)) _ _ _ _).trans ((readCov_skip _ 0 1536 (Or.inl (by norm_num)) _ _ _ _).trans (readCov_reset _ _ _ _))))
    · exact pieceM' x0 x1 (k0_pay6 (F := Ideal)) 1024 (by norm_num) _ _ _ ((readCov_skip _ 512 1024 (Or.inl (by norm_num)) _ _ _ _).trans ((readCov_skip _ 0 1024 (Or.inl (by norm_num)) _ _ _ _).trans (readCov_reset _ _ _ _)))
    · exact pieceM' x0 x1 (k0_pay6 (F := Ideal)) 512 (by norm_num) _ _ _ ((readCov_skip _ 0 512 (Or.inl (by norm_num)) _ _ _ _).trans (readCov_reset _ _ _ _))
    · exact pieceM' x0 x1 (k0_pay6 (F := Ideal)) 0 (by norm_num) _ _ _ (readCov_reset _ _ _ _)
  · show stepM (k0_pay6 (F := Ideal) (ix2 n 0)) _ = _
    rw [pay6_apply]

theorem first_l (c : Dev nD) (i : grid0.Coords) (arg2 : Memref sig .tc .vmem S1x2048x2048 .bf16) (harg2 : arg2.IsWhole) (arg3 : Memref sig .tc .vmem S1x1280x2048 .bf16) (harg3 : arg3.IsWhole) (arg4 : Memref sig .tc .vmem S2048x1 .i32) (harg4 : arg4.IsWhole) (arg5 : Memref sig .tc .vmem S1x2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : cond0_0 i) (hc1 : ¬cond0_1 i)
    (x0 : Vec Ideal S1x2048x2048 .bf16) (x1 : Vec Ideal S1x1280x2048 .bf16) (x2 : Vec Ideal S2048x1 .i32) (n : Fin 2048) :
    sout0_A_1 (F := Ideal) c i arg2 harg2 arg3 harg3 arg4 harg4 arg5 harg5 arg6 harg6 arg7 harg7 arg8 harg8 hc0 hc1 x0 x1 x2 (ix2 n 0)
      = stepL ⊥ 0 (blockLogit x0 x1 n) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  simp only [View.readAt_eq_ld, harg2.read_unread, harg3.read_unread,
    View.ld_unit_zero (S := S1x1280x2048) hz3, pay3_eq, pay26_eq, pay24_eq, pay16_eq]
  refine (View.canon_append_of_pieces (Val := Elt Ideal) (S := S2048x1) (e := .f32) (Gl x0 x1 (k0_pay6 (F := Ideal)) (k0_pay7 (F := Ideal))) [_] [_, _, _, _] ?_ (ix2 n 0)
    (cover4 _ _ _ _ _ _ _ _ _)).trans ?_
  · intro pc hpc
    simp only [List.mem_cons, List.not_mem_nil, or_false] at hpc
    rcases hpc with rfl | rfl | rfl | rfl
    · exact pieceL' x0 x1 (k0_pay6 (F := Ideal)) (k0_pay7 (F := Ideal)) 1536 (by norm_num) _ _ _ _ ((readCov_skip _ 1024 1536 (Or.inl (by norm_num)) _ _ _ _).trans ((readCov_skip _ 512 1536 (Or.inl (by norm_num)) _ _ _ _).trans ((readCov_skip _ 0 1536 (Or.inl (by norm_num)) _ _ _ _).trans (readCov_reset _ _ _ _)))) ((readCov_skip _ 1024 1536 (Or.inl (by norm_num)) _ _ _ _).trans ((readCov_skip _ 512 1536 (Or.inl (by norm_num)) _ _ _ _).trans ((readCov_skip _ 0 1536 (Or.inl (by norm_num)) _ _ _ _).trans (readCov_reset _ _ _ _))))
    · exact pieceL' x0 x1 (k0_pay6 (F := Ideal)) (k0_pay7 (F := Ideal)) 1024 (by norm_num) _ _ _ _ ((readCov_skip _ 512 1024 (Or.inl (by norm_num)) _ _ _ _).trans ((readCov_skip _ 0 1024 (Or.inl (by norm_num)) _ _ _ _).trans (readCov_reset _ _ _ _))) ((readCov_skip _ 512 1024 (Or.inl (by norm_num)) _ _ _ _).trans ((readCov_skip _ 0 1024 (Or.inl (by norm_num)) _ _ _ _).trans (readCov_reset _ _ _ _)))
    · exact pieceL' x0 x1 (k0_pay6 (F := Ideal)) (k0_pay7 (F := Ideal)) 512 (by norm_num) _ _ _ _ ((readCov_skip _ 0 512 (Or.inl (by norm_num)) _ _ _ _).trans (readCov_reset _ _ _ _)) ((readCov_skip _ 0 512 (Or.inl (by norm_num)) _ _ _ _).trans (readCov_reset _ _ _ _))
    · exact pieceL' x0 x1 (k0_pay6 (F := Ideal)) (k0_pay7 (F := Ideal)) 0 (by norm_num) _ _ _ _ (readCov_reset _ _ _ _) (readCov_reset _ _ _ _)
  · show stepL (k0_pay6 (F := Ideal) (ix2 n 0)) (k0_pay7 (F := Ideal) (ix2 n 0)) _ = _
    rw [pay6_apply, pay7_apply]

theorem first_t (c : Dev nD) (i : grid0.Coords) (arg2 : Memref sig .tc .vmem S1x2048x2048 .bf16) (harg2 : arg2.IsWhole) (arg3 : Memref sig .tc .vmem S1x1280x2048 .bf16) (harg3 : arg3.IsWhole) (arg4 : Memref sig .tc .vmem S2048x1 .i32) (harg4 : arg4.IsWhole) (arg5 : Memref sig .tc .vmem S1x2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : cond0_0 i) (hc1 : ¬cond0_1 i)
    (x0 : Vec Ideal S1x2048x2048 .bf16) (x1 : Vec Ideal S1x1280x2048 .bf16) (x2 : Vec Ideal S2048x1 .i32) (n : Fin 2048) :
    sout0_A_2 (F := Ideal) c i arg2 harg2 arg3 harg3 arg4 harg4 arg5 harg5 arg6 harg6 arg7 harg7 arg8 harg8 hc0 hc1 x0 x1 x2 (ix2 n 0)
      = stepT 0 (blockLogit x0 x1 n) (fun j => hitOf (x2 (ix2 n 0)) (col (i 1).val j)) := by
  have hk : (i 1).val < 25 := (i 1).isLt
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  simp only [View.readAt_eq_ld, harg2.read_unread, harg3.read_unread, harg4.read_unread,
    View.ld_unit_zero (S := S1x1280x2048) hz3, pay31_eq, pay25_eq, pay17_eq]
  refine (View.canon_append_of_pieces (Val := Elt Ideal) (S := S2048x1) (e := .f32) (Gt x0 x1 x2 (i 1).val (k0_pay8 (F := Ideal))) [_] [_, _, _, _] ?_ (ix2 n 0)
    (cover4 _ _ _ _ _ _ _ _ _)).trans ?_
  · intro pc hpc
    simp only [List.mem_cons, List.not_mem_nil, or_false] at hpc
    rcases hpc with rfl | rfl | rfl | rfl
    · exact pieceT' x0 x1 x2 (i 1).val hk (k0_pay8 (F := Ideal)) 1536 (by norm_num) _ _ _ ((readCov_skip _ 1024 1536 (Or.inl (by norm_num)) _ _ _ _).trans ((readCov_skip _ 512 1536 (Or.inl (by norm_num)) _ _ _ _).trans ((readCov_skip _ 0 1536 (Or.inl (by norm_num)) _ _ _ _).trans (readCov_reset _ _ _ _))))
    · exact pieceT' x0 x1 x2 (i 1).val hk (k0_pay8 (F := Ideal)) 1024 (by norm_num) _ _ _ ((readCov_skip _ 512 1024 (Or.inl (by norm_num)) _ _ _ _).trans ((readCov_skip _ 0 1024 (Or.inl (by norm_num)) _ _ _ _).trans (readCov_reset _ _ _ _)))
    · exact pieceT' x0 x1 x2 (i 1).val hk (k0_pay8 (F := Ideal)) 512 (by norm_num) _ _ _ ((readCov_skip _ 0 512 (Or.inl (by norm_num)) _ _ _ _).trans (readCov_reset _ _ _ _))
    · exact pieceT' x0 x1 x2 (i 1).val hk (k0_pay8 (F := Ideal)) 0 (by norm_num) _ _ _ (readCov_reset _ _ _ _)
  · show stepT (k0_pay8 (F := Ideal) (ix2 n 0)) _ _ = _
    rw [pay8_apply]

theorem mid_m (c : Dev nD) (i : grid0.Coords) (arg2 : Memref sig .tc .vmem S1x2048x2048 .bf16) (harg2 : arg2.IsWhole) (arg3 : Memref sig .tc .vmem S1x1280x2048 .bf16) (harg3 : arg3.IsWhole) (arg4 : Memref sig .tc .vmem S2048x1 .i32) (harg4 : arg4.IsWhole) (arg5 : Memref sig .tc .vmem S1x2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : ¬cond0_0 i) (hc1 : ¬cond0_1 i)
    (x0 : Vec Ideal S1x2048x2048 .bf16) (x1 : Vec Ideal S1x1280x2048 .bf16) (x2 : Vec Ideal S2048x1 .i32) (xs0 xs1 xs2 : Vec Ideal S2048x1 .f32) (n : Fin 2048) :
    sout0_B_0 (F := Ideal) c i arg2 harg2 arg3 harg3 arg4 harg4 arg5 harg5 arg6 harg6 arg7 harg7 arg8 harg8 hc0 hc1 x0 x1 x2 xs0 xs1 xs2 (ix2 n 0)
      = stepM (xs0 (ix2 n 0)) (blockLogit x0 x1 n) := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  refine View.canon_apply_of_pieces (Val := Elt Ideal) (S := S2048x1) (e := .f32) (Gm x0 x1 xs0) _ ?_ (ix2 n 0) (cover4 _ _ _ _ _ _ _ _ _)
  simp only [View.readAt_eq_ld, harg2.read_unread, harg3.read_unread, harg6.read_unread,
    View.ld_unit_zero (S := S1x1280x2048) hz3, pay2_eq, pay29_eq, pay26_eq, pay23_eq, pay15_eq]
  intro pc hpc
  simp only [List.mem_cons, List.not_mem_nil, or_false] at hpc
  rcases hpc with rfl | rfl | rfl | rfl
  · exact pieceM x0 x1 xs0 1536 (by norm_num) _ _
  · exact pieceM x0 x1 xs0 1024 (by norm_num) _ _
  · exact pieceM x0 x1 xs0 512 (by norm_num) _ _
  · exact pieceM x0 x1 xs0 0 (by norm_num) _ _

theorem mid_l (c : Dev nD) (i : grid0.Coords) (arg2 : Memref sig .tc .vmem S1x2048x2048 .bf16) (harg2 : arg2.IsWhole) (arg3 : Memref sig .tc .vmem S1x1280x2048 .bf16) (harg3 : arg3.IsWhole) (arg4 : Memref sig .tc .vmem S2048x1 .i32) (harg4 : arg4.IsWhole) (arg5 : Memref sig .tc .vmem S1x2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : ¬cond0_0 i) (hc1 : ¬cond0_1 i)
    (x0 : Vec Ideal S1x2048x2048 .bf16) (x1 : Vec Ideal S1x1280x2048 .bf16) (x2 : Vec Ideal S2048x1 .i32) (xs0 xs1 xs2 : Vec Ideal S2048x1 .f32) (n : Fin 2048) :
    sout0_B_1 (F := Ideal) c i arg2 harg2 arg3 harg3 arg4 harg4 arg5 harg5 arg6 harg6 arg7 harg7 arg8 harg8 hc0 hc1 x0 x1 x2 xs0 xs1 xs2 (ix2 n 0)
      = stepL (xs0 (ix2 n 0)) (xs1 (ix2 n 0)) (blockLogit x0 x1 n) := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  refine View.canon_apply_of_pieces (Val := Elt Ideal) (S := S2048x1) (e := .f32) (Gl x0 x1 xs0 xs1) _ ?_ (ix2 n 0) (cover4 _ _ _ _ _ _ _ _ _)
  simp only [View.readAt_eq_ld, harg2.read_unread, harg3.read_unread, harg6.read_unread, harg7.read_unread,
    View.ld_unit_zero (S := S1x1280x2048) hz3, pay3_eq, pay26_eq, pay24_eq, pay16_eq]
  intro pc hpc
  simp only [List.mem_cons, List.not_mem_nil, or_false] at hpc
  rcases hpc with rfl | rfl | rfl | rfl
  · exact pieceL x0 x1 xs0 xs1 1536 (by norm_num) _ _
  · exact pieceL x0 x1 xs0 xs1 1024 (by norm_num) _ _
  · exact pieceL x0 x1 xs0 xs1 512 (by norm_num) _ _
  · exact pieceL x0 x1 xs0 xs1 0 (by norm_num) _ _

theorem mid_t (c : Dev nD) (i : grid0.Coords) (arg2 : Memref sig .tc .vmem S1x2048x2048 .bf16) (harg2 : arg2.IsWhole) (arg3 : Memref sig .tc .vmem S1x1280x2048 .bf16) (harg3 : arg3.IsWhole) (arg4 : Memref sig .tc .vmem S2048x1 .i32) (harg4 : arg4.IsWhole) (arg5 : Memref sig .tc .vmem S1x2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : ¬cond0_0 i) (hc1 : ¬cond0_1 i)
    (x0 : Vec Ideal S1x2048x2048 .bf16) (x1 : Vec Ideal S1x1280x2048 .bf16) (x2 : Vec Ideal S2048x1 .i32) (xs0 xs1 xs2 : Vec Ideal S2048x1 .f32) (n : Fin 2048) :
    sout0_B_2 (F := Ideal) c i arg2 harg2 arg3 harg3 arg4 harg4 arg5 harg5 arg6 harg6 arg7 harg7 arg8 harg8 hc0 hc1 x0 x1 x2 xs0 xs1 xs2 (ix2 n 0)
      = stepT (xs2 (ix2 n 0)) (blockLogit x0 x1 n) (fun j => hitOf (x2 (ix2 n 0)) (col (i 1).val j)) := by
  have hk : (i 1).val < 25 := (i 1).isLt
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  refine View.canon_apply_of_pieces (Val := Elt Ideal) (S := S2048x1) (e := .f32) (Gt x0 x1 x2 (i 1).val xs2) _ ?_ (ix2 n 0) (cover4 _ _ _ _ _ _ _ _ _)
  simp only [View.readAt_eq_ld, harg2.read_unread, harg3.read_unread, harg4.read_unread, harg8.read_unread,
    View.ld_unit_zero (S := S1x1280x2048) hz3, pay31_eq, pay25_eq, pay17_eq]
  intro pc hpc
  simp only [List.mem_cons, List.not_mem_nil, or_false] at hpc
  rcases hpc with rfl | rfl | rfl | rfl
  · exact pieceT x0 x1 x2 (i 1).val hk xs2 1536 (by norm_num) _ _
  · exact pieceT x0 x1 x2 (i 1).val hk xs2 1024 (by norm_num) _ _
  · exact pieceT x0 x1 x2 (i 1).val hk xs2 512 (by norm_num) _ _
  · exact pieceT x0 x1 x2 (i 1).val hk xs2 0 (by norm_num) _ _

theorem last_m (c : Dev nD) (i : grid0.Coords) (arg2 : Memref sig .tc .vmem S1x2048x2048 .bf16) (harg2 : arg2.IsWhole) (arg3 : Memref sig .tc .vmem S1x1280x2048 .bf16) (harg3 : arg3.IsWhole) (arg4 : Memref sig .tc .vmem S2048x1 .i32) (harg4 : arg4.IsWhole) (arg5 : Memref sig .tc .vmem S1x2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : ¬cond0_0 i) (hc1 : cond0_1 i)
    (x0 : Vec Ideal S1x2048x2048 .bf16) (x1 : Vec Ideal S1x1280x2048 .bf16) (x2 : Vec Ideal S2048x1 .i32) (xs0 xs1 xs2 : Vec Ideal S2048x1 .f32) (n : Fin 2048) :
    sout0_C_0 (F := Ideal) c i arg2 harg2 arg3 harg3 arg4 harg4 arg5 harg5 arg6 harg6 arg7 harg7 arg8 harg8 hc0 hc1 x0 x1 x2 xs0 xs1 xs2 (ix2 n 0)
      = stepM (xs0 (ix2 n 0)) (blockLogit x0 x1 n) := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  refine View.canon_apply_of_pieces (Val := Elt Ideal) (S := S2048x1) (e := .f32) (Gm x0 x1 xs0) _ ?_ (ix2 n 0) (cover4 _ _ _ _ _ _ _ _ _)
  simp only [View.readAt_eq_ld, harg2.read_unread, harg3.read_unread, harg6.read_unread,
    View.ld_unit_zero (S := S1x1280x2048) hz3, pay2_eq, pay29_eq, pay26_eq, pay23_eq, pay15_eq]
  intro pc hpc
  simp only [List.mem_cons, List.not_mem_nil, or_false] at hpc
  rcases hpc with rfl | rfl | rfl | rfl
  · exact pieceM x0 x1 xs0 1536 (by norm_num) _ _
  · exact pieceM x0 x1 xs0 1024 (by norm_num) _ _
  · exact pieceM x0 x1 xs0 512 (by norm_num) _ _
  · exact pieceM x0 x1 xs0 0 (by norm_num) _ _

theorem last_l (c : Dev nD) (i : grid0.Coords) (arg2 : Memref sig .tc .vmem S1x2048x2048 .bf16) (harg2 : arg2.IsWhole) (arg3 : Memref sig .tc .vmem S1x1280x2048 .bf16) (harg3 : arg3.IsWhole) (arg4 : Memref sig .tc .vmem S2048x1 .i32) (harg4 : arg4.IsWhole) (arg5 : Memref sig .tc .vmem S1x2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : ¬cond0_0 i) (hc1 : cond0_1 i)
    (x0 : Vec Ideal S1x2048x2048 .bf16) (x1 : Vec Ideal S1x1280x2048 .bf16) (x2 : Vec Ideal S2048x1 .i32) (xs0 xs1 xs2 : Vec Ideal S2048x1 .f32) (n : Fin 2048) :
    sout0_C_1 (F := Ideal) c i arg2 harg2 arg3 harg3 arg4 harg4 arg5 harg5 arg6 harg6 arg7 harg7 arg8 harg8 hc0 hc1 x0 x1 x2 xs0 xs1 xs2 (ix2 n 0)
      = stepL (xs0 (ix2 n 0)) (xs1 (ix2 n 0)) (blockLogit x0 x1 n) := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  refine View.canon_apply_of_pieces (Val := Elt Ideal) (S := S2048x1) (e := .f32) (Gl x0 x1 xs0 xs1) _ ?_ (ix2 n 0) (cover4 _ _ _ _ _ _ _ _ _)
  simp only [View.readAt_eq_ld, harg2.read_unread, harg3.read_unread, harg6.read_unread, harg7.read_unread,
    View.ld_unit_zero (S := S1x1280x2048) hz3, pay3_eq, pay26_eq, pay24_eq, pay16_eq]
  intro pc hpc
  simp only [List.mem_cons, List.not_mem_nil, or_false] at hpc
  rcases hpc with rfl | rfl | rfl | rfl
  · exact pieceL x0 x1 xs0 xs1 1536 (by norm_num) _ _
  · exact pieceL x0 x1 xs0 xs1 1024 (by norm_num) _ _
  · exact pieceL x0 x1 xs0 xs1 512 (by norm_num) _ _
  · exact pieceL x0 x1 xs0 xs1 0 (by norm_num) _ _

theorem last_t (c : Dev nD) (i : grid0.Coords) (arg2 : Memref sig .tc .vmem S1x2048x2048 .bf16) (harg2 : arg2.IsWhole) (arg3 : Memref sig .tc .vmem S1x1280x2048 .bf16) (harg3 : arg3.IsWhole) (arg4 : Memref sig .tc .vmem S2048x1 .i32) (harg4 : arg4.IsWhole) (arg5 : Memref sig .tc .vmem S1x2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : ¬cond0_0 i) (hc1 : cond0_1 i)
    (x0 : Vec Ideal S1x2048x2048 .bf16) (x1 : Vec Ideal S1x1280x2048 .bf16) (x2 : Vec Ideal S2048x1 .i32) (xs0 xs1 xs2 : Vec Ideal S2048x1 .f32) (n : Fin 2048) :
    sout0_C_2 (F := Ideal) c i arg2 harg2 arg3 harg3 arg4 harg4 arg5 harg5 arg6 harg6 arg7 harg7 arg8 harg8 hc0 hc1 x0 x1 x2 xs0 xs1 xs2 (ix2 n 0)
      = stepT (xs2 (ix2 n 0)) (blockLogit x0 x1 n) (fun j => hitOf (x2 (ix2 n 0)) (col (i 1).val j)) := by
  have hk : (i 1).val < 25 := (i 1).isLt
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  refine View.canon_apply_of_pieces (Val := Elt Ideal) (S := S2048x1) (e := .f32) (Gt x0 x1 x2 (i 1).val xs2) _ ?_ (ix2 n 0) (cover4 _ _ _ _ _ _ _ _ _)
  simp only [View.readAt_eq_ld, harg2.read_unread, harg3.read_unread, harg4.read_unread, harg8.read_unread,
    View.ld_unit_zero (S := S1x1280x2048) hz3, pay31_eq, pay25_eq, pay17_eq]
  intro pc hpc
  simp only [List.mem_cons, List.not_mem_nil, or_false] at hpc
  rcases hpc with rfl | rfl | rfl | rfl
  · exact pieceT x0 x1 x2 (i 1).val hk xs2 1536 (by norm_num) _ _
  · exact pieceT x0 x1 x2 (i 1).val hk xs2 1024 (by norm_num) _ _
  · exact pieceT x0 x1 x2 (i 1).val hk xs2 512 (by norm_num) _ _
  · exact pieceT x0 x1 x2 (i 1).val hk xs2 0 (by norm_num) _ _

theorem last_out (c : Dev nD) (i : grid0.Coords) (arg2 : Memref sig .tc .vmem S1x2048x2048 .bf16) (harg2 : arg2.IsWhole) (arg3 : Memref sig .tc .vmem S1x1280x2048 .bf16) (harg3 : arg3.IsWhole) (arg4 : Memref sig .tc .vmem S2048x1 .i32) (harg4 : arg4.IsWhole) (arg5 : Memref sig .tc .vmem S1x2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : ¬cond0_0 i) (hc1 : cond0_1 i)
    (x0 : Vec Ideal S1x2048x2048 .bf16) (x1 : Vec Ideal S1x1280x2048 .bf16) (x2 : Vec Ideal S2048x1 .i32) (xs0 xs1 xs2 : Vec Ideal S2048x1 .f32) (n : Fin 2048) :
    out0_C_3 (F := Ideal) c i arg2 harg2 arg3 harg3 arg4 harg4 arg5 harg5 arg6 harg6 arg7 harg7 arg8 harg8 hc0 hc1 x0 x1 x2 xs0 xs1 xs2 (ix3 0 n 0)
      = stepT (xs2 (ix2 n 0)) (blockLogit x0 x1 n) (fun j => hitOf (x2 (ix2 n 0)) (col (i 1).val j))
          - (stepM (xs0 (ix2 n 0)) (blockLogit x0 x1 n) + Ideal.log (stepL (xs0 (ix2 n 0)) (xs1 (ix2 n 0)) (blockLogit x0 x1 n))) := by
  have hk : (i 1).val < 25 := (i 1).isLt
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz3, pay5_apply, readCov_whole_apply _ _ hz2, readCov_whole_apply _ _ hz2, readCov_whole_apply _ _ hz2]
  refine congrArg₂ (· - ·) ?_ (congrArg₂ (· + ·) ?_ (congrArg Ideal.log ?_))
  · refine View.canon_apply_of_pieces (Val := Elt Ideal) (S := S2048x1) (e := .f32) (Gt x0 x1 x2 (i 1).val xs2) _ ?_ (ix2 n 0) (cover4 _ _ _ _ _ _ _ _ _)
    simp only [View.readAt_eq_ld, harg2.read_unread, harg3.read_unread, harg4.read_unread, harg8.read_unread,
    View.ld_unit_zero (S := S1x1280x2048) hz3, pay31_eq, pay25_eq, pay17_eq]
    intro pc hpc
    simp only [List.mem_cons, List.not_mem_nil, or_false] at hpc
    rcases hpc with rfl | rfl | rfl | rfl
    · exact pieceT x0 x1 x2 (i 1).val hk xs2 1536 (by norm_num) _ _
    · exact pieceT x0 x1 x2 (i 1).val hk xs2 1024 (by norm_num) _ _
    · exact pieceT x0 x1 x2 (i 1).val hk xs2 512 (by norm_num) _ _
    · exact pieceT x0 x1 x2 (i 1).val hk xs2 0 (by norm_num) _ _
  · refine View.canon_apply_of_pieces (Val := Elt Ideal) (S := S2048x1) (e := .f32) (Gm x0 x1 xs0) _ ?_ (ix2 n 0) (cover4 _ _ _ _ _ _ _ _ _)
    simp only [View.readAt_eq_ld, harg2.read_unread, harg3.read_unread, harg6.read_unread,
    View.ld_unit_zero (S := S1x1280x2048) hz3, pay2_eq, pay29_eq, pay26_eq, pay23_eq, pay15_eq]
    intro pc hpc
    simp only [List.mem_cons, List.not_mem_nil, or_false] at hpc
    rcases hpc with rfl | rfl | rfl | rfl
    · exact pieceM x0 x1 xs0 1536 (by norm_num) _ _
    · exact pieceM x0 x1 xs0 1024 (by norm_num) _ _
    · exact pieceM x0 x1 xs0 512 (by norm_num) _ _
    · exact pieceM x0 x1 xs0 0 (by norm_num) _ _
  · refine View.canon_apply_of_pieces (Val := Elt Ideal) (S := S2048x1) (e := .f32) (Gl x0 x1 xs0 xs1) _ ?_ (ix2 n 0) (cover4 _ _ _ _ _ _ _ _ _)
    simp only [View.readAt_eq_ld, harg2.read_unread, harg3.read_unread, harg6.read_unread, harg7.read_unread,
    View.ld_unit_zero (S := S1x1280x2048) hz3, pay3_eq, pay26_eq, pay24_eq, pay16_eq]
    intro pc hpc
    simp only [List.mem_cons, List.not_mem_nil, or_false] at hpc
    rcases hpc with rfl | rfl | rfl | rfl
    · exact pieceL x0 x1 xs0 xs1 1536 (by norm_num) _ _
    · exact pieceL x0 x1 xs0 xs1 1024 (by norm_num) _ _
    · exact pieceL x0 x1 xs0 xs1 512 (by norm_num) _ _
    · exact pieceL x0 x1 xs0 xs1 0 (by norm_num) _ _

end Cert.Kto.K

end
-- ==== Proof.KAccum.lean ====
/-
  The streamed numbers after every grid point.

  By induction over the 50 points of the 2 x 25 grid: after point `t` (model `t / 25`, chunk `t % 25`) the three
  scratch columns hold, at token `n`, the running maximum, the running sum of exponentials and the running
  target-logit sum of that model's logit row of token `n` after its first `t % 25 + 1` chunks; and at a model's last
  chunk the output block holds `t - (m + log l)` of all 25.
-/
import proofs.«403809_j74698071212406_3_alg».proof.Proof.KArrays
import proofs.«403809_j74698071212406_3_alg».proof.Proof.KPieces

set_option maxRecDepth 16384

noncomputable section

namespace Cert.Kto.K

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (c : Dev nD)

/-- The logit row of flat token `n` under model `mdl`, from the stacked arrays. -/
def zK (mdl : Fin 2) (n : Fin 2048) : Fin 32000 → EReal :=
  fun v => ∑ h : Fin 2048, xarr m c (ix3 mdl n h) * warr m c (ix3 mdl v h)

/-- The second coordinate of a grid point is its vocabulary chunk. -/
theorem chunk_coord : ∀ t : Fin cfg0.N, (grid0.coords t 1).val = t.val % 25 :=
  (by decide +kernel : ∀ t : Fin grid0.N, (grid0.coords t 1).val = t.val % 25)

/-- The logits the body forms at point `t` for token `n` are the entries of the model's logit row at the chunk's
    1280 columns: both staged blocks are read back from the stacked arrays. -/
theorem blockLogit_blk (t : Fin cfg0.N) (n : Fin 2048) (j : Fin 1280) :
    blockLogit (xblk m c t) (wblk m c t) n j = zK m c (mdlOf t) n (col (t.val % 25) j) := by
  unfold blockLogit zK
  refine Finset.sum_congr rfl fun h _ => ?_
  rw [xblk_apply m c t n h, wblk_apply m c t j h]

/-- One chunk's update of a triple that is the streamed state after `K` chunks is the streamed state after `K + 1`:
    the recursion of `online`, with room for the names under which the point presents the row, the label word,
    the chunk number and the chunk's logits. -/
theorem step_eq (z z' : Fin 32000 → EReal) (lab lab' : BitVec 32) (K K' kh kb : ℕ) (bl : Fin 1280 → EReal)
    (a b d : EReal) (hprev : (a, b, d) = online z (hitOf lab) K)
    (hz : z' = z) (hlab : lab' = lab) (hK : K' = K + 1) (hkh : kh = K) (hkb : kb = K)
    (hbl : ∀ j, bl j = z' (col kb j)) :
    (stepM a bl, stepL a b bl, stepT d bl (fun j => hitOf lab' (col kh j))) = online z' (hitOf lab) K' := by
  obtain rfl : bl = fun j => z' (col kb j) := funext hbl
  subst hz hlab hK hkh hkb
  have ha : a = (online z' (hitOf lab') kb).1 := congrArg Prod.fst hprev
  have hb : b = (online z' (hitOf lab') kb).2.1 := congrArg (fun p => p.2.1) hprev
  have hd : d = (online z' (hitOf lab') kb).2.2 := congrArg (fun p => p.2.2) hprev
  rw [ha, hb, hd]
  rfl

/-- What the point before `t` left (at the very first point this names the point itself, and is not consulted). -/
abbrev prevAt (t : Fin cfg0.N) : Vec Ideal S1x2048x1 .f32 × Vec Ideal S2048x1 .f32 × Vec Ideal S2048x1 .f32 × Vec Ideal S2048x1 .f32 :=
  outsAt0 m c (t.val - 1) (Nat.lt_of_le_of_lt (Nat.sub_le _ _) t.isLt)

/-- A model's first chunk: the scratch is reset, then updated once. -/
theorem caseA (t : Fin cfg0.N) (h0 : t.val % 25 = 0) (h1 : ¬t.val % 25 = 24) (n : Fin 2048) :
    ((outsAt0 m c t.val t.isLt).2.1 (ix2 n 0), (outsAt0 m c t.val t.isLt).2.2.1 (ix2 n 0), (outsAt0 m c t.val t.isLt).2.2.2 (ix2 n 0))
      = (stepM ⊥ (blockLogit (xblk m c t) (wblk m c t) n),
         stepL ⊥ 0 (blockLogit (xblk m c t) (wblk m c t) n),
         stepT 0 (blockLogit (xblk m c t) (wblk m c t) n) (fun j => hitOf (lblk m c t (ix2 n 0)) (col (grid0.coords t 1).val j))) := by
  rw [outsAt0_A m c t h0 h1]; dsimp only
  exact congrArg₂ Prod.mk (first_m c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (xblk m c t) (wblk m c t) (lblk m c t) n)
    (congrArg₂ Prod.mk (first_l c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (xblk m c t) (wblk m c t) (lblk m c t) n)
      (first_t c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (xblk m c t) (wblk m c t) (lblk m c t) n))

/-- A chunk strictly inside a model's run: the scratch the point before left, updated once. -/
theorem caseB (t : Fin cfg0.N) (h0 : ¬t.val % 25 = 0) (h1 : ¬t.val % 25 = 24) (n : Fin 2048) :
    ((outsAt0 m c t.val t.isLt).2.1 (ix2 n 0), (outsAt0 m c t.val t.isLt).2.2.1 (ix2 n 0), (outsAt0 m c t.val t.isLt).2.2.2 (ix2 n 0))
      = (stepM ((prevAt m c t).2.1 (ix2 n 0)) (blockLogit (xblk m c t) (wblk m c t) n),
         stepL ((prevAt m c t).2.1 (ix2 n 0)) ((prevAt m c t).2.2.1 (ix2 n 0)) (blockLogit (xblk m c t) (wblk m c t) n),
         stepT ((prevAt m c t).2.2.2 (ix2 n 0)) (blockLogit (xblk m c t) (wblk m c t) n) (fun j => hitOf (lblk m c t (ix2 n 0)) (col (grid0.coords t 1).val j))) := by
  rw [outsAt0_B m c t h0 h1]; dsimp only
  exact congrArg₂ Prod.mk (mid_m c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (xblk m c t) (wblk m c t) (lblk m c t) (prevAt m c t).2.1 (prevAt m c t).2.2.1 (prevAt m c t).2.2.2 n)
    (congrArg₂ Prod.mk (mid_l c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (xblk m c t) (wblk m c t) (lblk m c t) (prevAt m c t).2.1 (prevAt m c t).2.2.1 (prevAt m c t).2.2.2 n)
      (mid_t c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (xblk m c t) (wblk m c t) (lblk m c t) (prevAt m c t).2.1 (prevAt m c t).2.2.1 (prevAt m c t).2.2.2 n))

/-- A model's last chunk: the same update of the scratch. -/
theorem caseC (t : Fin cfg0.N) (h0 : ¬t.val % 25 = 0) (h1 : t.val % 25 = 24) (n : Fin 2048) :
    ((outsAt0 m c t.val t.isLt).2.1 (ix2 n 0), (outsAt0 m c t.val t.isLt).2.2.1 (ix2 n 0), (outsAt0 m c t.val t.isLt).2.2.2 (ix2 n 0))
      = (stepM ((prevAt m c t).2.1 (ix2 n 0)) (blockLogit (xblk m c t) (wblk m c t) n),
         stepL ((prevAt m c t).2.1 (ix2 n 0)) ((prevAt m c t).2.2.1 (ix2 n 0)) (blockLogit (xblk m c t) (wblk m c t) n),
         stepT ((prevAt m c t).2.2.2 (ix2 n 0)) (blockLogit (xblk m c t) (wblk m c t) n) (fun j => hitOf (lblk m c t (ix2 n 0)) (col (grid0.coords t 1).val j))) := by
  rw [outsAt0_C m c t h0 h1]; dsimp only
  exact congrArg₂ Prod.mk (last_m c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (xblk m c t) (wblk m c t) (lblk m c t) (prevAt m c t).2.1 (prevAt m c t).2.2.1 (prevAt m c t).2.2.2 n)
    (congrArg₂ Prod.mk (last_l c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (xblk m c t) (wblk m c t) (lblk m c t) (prevAt m c t).2.1 (prevAt m c t).2.2.1 (prevAt m c t).2.2.2 n)
      (last_t c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (xblk m c t) (wblk m c t) (lblk m c t) (prevAt m c t).2.1 (prevAt m c t).2.2.1 (prevAt m c t).2.2.2 n))

/-- A model's last chunk also writes the output block: `t - (m + log l)` of the updated numbers. -/
theorem caseC_out (t : Fin cfg0.N) (h0 : ¬t.val % 25 = 0) (h1 : t.val % 25 = 24) (n : Fin 2048) :
    (outsAt0 m c t.val t.isLt).1 (ix3 0 n 0)
      = stepT ((prevAt m c t).2.2.2 (ix2 n 0)) (blockLogit (xblk m c t) (wblk m c t) n) (fun j => hitOf (lblk m c t (ix2 n 0)) (col (grid0.coords t 1).val j))
          - (stepM ((prevAt m c t).2.1 (ix2 n 0)) (blockLogit (xblk m c t) (wblk m c t) n)
              + Ideal.log (stepL ((prevAt m c t).2.1 (ix2 n 0)) ((prevAt m c t).2.2.1 (ix2 n 0)) (blockLogit (xblk m c t) (wblk m c t) n))) := by
  rw [outsAt0_C m c t h0 h1]; dsimp only
  exact last_out c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (xblk m c t) (wblk m c t) (lblk m c t) (prevAt m c t).2.1 (prevAt m c t).2.2.1 (prevAt m c t).2.2.2 n

/-- The invariant, by induction on the point: the three scratch columns at token `n` after point `k` are the streamed
    numbers of the point's model after `k % 25 + 1` chunks.  At a model's first chunk the state before is the empty
    one; elsewhere it is what the point before left, which works on the same model. -/
theorem scratch_inv (k : ℕ) : ∀ (hk : k < cfg0.N) (n : Fin 2048),
    ((outsAt0 m c k hk).2.1 (ix2 n 0), (outsAt0 m c k hk).2.2.1 (ix2 n 0), (outsAt0 m c k hk).2.2.2 (ix2 n 0))
      = online (zK m c (mdlOf ⟨k, hk⟩) n) (hitOf (larr m c (ix2 n 0))) (k % 25 + 1) := by
  induction k with
  | zero =>
    intro hk n
    refine (caseA m c ⟨0, hk⟩ rfl (by show ¬(0 % 25 = 24); decide) n).trans ?_
    exact step_eq (zK m c (mdlOf ⟨0, hk⟩) n) (zK m c (mdlOf ⟨0, hk⟩) n) (larr m c (ix2 n 0)) (lblk m c ⟨0, hk⟩ (ix2 n 0))
      0 (0 % 25 + 1) (grid0.coords ⟨0, hk⟩ 1).val ((⟨0, hk⟩ : Fin cfg0.N).val % 25)
      (blockLogit (xblk m c ⟨0, hk⟩) (wblk m c ⟨0, hk⟩) n) ⊥ 0 0 rfl rfl (lblk_apply m c ⟨0, hk⟩ n) rfl
      (chunk_coord ⟨0, hk⟩) rfl (blockLogit_blk m c ⟨0, hk⟩ n)
  | succ k ih =>
    intro hk n
    have hN : k + 1 < 50 := lt_of_lt_of_eq hk (show cfg0.N = 50 from N_0)
    by_cases h0 : (k + 1) % 25 = 0
    · have h1 : ¬(k + 1) % 25 = 24 := by omega
      refine (caseA m c ⟨k + 1, hk⟩ h0 h1 n).trans ?_
      exact step_eq (zK m c (mdlOf ⟨k + 1, hk⟩) n) (zK m c (mdlOf ⟨k + 1, hk⟩) n) (larr m c (ix2 n 0))
        (lblk m c ⟨k + 1, hk⟩ (ix2 n 0)) 0 ((k + 1) % 25 + 1) (grid0.coords ⟨k + 1, hk⟩ 1).val
        ((⟨k + 1, hk⟩ : Fin cfg0.N).val % 25) (blockLogit (xblk m c ⟨k + 1, hk⟩) (wblk m c ⟨k + 1, hk⟩) n) ⊥ 0 0 rfl rfl
        (lblk_apply m c ⟨k + 1, hk⟩ n) (by omega) ((chunk_coord ⟨k + 1, hk⟩).trans h0) h0
        (blockLogit_blk m c ⟨k + 1, hk⟩ n)
    · have hmdl : mdlOf ⟨k + 1, hk⟩ = mdlOf ⟨k, Nat.lt_of_succ_lt hk⟩ :=
        Fin.ext (by show (k + 1) / 25 = k / 25; omega)
      have hch : (k + 1) % 25 = k % 25 + 1 := by omega
      have hstep : ∀ S : EReal × EReal × EReal,
          S = (stepM ((prevAt m c ⟨k + 1, hk⟩).2.1 (ix2 n 0)) (blockLogit (xblk m c ⟨k + 1, hk⟩) (wblk m c ⟨k + 1, hk⟩) n),
               stepL ((prevAt m c ⟨k + 1, hk⟩).2.1 (ix2 n 0)) ((prevAt m c ⟨k + 1, hk⟩).2.2.1 (ix2 n 0))
                 (blockLogit (xblk m c ⟨k + 1, hk⟩) (wblk m c ⟨k + 1, hk⟩) n),
               stepT ((prevAt m c ⟨k + 1, hk⟩).2.2.2 (ix2 n 0)) (blockLogit (xblk m c ⟨k + 1, hk⟩) (wblk m c ⟨k + 1, hk⟩) n)
                 (fun j => hitOf (lblk m c ⟨k + 1, hk⟩ (ix2 n 0)) (col (grid0.coords ⟨k + 1, hk⟩ 1).val j))) →
          S = online (zK m c (mdlOf ⟨k + 1, hk⟩) n) (hitOf (larr m c (ix2 n 0))) ((k + 1) % 25 + 1) := fun S hS =>
        hS.trans (step_eq (zK m c (mdlOf ⟨k, Nat.lt_of_succ_lt hk⟩) n) (zK m c (mdlOf ⟨k + 1, hk⟩) n) (larr m c (ix2 n 0))
          (lblk m c ⟨k + 1, hk⟩ (ix2 n 0)) (k % 25 + 1) ((k + 1) % 25 + 1) (grid0.coords ⟨k + 1, hk⟩ 1).val
          ((⟨k + 1, hk⟩ : Fin cfg0.N).val % 25) (blockLogit (xblk m c ⟨k + 1, hk⟩) (wblk m c ⟨k + 1, hk⟩) n)
          ((prevAt m c ⟨k + 1, hk⟩).2.1 (ix2 n 0)) ((prevAt m c ⟨k + 1, hk⟩).2.2.1 (ix2 n 0))
          ((prevAt m c ⟨k + 1, hk⟩).2.2.2 (ix2 n 0)) (ih (Nat.lt_of_succ_lt hk) n) (congrArg (fun md => zK m c md n) hmdl)
          (lblk_apply m c ⟨k + 1, hk⟩ n) (by omega) ((chunk_coord ⟨k + 1, hk⟩).trans hch) hch
          (blockLogit_blk m c ⟨k + 1, hk⟩ n))
      by_cases h1 : (k + 1) % 25 = 24
      · exact hstep _ (caseC m c ⟨k + 1, hk⟩ h0 h1 n)
      · exact hstep _ (caseB m c ⟨k + 1, hk⟩ h0 h1 n)

/-- After point `t` the three scratch columns at token `n` are the streamed numbers after `t % 25 + 1` chunks. -/
theorem scratch_at (t : Fin cfg0.N) (n : Fin 2048) :
    ((outsAt0 m c t.val t.isLt).2.1 (ix2 n 0), (outsAt0 m c t.val t.isLt).2.2.1 (ix2 n 0), (outsAt0 m c t.val t.isLt).2.2.2 (ix2 n 0))
      = online (zK m c (mdlOf t) n) (hitOf (larr m c (ix2 n 0))) (t.val % 25 + 1) :=
  scratch_inv m c t.val t.isLt n

/-- At a model's last chunk the output block at token `n` is the streamed log-probability. -/
theorem out_at (t : Fin cfg0.N) (hlast : t.val % 25 = 24) (n : Fin 2048) :
    (outsAt0 m c t.val t.isLt).1 (ix3 0 n 0) = onlineLogp (zK m c (mdlOf t) n) (hitOf (larr m c (ix2 n 0))) := by
  have h0 : ¬t.val % 25 = 0 := by omega
  have hE : (stepM ((prevAt m c t).2.1 (ix2 n 0)) (blockLogit (xblk m c t) (wblk m c t) n),
         stepL ((prevAt m c t).2.1 (ix2 n 0)) ((prevAt m c t).2.2.1 (ix2 n 0)) (blockLogit (xblk m c t) (wblk m c t) n),
         stepT ((prevAt m c t).2.2.2 (ix2 n 0)) (blockLogit (xblk m c t) (wblk m c t) n) (fun j => hitOf (lblk m c t (ix2 n 0)) (col (grid0.coords t 1).val j)))
      = online (zK m c (mdlOf t) n) (hitOf (larr m c (ix2 n 0))) 25 :=
    (caseC m c t h0 hlast n).symm.trans ((scratch_at m c t n).trans (by rw [hlast]))
  refine (caseC_out m c t h0 hlast n).trans ?_
  exact congrArg₂ (fun a b : EReal => a - b) (congrArg (fun p : EReal × EReal × EReal => p.2.2) hE)
    (congrArg₂ (fun a b : EReal => a + b) (congrArg (fun p : EReal × EReal × EReal => p.1) hE)
      (congrArg Ideal.log (congrArg (fun p : EReal × EReal × EReal => p.2.1) hE)))

end Cert.Kto.K

end
-- ==== Proof.KFlush.lean ====
/-
  The output array after the region.

  The output window is written back only at a model's last chunk (points 24 and 49), each time the model's whole
  [1, 2048, 1] block; the two blocks tile the [2, 2048, 1] array, so after the region it holds every token's streamed
  log-probability under each model.
-/
import proofs.«403809_j74698071212406_3_alg».proof.Proof.KAccum
import Idealize.ShloMosaic.Lib.Pipeline.Value

set_option maxRecDepth 16384

noncomputable section

namespace Cert.Kto.K

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (c : Dev nD)

/-- The output array after the last write-back. -/
abbrev oarr : Vec Ideal S2x2048x1 .f32 := (dats m 0 c).arrAt 3 cfg0.N

/-- The output's index map over the grid: its block follows the model and stays at 0 on the token and unit axes. -/
theorem idx_facts3 : ∀ t : Fin cfg0.N,
    win0_3.index t (0 : Fin 3) = t.val / 25 ∧ win0_3.index t (1 : Fin 3) = 0 ∧ win0_3.index t (2 : Fin 3) = 0 :=
  (by decide +kernel : ∀ t : Fin grid0.N, _)

/-- The streamed log-probability of token `n` under model `a`. -/
def tokLogp (a : Fin 2) (n : Fin 2048) : EReal :=
  onlineLogp (zK m c a n) (hitOf (larr m c (ix2 n 0)))

/-- What the output array ends holding, as one function of its index: at `(a, n, 0)` the streamed log-probability of
    token `n` under model `a`. -/
def Gout : Vec Ideal S2x2048x1 .f32 := fun i =>
  tokLogp m c ⟨(i 0).val, (i 0).isLt⟩ ⟨(i 1).val, (i 1).isLt⟩

theorem Gout_ix3 (a : Fin 2) (n : Fin 2048) :
    Gout m c (ix3 a n 0) = onlineLogp (zK m c a n) (hitOf (larr m c (ix2 n 0))) := rfl

/-- What a model's last chunk writes back is that model's block of `Gout`: the block's element `(0, n, 0)` sits in the
    array at `(t / 25, n, 0)`, and the staging buffer holds there the streamed log-probability of token `n`. -/
theorem flushed3_eq (t : Fin cfg0.N) (hf : (cfg0.win 3).flush t = true) :
    (dats m 0 c).flushed 3 t = ((cfg0.win 3).blk t).view.read (Elt Ideal) (Gout m c) := by
  have hlast : t.val % 25 = 24 := (flush0_3 t).mp hf
  obtain ⟨e0, e1, e2⟩ := idx_facts3 t
  show (cfg0.win 3).cut (grid0.coords t) ((dats m 0 c).after 3 t) = _
  rw [after0_3]
  funext y
  have hy0 : (y 0).val < 1 := (y 0).isLt
  have hy1 : (y 1).val < 2048 := (y 1).isLt
  have hy2 : (y 2).val < 1 := (y 2).isLt
  show (outsAt0 m c t.val t.isLt).1 ((cfg0.win 3).xinj (grid0.coords t) y)
    = Gout m c (((cfg0.win 3).blk t).view.emb y)
  have hx : (cfg0.win 3).xinj (grid0.coords t) y = ix3 (0 : Fin 1) (⟨(y 1).val, hy1⟩ : Fin 2048) (0 : Fin 1) := by
    funext a; apply Fin.ext
    match a with
    | ⟨0, _⟩ => show (y 0).val = 0; omega
    | ⟨1, _⟩ => rfl
    | ⟨2, _⟩ => show (y 2).val = 0; omega
  have hemb : ((cfg0.win 3).blk t).view.emb y = ix3 (mdlOf t) (⟨(y 1).val, hy1⟩ : Fin 2048) (0 : Fin 1) := by
    funext a; apply Fin.ext
    match a with
    | ⟨0, _⟩ => show win0_3.index t (0 : Fin 3) * 1 + 1 * (y 0).val = t.val / 25; omega
    | ⟨1, _⟩ => show win0_3.index t (1 : Fin 3) * 2048 + 1 * (y 1).val = (y 1).val; omega
    | ⟨2, _⟩ => show win0_3.index t (2 : Fin 3) * 1 + 1 * (y 2).val = 0; omega
  refine (congrArg (outsAt0 m c t.val t.isLt).1 hx).trans ?_
  refine (out_at m c t hlast ⟨(y 1).val, hy1⟩).trans ?_
  exact ((congrArg (Gout m c) hemb).trans (Gout_ix3 m c (mdlOf t) ⟨(y 1).val, hy1⟩)).symm

/-- Every index `(a, n, 0)` of the array lies in the block written back at model `a`'s last chunk, point `25 a + 24`. -/
theorem cover3 (i : S2x2048x1.Idx) :
    ∃ t : Fin cfg0.N, (cfg0.win 3).flush t = true ∧ i ∈ ((cfg0.win 3).blk t).view.set := by
  have h0 : (i 0).val < 2 := (i 0).isLt
  have h1 : (i 1).val < 2048 := (i 1).isLt
  have h2 : (i 2).val < 1 := (i 2).isLt
  have hN : cfg0.N = 50 := N_0
  obtain ⟨t, ht⟩ : ∃ t : Fin cfg0.N, t.val = 25 * (i 0).val + 24 := ⟨⟨25 * (i 0).val + 24, by omega⟩, rfl⟩
  obtain ⟨e0, e1, e2⟩ := idx_facts3 t
  refine ⟨t, (flush0_3 t).mpr (by omega), ?_⟩
  show i ∈ ((View.whole main_v16).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 2048 ≤ (i 1).val ∧ (i 1).val < win0_3.index t (1 : Fin 3) * 2048 + 2048
    omega
  | ⟨2, _⟩ =>
    show win0_3.index t (2 : Fin 3) * 1 ≤ (i 2).val ∧ (i 2).val < win0_3.index t (2 : Fin 3) * 1 + 1
    omega

/-- So the array ends holding `Gout`. -/
theorem oarr_eq : oarr m c = Gout m c :=
  (dats m 0 c).arrAt_eq_of_cover 3 (Gout m c) (fun t hf => flushed3_eq m c t hf) cover3

theorem oarr_apply (mdl : Fin 2) (n : Fin 2048) :
    oarr m c (ix3 mdl n 0) = onlineLogp (zK m c mdl n) (hitOf (larr m c (ix2 n 0))) :=
  (congrFun (oarr_eq m c) (ix3 mdl n 0)).trans (Gout_ix3 m c mdl n)

end Cert.Kto.K

end
-- ==== Proof.KTail.lean ====
/-
  The program's result from the output array.

  After the region the program takes each model's column of 2048 token values back to [4, 512], multiplies by the
  0/1 mask, sums each sequence and divides by the sequence's mask count (a float sum of the masks), and applies the
  loss to the two models' scores.
-/
import proofs.«403809_j74698071212406_3_alg».proof.Proof.KFlush
import Idealize.ShloMosaic.Lib.StableHlo.Run
import Idealize.ShloMosaic.Lib.IdealHost
import Idealize.ShloMosaic.Lib.ValueIdxRank1
import Idealize.ShloMosaic.Lib.Affine
import Idealize.ShloMosaic.PureOps.Ideal.Laws
import Idealize.ShloMosaic.Lib.Pipeline.Value

set_option maxRecDepth 16384

noncomputable section

namespace Cert.Kto.K

open Idealize.ShloMosaic Idealize.ShloMosaic.ValueIdx Idealize.ShloMosaic.TcCoe Idealize.SL.Sem
open Cert.KernelIdeal Cert.KernelIdeal.Gen

/-! ## The lines after the region, one operation at a time

Each lemma reads one group of the lines at an index, over arbitrary operands; the composed term of all the lines is
then taken apart group by group. -/

/-- The loss from the two models' per-token values and a 0/1 mask given as extended reals: the masked averages over
    the mask's own sums. -/
def lossM (tokP tokR mk : Fin 4 → Fin 512 → EReal) (pref : Fin 4 → BitVec 1) : EReal :=
  ktoLoss (maskedAvg tokP mk (maskCount mk)) (maskedAvg tokR mk (maskCount mk)) (fun b => prefSign (pref b))

/-- With the mask of the targets and its counts as denominators, that is the stated result. -/
theorem resultOf_eq_lossM (tokP tokR : Fin 4 → Fin 512 → EReal) (y : Fin 4 → Fin 512 → BitVec 32) (pref : Fin 4 → BitVec 1) :
    resultOf tokP tokR y (maskCount fun b s => maskOf (y b s)) pref = lossM tokP tokR (fun b s => maskOf (y b s)) pref := rfl

/-- The f32 zero the sums start from, read at the scalar's one index, is the extended real zero. -/
theorem zero_init : (constant (F := Ideal) S_ .f32 0x00000000#32) (Shape.Idx.first h_S_) = 0 := Ideal.ofBits_zero_f32

/-- Token `(b, s)` of model `k`'s column taken back to [4, 512]: the slice of that model and the two changes of
    shape read the output array at `(k, 512 b + s, 0)`. -/
theorem tok_apply (o : Vec Ideal S2x2048x1 .f32) (k : Fin 2) (off : Fin 3 → ℕ) (h0 : off 0 = k.val) (h1 : off 1 = 0)
    (h2 : off 2 = 0) (hs : S2x2048x1.Slices off S1x2048x1) (b : Fin 4) (s : Fin 512) :
    shapeCast S4x512 (shapeCast S2048x1 (extractStridedSlice S1x2048x1 off o hs) shapeCasts_S1x2048x1_S2048x1)
        shapeCasts_S2048x1_S4x512 (ix2 b s) = o (ix3 k (tokIx b s) 0) := by
  have hb : b.val < 4 := b.isLt
  have hs' : s.val < 512 := s.isLt
  refine (shapeCast_apply _ _ (ix2 b s) (ix2 (tokIx b s) (0 : Fin 1)) ?_).trans ?_
  · rw [Shape.rowMajor_val_two, Shape.rowMajor_val_two]
    show (512 * b.val + s.val) * 1 + 0 = b.val * 512 + s.val
    omega
  refine (shapeCast_apply _ _ _ (ix3 (0 : Fin 1) (tokIx b s) (0 : Fin 1)) ?_).trans ?_
  · rw [Shape.rowMajor_val_three, Shape.rowMajor_val_two]
    show (0 * 2048 + (512 * b.val + s.val)) * 1 + 0 = (512 * b.val + s.val) * 1 + 0
    omega
  exact extractStridedSlice_apply _ _ _ _ (ix3 k (tokIx b s) (0 : Fin 1)) (fun a => match a with
    | ⟨0, _⟩ => by show k.val = off 0 + 0; omega
    | ⟨1, _⟩ => by show 512 * b.val + s.val = off 1 + (512 * b.val + s.val); omega
    | ⟨2, _⟩ => by show 0 = off 2 + 0; omega)

/-- A sequence's masked average as the lines take it: the float sum over the sequence of value times mask, over the
    float sum of the mask. -/
theorem avg_apply (v mkf : Vec Ideal S4x512 .f32) (b : Fin 4) :
    Host.divf (Host.reduceAdd (mulf v mkf) (constant (F := Ideal) S_ .f32 0x00000000#32) reducesTo_S4x512_S4_d1 h_S_)
        (Host.reduceAdd mkf (constant (F := Ideal) S_ .f32 0x00000000#32) reducesTo_S4x512_S4_d1 h_S_) (ix1 b)
      = maskedAvg (fun b s => v (ix2 b s)) (fun b s => mkf (ix2 b s)) (maskCount fun b s => mkf (ix2 b s)) b := by
  have h : S4x512.Reduces [1] S4 := by decide
  have e : ∀ k : Fin 512, h.lift (ix1 b) k = ix2 b k := fun k => funext fun a => match a with
    | ⟨0, _⟩ => rfl
    | ⟨1, _⟩ => rfl
  rw [hostDivf_apply, hostReduceAdd_apply, hostReduceAdd_apply, Ideal.hostReduceAdd_single _ h,
    Ideal.hostReduceAdd_single _ h, zero_init]
  show Ideal.div (0 + ∑ k : Fin 512, (v (h.lift (ix1 b) k) * mkf (h.lift (ix1 b) k)))
      (0 + ∑ k : Fin 512, mkf (h.lift (ix1 b) k)) = _
  simp only [e]
  rfl

/-- The sum over the one axis of a [4] array is the sum over its coordinate. -/
theorem sum_S4 (f : S4.Idx → EReal) : ∑ i : S4.Idx, f i = ∑ b : Fin 4, f (ix1 b) :=
  (Equiv.sum_comp (idxEquiv1 (n := 4)).symm f).symm

/-- The last lines — scale by 0.1 and the sign, `1 - 1 / (1 + exp (-·))`, the sum over the four sequences over 4 —
    are the loss of the scores they are given. -/
theorem loss_apply (sp sr sg : Vec Ideal S4 .f32) (i : S_.Idx) :
    Host.divf
      (Host.reduceAdd
        (subf (broadcastInDim S4 ![] bcast_S_S4 (constant (F := Ideal) S_ .f32 0x3F800000#32))
          (Host.divf (broadcastInDim S4 ![] bcast_S_S4 (constant (F := Ideal) S_ .f32 0x3F800000#32))
            (addf (broadcastInDim S4 ![] bcast_S_S4 (constant (F := Ideal) S_ .f32 0x3F800000#32))
              (Host.exp
                (Host.negf
                  (mulf
                    (mulf (broadcastInDim S4 ![] bcast_S_S4 (constant (F := Ideal) S_ .f32 0x3DCCCCCD#32)) (subf sp sr))
                    sg))))))
        (constant (F := Ideal) S_ .f32 0x00000000#32) reducesTo_S4_S_d0 h_S_)
      (constant (F := Ideal) S_ .f32 0x40800000#32) i
    = ktoLoss (fun b => sp (ix1 b)) (fun b => sr (ix1 b)) (fun b => sg (ix1 b)) := by
  rw [hostDivf_apply, hostReduceAdd_apply, Ideal.hostReduceAdd_total _ (fun b => b.elim0), zero_init, sum_S4]
  rfl

/-- The select between the broadcast 1.0 and -1.0 by the preference bit is the preference sign. -/
theorem sign_apply (pf : Vec Ideal S4 .i1) (b : Fin 4) :
    select pf (broadcastInDim S4 ![] bcast_S_S4 (constant (F := Ideal) S_ .f32 0x3F800000#32))
        (broadcastInDim S4 ![] bcast_S_S4 (constant (F := Ideal) S_ .f32 0xBF800000#32)) (ix1 b)
      = prefSign (pf (ix1 b)) := rfl

/-- The one-bit word of "the target is not the ignore value", read unsigned as a float, is the mask. -/
theorem mask_apply (y : BitVec 32) : FloatOps.uitofp (F := Ideal) .f32 (IntOp.cmpi .ne y ignoreWord) = maskOf y := by
  unfold maskOf
  by_cases h : y = ignoreWord
  · have e : IntOp.cmpi .ne y ignoreWord = 0#1 := eq_zero_of_ne_one fun e => (IntOp.cmpi_ne.mp e) h
    rw [if_pos h, e]
    show (((0#1 : BitVec 1).toNat : ℝ) : EReal) = 0
    simp
  · have e : IntOp.cmpi .ne y ignoreWord = 1#1 := IntOp.cmpi_ne.mpr h
    rw [if_neg h, e]
    show (((1#1 : BitVec 1).toNat : ℝ) : EReal) = 1
    simp

/-! ## All the lines at once -/

/-- From any contents at the region's exit, the result buffer after the lines holds the loss of the output array's
    token values under the mask word's 0/1 values and the preference bits found there. -/
theorem tail_of (W : Valuation τ sig (Elt Ideal)) :
    StableHlo.after (List.flatten [hostOps1, hostOps1_1, hostOps1_2]) W (Proc.devRef .tc main_v46)
      = fun _ => lossM (fun b s => (W (Proc.devRef .tc main_v16) : Vec Ideal S2x2048x1 .f32) (ix3 0 (tokIx b s) 0))
          (fun b s => (W (Proc.devRef .tc main_v16) : Vec Ideal S2x2048x1 .f32) (ix3 1 (tokIx b s) 0))
          (fun b s => FloatOps.uitofp (F := Ideal) .f32 ((W (Proc.devRef .tc main_v1) : Vec Ideal S4x512 .i1) (ix2 b s)))
          (fun b => (W (Proc.devRef .tc main_arg3) : Vec Ideal S4 .i1) (ix1 b)) := by
  simp only [Gen.hostOps1, Gen.hostOps1_1, Gen.hostOps1_2, List.flatten_cons, List.flatten_nil, List.append_nil,
    List.cons_append, List.nil_append]
  after_results_simp
  funext i
  refine (loss_apply _ _ _ i).trans ?_
  unfold lossM
  refine congr (congr (congrArg ktoLoss (funext fun b => ?_)) (funext fun b => ?_)) (funext fun b => ?_)
  · refine (avg_apply _ _ b).trans ?_
    refine congrArg (fun tok => maskedAvg tok _ _ b) (funext fun b' => funext fun s => ?_)
    exact tok_apply _ 0 _ rfl rfl rfl _ b' s
  · refine (avg_apply _ _ b).trans ?_
    refine congrArg (fun tok => maskedAvg tok _ _ b) (funext fun b' => funext fun s => ?_)
    exact tok_apply _ 1 _ rfl rfl rfl _ b' s
  · exact sign_apply _ b

variable (m : (ℓ : Loc nD τ sig) → Buf (Elt Ideal) ℓ) (ρ : Dev nD → PrngReg)

/-- The mask word the region finds: the comparison of the targets with the broadcast ignore value. -/
theorem v1_eq (c : Dev nD) :
    (V m c main_v1 : Vec Ideal S4x512 .i1)
      = cmpi .ne (a2 m c) (broadcastInDim S4x512 ![] bcast_S_S4x512 (constantI S_ 32 4294967196#32)) := by
  dsimp only [Gen.V, Gen.V0]
  simp only [Gen.hostOps0, Gen.hostOps0_1, Gen.hostOps0_2, List.flatten_cons, List.flatten_nil, List.append_nil,
    List.cons_append, List.nil_append]
  after_results

/-- What the lines after the region leave in the result buffer. -/
theorem tail_eq (c : Dev nD) :
    Pipeline.afterTail₀ cfgs (dats m) 0 (V0 m) [hostOps1, hostOps1_1, hostOps1_2] c main_v46
      = fun _ => resultOf (fun b s => oarr m c (ix3 0 (tokIx b s) 0)) (fun b s => oarr m c (ix3 1 (tokIx b s) 0))
          (fun b s => a2 m c (ix2 b s)) (maskCount fun b s => maskOf (a2 m c (ix2 b s))) (fun b => a3 m c (ix1 b)) := by
  have e16 : Pipeline.withArrays spec0 c (V0 m c) (fun w => (dats m 0 c).arrAt w cfg0.N) (Proc.devRef .tc main_v16)
      = oarr m c := Pipeline.withArrays_arr spec0 launch0.win.arr_inj c _ _ 3
  have e1 : Pipeline.withArrays spec0 c (V0 m c) (fun w => (dats m 0 c).arrAt w cfg0.N) (Proc.devRef .tc main_v1)
      = cmpi .ne (a2 m c) (broadcastInDim S4x512 ![] bcast_S_S4x512 (constantI S_ 32 4294967196#32)) :=
    (Pipeline.withArrays_of_ne _ c (V0 m c) _ main_v1
      (by exact (by decide : ∀ w, Pipeline.arrRef spec0 w ≠ main_v1))).trans (v1_eq m c)
  have e3 : Pipeline.withArrays spec0 c (V0 m c) (fun w => (dats m 0 c).arrAt w cfg0.N) (Proc.devRef .tc main_arg3)
      = a3 m c :=
    (Pipeline.withArrays_of_ne _ c (V0 m c) _ main_arg3
      (by exact (by decide : ∀ w, Pipeline.arrRef spec0 w ≠ main_arg3))).trans (V_main_arg3 m c)
  unfold Pipeline.afterTail₀
  show StableHlo.after (List.flatten [hostOps1, hostOps1_1, hostOps1_2])
      (Pipeline.withArrays spec0 c (V0 m c) fun w => (dats m 0 c).arrAt w cfg0.N) (Proc.devRef .tc main_v46) = _
  refine (tail_of _).trans ?_
  rw [e16, e1, e3]
  funext _
  rw [resultOf_eq_lossM]
  exact congrArg (fun mk => lossM _ _ mk _) (funext fun b => funext fun s => mask_apply _)

/-- Every weakly fair execution of the program ends with the result at the loss of the output array's token values
    (denominators the float mask counts), and with the six arguments unchanged. -/
theorem kernel_run :
    θ_run defs (onTc (τ := τ) (main (F := Ideal))) ⟨m, fun _ => 0, ρ⟩ (fun r => ∀ c : Dev nD,
      r.2.mem ((c.tc : Thread nD τ).loc main_v46)
          = (fun _ => resultOf (fun b s => oarr m c (ix3 0 (tokIx b s) 0)) (fun b s => oarr m c (ix3 1 (tokIx b s) 0))
              (fun b s => a2 m c (ix2 b s)) (maskCount fun b s => maskOf (a2 m c (ix2 b s))) (fun b => a3 m c (ix1 b)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v46 (Pipeline.mem_restRefs_of main_v46 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.Kto.K

end
-- ==== Proof.RefSegs.lean ====
/-
  The reference program's operation list, cut into nine consecutive stretches.

  The list of 138 host operations is the concatenation `sA ++ sB ++ … ++ sI` (`ops_cut`), the cuts at the natural
  seams of the program: each model's logits with their log-softmax, its label mask, its gather at the labels, its
  masked mean, and the tail that forms the loss from the two means.  Here each operation is spelt with the plain
  builders over its buffers (an operation of a called function, a typed-reference operation in the full list, is the
  plain builder at the same buffers with the same function: the two differ by transports along equations that hold by
  computation, so the list equation is still by `rfl`).

  For each stretch: `keep_s…` — a buffer the stretch does not write is left as it was —, and the statement `St_s…` of
  what the stretch computes: if the buffers it reads are at their stages (the functions `val_…` of the arguments),
  the buffers later stretches read from it are at theirs.  The statements are proved in the modules that import this one.
-/
import proofs.«403809_j74698071212406_3_alg».proof.Proof.RefRun
import proofs.«403809_j74698071212406_3_alg».proof.Proof.RefRead
import Idealize.ShloMosaic.Lib.StableHlo.Run

set_option maxRecDepth 16384

noncomputable section

namespace Cert.Kto.Ref

open Idealize.ShloMosaic Idealize.ShloMosaic.ValueIdx
open Idealize.ShloMosaic.TcCoe Idealize.SL.Sem Idealize.ShloMosaic.StableHlo
open Cert.ReferenceIdeal Cert.ReferenceIdeal.Gen Cert.ReferenceIdeal.ValueP Cert.ReferenceIdeal.ReadP

variable {F : FTy → Type} [FloatOps F]

local notation:max V "⟦" r "⟧" => V (Proc.devRef Proc.tc r)

/-! ## The stretches -/

/-- The first model's logits (the product of its activations with its output matrix) and their log-softmax along the vocabulary axis: the sixteen operations up to `main_v1`. -/
def sA : List (HloOp τ sig (Elt F)) :=
  [ binary main_arg0 main_arg4 main_v0 ((fun l r => Host.dotGeneral dot_S4x512x2048_S32000x2048_S4x512x32000_2_1_01_0_n_n none l r) : (⟨S4x512x2048, .f32⟩ : BufTy).Contents (Elt F) → (⟨S32000x2048, .f32⟩ : BufTy).Contents (Elt F) → (⟨S4x512x32000, .f32⟩ : BufTy).Contents (Elt F)),
    nullary main_call0_cst ((constant S_ .f32 0xFF800000#32) : (⟨S_, .f32⟩ : BufTy).Contents (Elt F)),
    binary main_v0 main_call0_cst main_call0_v0 ((fun x v => Host.reduce FloatOps.maximumf x v reducesTo_S4x512x32000_S4x512_d2 h_S_) : (⟨S4x512x32000, .f32⟩ : BufTy).Contents (Elt F) → (⟨S_, .f32⟩ : BufTy).Contents (Elt F) → (⟨S4x512, .f32⟩ : BufTy).Contents (Elt F)),
    nullary main_call0_cst_0 ((constant S_ .f32 0xFF800000#32) : (⟨S_, .f32⟩ : BufTy).Contents (Elt F)),
    unary main_call0_cst_0 main_call0_v1 ((broadcastInDim S4x512 ![] bcast_S_S4x512) : (⟨S_, .f32⟩ : BufTy).Contents (Elt F) → (⟨S4x512, .f32⟩ : BufTy).Contents (Elt F)),
    binary main_call0_v1 main_call0_v0 main_call0_v2 (maximumf : (⟨S4x512, .f32⟩ : BufTy).Contents (Elt F) → (⟨S4x512, .f32⟩ : BufTy).Contents (Elt F) → (⟨S4x512, .f32⟩ : BufTy).Contents (Elt F)),
    unary main_call0_v2 main_call0_v3 ((broadcastInDim S4x512x1 ![0, 1] bcast_S4x512_S4x512x1_0_1) : (⟨S4x512, .f32⟩ : BufTy).Contents (Elt F) → (⟨S4x512x1, .f32⟩ : BufTy).Contents (Elt F)),
    unary main_call0_v3 main_call0_v4 ((broadcastInDim S4x512x32000 ![0, 1, 2] bcast_S4x512x1_S4x512x32000_0_1_2) : (⟨S4x512x1, .f32⟩ : BufTy).Contents (Elt F) → (⟨S4x512x32000, .f32⟩ : BufTy).Contents (Elt F)),
    binary main_v0 main_call0_v4 main_call0_v5 (subf : (⟨S4x512x32000, .f32⟩ : BufTy).Contents (Elt F) → (⟨S4x512x32000, .f32⟩ : BufTy).Contents (Elt F) → (⟨S4x512x32000, .f32⟩ : BufTy).Contents (Elt F)),
    unary main_call0_v5 main_call0_v6 (Host.exp : (⟨S4x512x32000, .f32⟩ : BufTy).Contents (Elt F) → (⟨S4x512x32000, .f32⟩ : BufTy).Contents (Elt F)),
    nullary main_call0_cst_1 ((constant S_ .f32 0x00000000#32) : (⟨S_, .f32⟩ : BufTy).Contents (Elt F)),
    binary main_call0_v6 main_call0_cst_1 main_call0_v7 ((fun x v => Host.reduceAdd x v reducesTo_S4x512x32000_S4x512_d2 h_S_) : (⟨S4x512x32000, .f32⟩ : BufTy).Contents (Elt F) → (⟨S_, .f32⟩ : BufTy).Contents (Elt F) → (⟨S4x512, .f32⟩ : BufTy).Contents (Elt F)),
    unary main_call0_v7 main_call0_v8 ((broadcastInDim S4x512x1 ![0, 1] bcast_S4x512_S4x512x1_0_1) : (⟨S4x512, .f32⟩ : BufTy).Contents (Elt F) → (⟨S4x512x1, .f32⟩ : BufTy).Contents (Elt F)),
    unary main_call0_v8 main_call0_v9 (Host.log : (⟨S4x512x1, .f32⟩ : BufTy).Contents (Elt F) → (⟨S4x512x1, .f32⟩ : BufTy).Contents (Elt F)),
    unary main_call0_v9 main_call0_v10 ((broadcastInDim S4x512x32000 ![0, 1, 2] bcast_S4x512x1_S4x512x32000_0_1_2) : (⟨S4x512x1, .f32⟩ : BufTy).Contents (Elt F) → (⟨S4x512x32000, .f32⟩ : BufTy).Contents (Elt F)),
    binary main_call0_v5 main_call0_v10 main_v1 (subf : (⟨S4x512x32000, .f32⟩ : BufTy).Contents (Elt F) → (⟨S4x512x32000, .f32⟩ : BufTy).Contents (Elt F) → (⟨S4x512x32000, .f32⟩ : BufTy).Contents (Elt F)) ]

/-- The label mask of the first model's branch (`main_v3`: the label is not the ignored one) and the labels with the ignored ones set to zero, with a trailing unit axis (`main_v5`). -/
def sB : List (HloOp τ sig (Elt F)) :=
  [ nullary main_c (constantI S_ 32 4294967196#32),
    unary main_c main_v2 (broadcastInDim S4x512 ![] bcast_S_S4x512 : (⟨S_, .i32⟩ : BufTy).Contents (Elt F) → (⟨S4x512, .i32⟩ : BufTy).Contents (Elt F)),
    binary main_arg2 main_v2 main_v3 (cmpi .ne : (⟨S4x512, .i32⟩ : BufTy).Contents (Elt F) → (⟨S4x512, .i32⟩ : BufTy).Contents (Elt F) → (⟨S4x512, .i1⟩ : BufTy).Contents (Elt F)),
    nullary main_c_0 (constantI S_ 32 0#32),
    unary main_c_0 main_call1_v0 (id : (⟨S_, .i32⟩ : BufTy).Contents (Elt F) → (⟨S_, .i32⟩ : BufTy).Contents (Elt F)),
    unary main_call1_v0 main_call1_v1 ((broadcastInDim S4x512 ![] bcast_S_S4x512) : (⟨S_, .i32⟩ : BufTy).Contents (Elt F) → (⟨S4x512, .i32⟩ : BufTy).Contents (Elt F)),
    ternary main_v3 main_arg2 main_call1_v1 main_v4 (select : (⟨S4x512, .i1⟩ : BufTy).Contents (Elt F) → (⟨S4x512, .i32⟩ : BufTy).Contents (Elt F) → (⟨S4x512, .i32⟩ : BufTy).Contents (Elt F) → (⟨S4x512, .i32⟩ : BufTy).Contents (Elt F)),
    unary main_v4 main_v5 (broadcastInDim S4x512x1 ![0, 1] bcast_S4x512_S4x512x1_0_1 : (⟨S4x512, .i32⟩ : BufTy).Contents (Elt F) → (⟨S4x512x1, .i32⟩ : BufTy).Contents (Elt F)) ]

/-- The first model's log-probability at each label: the label brought into range, the in-range test, the gather along the vocabulary axis, and the choice between the gathered value and the not-a-number filler (`main_v6`). -/
def sC : List (HloOp τ sig (Elt F)) :=
  [ nullary main_call2_c ((constantI S_ 32 0#32) : (⟨S_, .i32⟩ : BufTy).Contents (Elt F)),
    unary main_call2_c main_call2_v0 ((broadcastInDim S4x512x1 ![] bcast_S_S4x512x1) : (⟨S_, .i32⟩ : BufTy).Contents (Elt F) → (⟨S4x512x1, .i32⟩ : BufTy).Contents (Elt F)),
    binary main_v5 main_call2_v0 main_call2_v1 ((cmpi .slt) : (⟨S4x512x1, .i32⟩ : BufTy).Contents (Elt F) → (⟨S4x512x1, .i32⟩ : BufTy).Contents (Elt F) → (⟨S4x512x1, .i1⟩ : BufTy).Contents (Elt F)),
    nullary main_call2_c_0 ((constantI S_ 32 32000#32) : (⟨S_, .i32⟩ : BufTy).Contents (Elt F)),
    unary main_call2_c_0 main_call2_v2 ((broadcastInDim S4x512x1 ![] bcast_S_S4x512x1) : (⟨S_, .i32⟩ : BufTy).Contents (Elt F) → (⟨S4x512x1, .i32⟩ : BufTy).Contents (Elt F)),
    binary main_v5 main_call2_v2 main_call2_v3 (addi : (⟨S4x512x1, .i32⟩ : BufTy).Contents (Elt F) → (⟨S4x512x1, .i32⟩ : BufTy).Contents (Elt F) → (⟨S4x512x1, .i32⟩ : BufTy).Contents (Elt F)),
    ternary main_call2_v1 main_call2_v3 main_v5 main_call2_v4 (select : (⟨S4x512x1, .i1⟩ : BufTy).Contents (Elt F) → (⟨S4x512x1, .i32⟩ : BufTy).Contents (Elt F) → (⟨S4x512x1, .i32⟩ : BufTy).Contents (Elt F) → (⟨S4x512x1, .i32⟩ : BufTy).Contents (Elt F)),
    reshape main_call2_v4 main_call2_v5 rfl shapeCasts_S4x512x1_S4x512x1x1,
    nullary main_call2_c_1 ((constantI S1 32 31999#32) : (⟨S1, .i32⟩ : BufTy).Contents (Elt F)),
    nullary main_call2_c_2 ((constantI S_ 32 0#32) : (⟨S_, .i32⟩ : BufTy).Contents (Elt F)),
    unary main_call2_c_2 main_call2_v6 ((broadcastInDim S4x512x1x1 ![] bcast_S_S4x512x1x1) : (⟨S_, .i32⟩ : BufTy).Contents (Elt F) → (⟨S4x512x1x1, .i32⟩ : BufTy).Contents (Elt F)),
    binary main_call2_v5 main_call2_v6 main_call2_v7 ((cmpi .sge) : (⟨S4x512x1x1, .i32⟩ : BufTy).Contents (Elt F) → (⟨S4x512x1x1, .i32⟩ : BufTy).Contents (Elt F) → (⟨S4x512x1x1, .i1⟩ : BufTy).Contents (Elt F)),
    unary main_call2_c_1 main_call2_v8 ((broadcastInDim S1x1x1x1 ![3] bcast_S1_S1x1x1x1_3) : (⟨S1, .i32⟩ : BufTy).Contents (Elt F) → (⟨S1x1x1x1, .i32⟩ : BufTy).Contents (Elt F)),
    unary main_call2_v8 main_call2_v9 ((broadcastInDim S4x512x1x1 ![0, 1, 2, 3] bcast_S1x1x1x1_S4x512x1x1_0_1_2_3) : (⟨S1x1x1x1, .i32⟩ : BufTy).Contents (Elt F) → (⟨S4x512x1x1, .i32⟩ : BufTy).Contents (Elt F)),
    binary main_call2_v5 main_call2_v9 main_call2_v10 ((cmpi .sle) : (⟨S4x512x1x1, .i32⟩ : BufTy).Contents (Elt F) → (⟨S4x512x1x1, .i32⟩ : BufTy).Contents (Elt F) → (⟨S4x512x1x1, .i1⟩ : BufTy).Contents (Elt F)),
    binary main_call2_v7 main_call2_v10 main_call2_v11 (andi : (⟨S4x512x1x1, .i1⟩ : BufTy).Contents (Elt F) → (⟨S4x512x1x1, .i1⟩ : BufTy).Contents (Elt F) → (⟨S4x512x1x1, .i1⟩ : BufTy).Contents (Elt F)),
    nullary main_call2_c_3 ((constantI S_ 1 1#1) : (⟨S_, .i1⟩ : BufTy).Contents (Elt F)),
    binary main_call2_v11 main_call2_c_3 main_call2_v12 ((fun x v => Host.reduce IntOp.andi x v reducesTo_S4x512x1x1_S4x512x1_d3 h_S_) : (⟨S4x512x1x1, .i1⟩ : BufTy).Contents (Elt F) → (⟨S_, .i1⟩ : BufTy).Contents (Elt F) → (⟨S4x512x1, .i1⟩ : BufTy).Contents (Elt F)),
    binary main_v1 main_call2_v5 main_call2_v13 ((fun x i => Host.gather gather_S4x512x32000_S4x512x1x1_S4x512x1_n_2_01_01_2_3_111 x i) : (⟨S4x512x32000, .f32⟩ : BufTy).Contents (Elt F) → (⟨S4x512x1x1, .i32⟩ : BufTy).Contents (Elt F) → (⟨S4x512x1, .f32⟩ : BufTy).Contents (Elt F)),
    nullary main_call2_cst ((constant S_ .f32 0x7FC00000#32) : (⟨S_, .f32⟩ : BufTy).Contents (Elt F)),
    unary main_call2_cst main_call2_v14 ((broadcastInDim S4x512x1 ![] bcast_S_S4x512x1) : (⟨S_, .f32⟩ : BufTy).Contents (Elt F) → (⟨S4x512x1, .f32⟩ : BufTy).Contents (Elt F)),
    ternary main_call2_v12 main_call2_v13 main_call2_v14 main_v6 (select : (⟨S4x512x1, .i1⟩ : BufTy).Contents (Elt F) → (⟨S4x512x1, .f32⟩ : BufTy).Contents (Elt F) → (⟨S4x512x1, .f32⟩ : BufTy).Contents (Elt F) → (⟨S4x512x1, .f32⟩ : BufTy).Contents (Elt F)) ]

/-- The first model's mean log-probability per sequence: the masked sum over the positions divided by the number of unmasked positions (`main_v14`). -/
def sD : List (HloOp τ sig (Elt F)) :=
  [ reshape main_v6 main_v7 rfl shapeCasts_S4x512x1_S4x512,
    unary main_v3 main_v8 (uitofp .f32 : (⟨S4x512, .i1⟩ : BufTy).Contents (Elt F) → (⟨S4x512, .f32⟩ : BufTy).Contents (Elt F)),
    binary main_v7 main_v8 main_v9 (mulf : (⟨S4x512, .f32⟩ : BufTy).Contents (Elt F) → (⟨S4x512, .f32⟩ : BufTy).Contents (Elt F) → (⟨S4x512, .f32⟩ : BufTy).Contents (Elt F)),
    nullary main_cst (constant S_ .f32 0x00000000#32),
    binary main_v9 main_cst main_v10 ((fun x v => Host.reduceAdd x v reducesTo_S4x512_S4_d1 h_S_) : (⟨S4x512, .f32⟩ : BufTy).Contents (Elt F) → (⟨S_, .f32⟩ : BufTy).Contents (Elt F) → (⟨S4, .f32⟩ : BufTy).Contents (Elt F)),
    unary main_v3 main_v11 ((extui 32 · natLt_1_32) : (⟨S4x512, .i1⟩ : BufTy).Contents (Elt F) → (⟨S4x512, .i32⟩ : BufTy).Contents (Elt F)),
    nullary main_c_1 (constantI S_ 32 0#32),
    binary main_v11 main_c_1 main_v12 ((fun x v => Host.reduce IntOp.addi x v reducesTo_S4x512_S4_d1 h_S_) : (⟨S4x512, .i32⟩ : BufTy).Contents (Elt F) → (⟨S_, .i32⟩ : BufTy).Contents (Elt F) → (⟨S4, .i32⟩ : BufTy).Contents (Elt F)),
    unary main_v12 main_v13 (sitofp .f32 : (⟨S4, .i32⟩ : BufTy).Contents (Elt F) → (⟨S4, .f32⟩ : BufTy).Contents (Elt F)),
    binary main_v10 main_v13 main_v14 (Host.divf : (⟨S4, .f32⟩ : BufTy).Contents (Elt F) → (⟨S4, .f32⟩ : BufTy).Contents (Elt F) → (⟨S4, .f32⟩ : BufTy).Contents (Elt F)) ]

/-- The second model's logits and their log-softmax: the sixteen operations up to `main_v16`. -/
def sE : List (HloOp τ sig (Elt F)) :=
  [ binary main_arg1 main_arg5 main_v15 ((fun l r => Host.dotGeneral dot_S4x512x2048_S32000x2048_S4x512x32000_2_1_01_0_n_n none l r) : (⟨S4x512x2048, .f32⟩ : BufTy).Contents (Elt F) → (⟨S32000x2048, .f32⟩ : BufTy).Contents (Elt F) → (⟨S4x512x32000, .f32⟩ : BufTy).Contents (Elt F)),
    nullary main_call3_cst ((constant S_ .f32 0xFF800000#32) : (⟨S_, .f32⟩ : BufTy).Contents (Elt F)),
    binary main_v15 main_call3_cst main_call3_v0 ((fun x v => Host.reduce FloatOps.maximumf x v reducesTo_S4x512x32000_S4x512_d2 h_S_) : (⟨S4x512x32000, .f32⟩ : BufTy).Contents (Elt F) → (⟨S_, .f32⟩ : BufTy).Contents (Elt F) → (⟨S4x512, .f32⟩ : BufTy).Contents (Elt F)),
    nullary main_call3_cst_0 ((constant S_ .f32 0xFF800000#32) : (⟨S_, .f32⟩ : BufTy).Contents (Elt F)),
    unary main_call3_cst_0 main_call3_v1 ((broadcastInDim S4x512 ![] bcast_S_S4x512) : (⟨S_, .f32⟩ : BufTy).Contents (Elt F) → (⟨S4x512, .f32⟩ : BufTy).Contents (Elt F)),
    binary main_call3_v1 main_call3_v0 main_call3_v2 (maximumf : (⟨S4x512, .f32⟩ : BufTy).Contents (Elt F) → (⟨S4x512, .f32⟩ : BufTy).Contents (Elt F) → (⟨S4x512, .f32⟩ : BufTy).Contents (Elt F)),
    unary main_call3_v2 main_call3_v3 ((broadcastInDim S4x512x1 ![0, 1] bcast_S4x512_S4x512x1_0_1) : (⟨S4x512, .f32⟩ : BufTy).Contents (Elt F) → (⟨S4x512x1, .f32⟩ : BufTy).Contents (Elt F)),
    unary main_call3_v3 main_call3_v4 ((broadcastInDim S4x512x32000 ![0, 1, 2] bcast_S4x512x1_S4x512x32000_0_1_2) : (⟨S4x512x1, .f32⟩ : BufTy).Contents (Elt F) → (⟨S4x512x32000, .f32⟩ : BufTy).Contents (Elt F)),
    binary main_v15 main_call3_v4 main_call3_v5 (subf : (⟨S4x512x32000, .f32⟩ : BufTy).Contents (Elt F) → (⟨S4x512x32000, .f32⟩ : BufTy).Contents (Elt F) → (⟨S4x512x32000, .f32⟩ : BufTy).Contents (Elt F)),
    unary main_call3_v5 main_call3_v6 (Host.exp : (⟨S4x512x32000, .f32⟩ : BufTy).Contents (Elt F) → (⟨S4x512x32000, .f32⟩ : BufTy).Contents (Elt F)),
    nullary main_call3_cst_1 ((constant S_ .f32 0x00000000#32) : (⟨S_, .f32⟩ : BufTy).Contents (Elt F)),
    binary main_call3_v6 main_call3_cst_1 main_call3_v7 ((fun x v => Host.reduceAdd x v reducesTo_S4x512x32000_S4x512_d2 h_S_) : (⟨S4x512x32000, .f32⟩ : BufTy).Contents (Elt F) → (⟨S_, .f32⟩ : BufTy).Contents (Elt F) → (⟨S4x512, .f32⟩ : BufTy).Contents (Elt F)),
    unary main_call3_v7 main_call3_v8 ((broadcastInDim S4x512x1 ![0, 1] bcast_S4x512_S4x512x1_0_1) : (⟨S4x512, .f32⟩ : BufTy).Contents (Elt F) → (⟨S4x512x1, .f32⟩ : BufTy).Contents (Elt F)),
    unary main_call3_v8 main_call3_v9 (Host.log : (⟨S4x512x1, .f32⟩ : BufTy).Contents (Elt F) → (⟨S4x512x1, .f32⟩ : BufTy).Contents (Elt F)),
    unary main_call3_v9 main_call3_v10 ((broadcastInDim S4x512x32000 ![0, 1, 2] bcast_S4x512x1_S4x512x32000_0_1_2) : (⟨S4x512x1, .f32⟩ : BufTy).Contents (Elt F) → (⟨S4x512x32000, .f32⟩ : BufTy).Contents (Elt F)),
    binary main_call3_v5 main_call3_v10 main_v16 (subf : (⟨S4x512x32000, .f32⟩ : BufTy).Contents (Elt F) → (⟨S4x512x32000, .f32⟩ : BufTy).Contents (Elt F) → (⟨S4x512x32000, .f32⟩ : BufTy).Contents (Elt F)) ]

/-- The label mask of the second model's branch (`main_v18`) and its zeroed labels with a trailing unit axis (`main_v20`). -/
def sF : List (HloOp τ sig (Elt F)) :=
  [ nullary main_c_2 (constantI S_ 32 4294967196#32),
    unary main_c_2 main_v17 (broadcastInDim S4x512 ![] bcast_S_S4x512 : (⟨S_, .i32⟩ : BufTy).Contents (Elt F) → (⟨S4x512, .i32⟩ : BufTy).Contents (Elt F)),
    binary main_arg2 main_v17 main_v18 (cmpi .ne : (⟨S4x512, .i32⟩ : BufTy).Contents (Elt F) → (⟨S4x512, .i32⟩ : BufTy).Contents (Elt F) → (⟨S4x512, .i1⟩ : BufTy).Contents (Elt F)),
    nullary main_c_3 (constantI S_ 32 0#32),
    unary main_c_3 main_call4_v0 (id : (⟨S_, .i32⟩ : BufTy).Contents (Elt F) → (⟨S_, .i32⟩ : BufTy).Contents (Elt F)),
    unary main_call4_v0 main_call4_v1 ((broadcastInDim S4x512 ![] bcast_S_S4x512) : (⟨S_, .i32⟩ : BufTy).Contents (Elt F) → (⟨S4x512, .i32⟩ : BufTy).Contents (Elt F)),
    ternary main_v18 main_arg2 main_call4_v1 main_v19 (select : (⟨S4x512, .i1⟩ : BufTy).Contents (Elt F) → (⟨S4x512, .i32⟩ : BufTy).Contents (Elt F) → (⟨S4x512, .i32⟩ : BufTy).Contents (Elt F) → (⟨S4x512, .i32⟩ : BufTy).Contents (Elt F)),
    unary main_v19 main_v20 (broadcastInDim S4x512x1 ![0, 1] bcast_S4x512_S4x512x1_0_1 : (⟨S4x512, .i32⟩ : BufTy).Contents (Elt F) → (⟨S4x512x1, .i32⟩ : BufTy).Contents (Elt F)) ]

/-- The second model's log-probability at each label (`main_v21`). -/
def sG : List (HloOp τ sig (Elt F)) :=
  [ nullary main_call5_c ((constantI S_ 32 0#32) : (⟨S_, .i32⟩ : BufTy).Contents (Elt F)),
    unary main_call5_c main_call5_v0 ((broadcastInDim S4x512x1 ![] bcast_S_S4x512x1) : (⟨S_, .i32⟩ : BufTy).Contents (Elt F) → (⟨S4x512x1, .i32⟩ : BufTy).Contents (Elt F)),
    binary main_v20 main_call5_v0 main_call5_v1 ((cmpi .slt) : (⟨S4x512x1, .i32⟩ : BufTy).Contents (Elt F) → (⟨S4x512x1, .i32⟩ : BufTy).Contents (Elt F) → (⟨S4x512x1, .i1⟩ : BufTy).Contents (Elt F)),
    nullary main_call5_c_0 ((constantI S_ 32 32000#32) : (⟨S_, .i32⟩ : BufTy).Contents (Elt F)),
    unary main_call5_c_0 main_call5_v2 ((broadcastInDim S4x512x1 ![] bcast_S_S4x512x1) : (⟨S_, .i32⟩ : BufTy).Contents (Elt F) → (⟨S4x512x1, .i32⟩ : BufTy).Contents (Elt F)),
    binary main_v20 main_call5_v2 main_call5_v3 (addi : (⟨S4x512x1, .i32⟩ : BufTy).Contents (Elt F) → (⟨S4x512x1, .i32⟩ : BufTy).Contents (Elt F) → (⟨S4x512x1, .i32⟩ : BufTy).Contents (Elt F)),
    ternary main_call5_v1 main_call5_v3 main_v20 main_call5_v4 (select : (⟨S4x512x1, .i1⟩ : BufTy).Contents (Elt F) → (⟨S4x512x1, .i32⟩ : BufTy).Contents (Elt F) → (⟨S4x512x1, .i32⟩ : BufTy).Contents (Elt F) → (⟨S4x512x1, .i32⟩ : BufTy).Contents (Elt F)),
    reshape main_call5_v4 main_call5_v5 rfl shapeCasts_S4x512x1_S4x512x1x1,
    nullary main_call5_c_1 ((constantI S1 32 31999#32) : (⟨S1, .i32⟩ : BufTy).Contents (Elt F)),
    nullary main_call5_c_2 ((constantI S_ 32 0#32) : (⟨S_, .i32⟩ : BufTy).Contents (Elt F)),
    unary main_call5_c_2 main_call5_v6 ((broadcastInDim S4x512x1x1 ![] bcast_S_S4x512x1x1) : (⟨S_, .i32⟩ : BufTy).Contents (Elt F) → (⟨S4x512x1x1, .i32⟩ : BufTy).Contents (Elt F)),
    binary main_call5_v5 main_call5_v6 main_call5_v7 ((cmpi .sge) : (⟨S4x512x1x1, .i32⟩ : BufTy).Contents (Elt F) → (⟨S4x512x1x1, .i32⟩ : BufTy).Contents (Elt F) → (⟨S4x512x1x1, .i1⟩ : BufTy).Contents (Elt F)),
    unary main_call5_c_1 main_call5_v8 ((broadcastInDim S1x1x1x1 ![3] bcast_S1_S1x1x1x1_3) : (⟨S1, .i32⟩ : BufTy).Contents (Elt F) → (⟨S1x1x1x1, .i32⟩ : BufTy).Contents (Elt F)),
    unary main_call5_v8 main_call5_v9 ((broadcastInDim S4x512x1x1 ![0, 1, 2, 3] bcast_S1x1x1x1_S4x512x1x1_0_1_2_3) : (⟨S1x1x1x1, .i32⟩ : BufTy).Contents (Elt F) → (⟨S4x512x1x1, .i32⟩ : BufTy).Contents (Elt F)),
    binary main_call5_v5 main_call5_v9 main_call5_v10 ((cmpi .sle) : (⟨S4x512x1x1, .i32⟩ : BufTy).Contents (Elt F) → (⟨S4x512x1x1, .i32⟩ : BufTy).Contents (Elt F) → (⟨S4x512x1x1, .i1⟩ : BufTy).Contents (Elt F)),
    binary main_call5_v7 main_call5_v10 main_call5_v11 (andi : (⟨S4x512x1x1, .i1⟩ : BufTy).Contents (Elt F) → (⟨S4x512x1x1, .i1⟩ : BufTy).Contents (Elt F) → (⟨S4x512x1x1, .i1⟩ : BufTy).Contents (Elt F)),
    nullary main_call5_c_3 ((constantI S_ 1 1#1) : (⟨S_, .i1⟩ : BufTy).Contents (Elt F)),
    binary main_call5_v11 main_call5_c_3 main_call5_v12 ((fun x v => Host.reduce IntOp.andi x v reducesTo_S4x512x1x1_S4x512x1_d3 h_S_) : (⟨S4x512x1x1, .i1⟩ : BufTy).Contents (Elt F) → (⟨S_, .i1⟩ : BufTy).Contents (Elt F) → (⟨S4x512x1, .i1⟩ : BufTy).Contents (Elt F)),
    binary main_v16 main_call5_v5 main_call5_v13 ((fun x i => Host.gather gather_S4x512x32000_S4x512x1x1_S4x512x1_n_2_01_01_2_3_111 x i) : (⟨S4x512x32000, .f32⟩ : BufTy).Contents (Elt F) → (⟨S4x512x1x1, .i32⟩ : BufTy).Contents (Elt F) → (⟨S4x512x1, .f32⟩ : BufTy).Contents (Elt F)),
    nullary main_call5_cst ((constant S_ .f32 0x7FC00000#32) : (⟨S_, .f32⟩ : BufTy).Contents (Elt F)),
    unary main_call5_cst main_call5_v14 ((broadcastInDim S4x512x1 ![] bcast_S_S4x512x1) : (⟨S_, .f32⟩ : BufTy).Contents (Elt F) → (⟨S4x512x1, .f32⟩ : BufTy).Contents (Elt F)),
    ternary main_call5_v12 main_call5_v13 main_call5_v14 main_v21 (select : (⟨S4x512x1, .i1⟩ : BufTy).Contents (Elt F) → (⟨S4x512x1, .f32⟩ : BufTy).Contents (Elt F) → (⟨S4x512x1, .f32⟩ : BufTy).Contents (Elt F) → (⟨S4x512x1, .f32⟩ : BufTy).Contents (Elt F)) ]

/-- The second model's mean log-probability per sequence (`main_v29`). -/
def sH : List (HloOp τ sig (Elt F)) :=
  [ reshape main_v21 main_v22 rfl shapeCasts_S4x512x1_S4x512,
    unary main_v18 main_v23 (uitofp .f32 : (⟨S4x512, .i1⟩ : BufTy).Contents (Elt F) → (⟨S4x512, .f32⟩ : BufTy).Contents (Elt F)),
    binary main_v22 main_v23 main_v24 (mulf : (⟨S4x512, .f32⟩ : BufTy).Contents (Elt F) → (⟨S4x512, .f32⟩ : BufTy).Contents (Elt F) → (⟨S4x512, .f32⟩ : BufTy).Contents (Elt F)),
    nullary main_cst_4 (constant S_ .f32 0x00000000#32),
    binary main_v24 main_cst_4 main_v25 ((fun x v => Host.reduceAdd x v reducesTo_S4x512_S4_d1 h_S_) : (⟨S4x512, .f32⟩ : BufTy).Contents (Elt F) → (⟨S_, .f32⟩ : BufTy).Contents (Elt F) → (⟨S4, .f32⟩ : BufTy).Contents (Elt F)),
    unary main_v18 main_v26 ((extui 32 · natLt_1_32) : (⟨S4x512, .i1⟩ : BufTy).Contents (Elt F) → (⟨S4x512, .i32⟩ : BufTy).Contents (Elt F)),
    nullary main_c_5 (constantI S_ 32 0#32),
    binary main_v26 main_c_5 main_v27 ((fun x v => Host.reduce IntOp.addi x v reducesTo_S4x512_S4_d1 h_S_) : (⟨S4x512, .i32⟩ : BufTy).Contents (Elt F) → (⟨S_, .i32⟩ : BufTy).Contents (Elt F) → (⟨S4, .i32⟩ : BufTy).Contents (Elt F)),
    unary main_v27 main_v28 (sitofp .f32 : (⟨S4, .i32⟩ : BufTy).Contents (Elt F) → (⟨S4, .f32⟩ : BufTy).Contents (Elt F)),
    binary main_v25 main_v28 main_v29 (Host.divf : (⟨S4, .f32⟩ : BufTy).Contents (Elt F) → (⟨S4, .f32⟩ : BufTy).Contents (Elt F) → (⟨S4, .f32⟩ : BufTy).Contents (Elt F)) ]

/-- The loss from the two means: their difference scaled by the temperature and the sign of the example, one minus the logistic function of it, and the mean over the four sequences (`main_v45`). -/
def sI : List (HloOp τ sig (Elt F)) :=
  [ binary main_v14 main_v29 main_v30 (subf : (⟨S4, .f32⟩ : BufTy).Contents (Elt F) → (⟨S4, .f32⟩ : BufTy).Contents (Elt F) → (⟨S4, .f32⟩ : BufTy).Contents (Elt F)),
    nullary main_cst_6 (constant S_ .f32 0x3F800000#32),
    nullary main_cst_7 (constant S_ .f32 0xBF800000#32),
    unary main_cst_6 main_call6_v0 ((broadcastInDim S4 ![] bcast_S_S4) : (⟨S_, .f32⟩ : BufTy).Contents (Elt F) → (⟨S4, .f32⟩ : BufTy).Contents (Elt F)),
    unary main_cst_7 main_call6_v1 ((broadcastInDim S4 ![] bcast_S_S4) : (⟨S_, .f32⟩ : BufTy).Contents (Elt F) → (⟨S4, .f32⟩ : BufTy).Contents (Elt F)),
    ternary main_arg3 main_call6_v0 main_call6_v1 main_v31 (select : (⟨S4, .i1⟩ : BufTy).Contents (Elt F) → (⟨S4, .f32⟩ : BufTy).Contents (Elt F) → (⟨S4, .f32⟩ : BufTy).Contents (Elt F) → (⟨S4, .f32⟩ : BufTy).Contents (Elt F)),
    nullary main_cst_8 (constant S_ .f32 0x3DCCCCCD#32),
    unary main_cst_8 main_v32 (broadcastInDim S4 ![] bcast_S_S4 : (⟨S_, .f32⟩ : BufTy).Contents (Elt F) → (⟨S4, .f32⟩ : BufTy).Contents (Elt F)),
    binary main_v32 main_v30 main_v33 (mulf : (⟨S4, .f32⟩ : BufTy).Contents (Elt F) → (⟨S4, .f32⟩ : BufTy).Contents (Elt F) → (⟨S4, .f32⟩ : BufTy).Contents (Elt F)),
    unary main_v31 main_v34 (id : (⟨S4, .f32⟩ : BufTy).Contents (Elt F) → (⟨S4, .f32⟩ : BufTy).Contents (Elt F)),
    binary main_v33 main_v34 main_v35 (mulf : (⟨S4, .f32⟩ : BufTy).Contents (Elt F) → (⟨S4, .f32⟩ : BufTy).Contents (Elt F) → (⟨S4, .f32⟩ : BufTy).Contents (Elt F)),
    unary main_v35 main_v36 (Host.negf : (⟨S4, .f32⟩ : BufTy).Contents (Elt F) → (⟨S4, .f32⟩ : BufTy).Contents (Elt F)),
    unary main_v36 main_v37 (Host.exp : (⟨S4, .f32⟩ : BufTy).Contents (Elt F) → (⟨S4, .f32⟩ : BufTy).Contents (Elt F)),
    nullary main_cst_9 (constant S_ .f32 0x3F800000#32),
    unary main_cst_9 main_v38 (broadcastInDim S4 ![] bcast_S_S4 : (⟨S_, .f32⟩ : BufTy).Contents (Elt F) → (⟨S4, .f32⟩ : BufTy).Contents (Elt F)),
    binary main_v38 main_v37 main_v39 (addf : (⟨S4, .f32⟩ : BufTy).Contents (Elt F) → (⟨S4, .f32⟩ : BufTy).Contents (Elt F) → (⟨S4, .f32⟩ : BufTy).Contents (Elt F)),
    nullary main_cst_10 (constant S_ .f32 0x3F800000#32),
    unary main_cst_10 main_v40 (broadcastInDim S4 ![] bcast_S_S4 : (⟨S_, .f32⟩ : BufTy).Contents (Elt F) → (⟨S4, .f32⟩ : BufTy).Contents (Elt F)),
    binary main_v40 main_v39 main_v41 (Host.divf : (⟨S4, .f32⟩ : BufTy).Contents (Elt F) → (⟨S4, .f32⟩ : BufTy).Contents (Elt F) → (⟨S4, .f32⟩ : BufTy).Contents (Elt F)),
    nullary main_cst_11 (constant S_ .f32 0x3F800000#32),
    unary main_cst_11 main_v42 (broadcastInDim S4 ![] bcast_S_S4 : (⟨S_, .f32⟩ : BufTy).Contents (Elt F) → (⟨S4, .f32⟩ : BufTy).Contents (Elt F)),
    binary main_v42 main_v41 main_v43 (subf : (⟨S4, .f32⟩ : BufTy).Contents (Elt F) → (⟨S4, .f32⟩ : BufTy).Contents (Elt F) → (⟨S4, .f32⟩ : BufTy).Contents (Elt F)),
    nullary main_cst_12 (constant S_ .f32 0x00000000#32),
    binary main_v43 main_cst_12 main_v44 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    nullary main_cst_13 (constant S_ .f32 0x40800000#32),
    binary main_v44 main_cst_13 main_v45 (Host.divf : (⟨S_, .f32⟩ : BufTy).Contents (Elt F) → (⟨S_, .f32⟩ : BufTy).Contents (Elt F) → (⟨S_, .f32⟩ : BufTy).Contents (Elt F)) ]

set_option maxHeartbeats 4000000 in
/-- The operation list is the nine stretches in a row. -/
theorem ops_cut : (ops : List (HloOp τ sig (Elt F))) = sA ++ (sB ++ (sC ++ (sD ++ (sE ++ (sF ++ (sG ++ (sH ++ sI))))))) := by chain_rfl

/-! ## What a stretch leaves alone -/

/-- The buffers the operations of `sA` write, in order. -/
def wA : List (Ref sig .tc) :=
  [main_v0, main_call0_cst, main_call0_v0, main_call0_cst_0, main_call0_v1, main_call0_v2, main_call0_v3, main_call0_v4, main_call0_v5, main_call0_v6, main_call0_cst_1, main_call0_v7, main_call0_v8, main_call0_v9, main_call0_v10, main_v1]

/-- A buffer the operations of `sA` do not write is after them what it was before. -/
theorem keep_sA (V : Valuation τ sig (Elt F)) {r : Ref sig .tc} (hr : r ∉ wA) :
    (after sA V)⟦r⟧ = V⟦r⟧ := by
  refine after_of_writes_sub sA V ?_ hr
  unfold sA wA
  simp only [List.Forall, nullary_writes, unary_writes, binary_writes, ternary_writes, reshape_writes,
    Finset.singleton_subset_iff, List.mem_toFinset, List.map_cons, List.map_nil, List.mem_cons, true_or, or_true, and_self]

/-- The buffers the operations of `sB` write, in order. -/
def wB : List (Ref sig .tc) :=
  [main_c, main_v2, main_v3, main_c_0, main_call1_v0, main_call1_v1, main_v4, main_v5]

/-- A buffer the operations of `sB` do not write is after them what it was before. -/
theorem keep_sB (V : Valuation τ sig (Elt F)) {r : Ref sig .tc} (hr : r ∉ wB) :
    (after sB V)⟦r⟧ = V⟦r⟧ := by
  refine after_of_writes_sub sB V ?_ hr
  unfold sB wB
  simp only [List.Forall, nullary_writes, unary_writes, binary_writes, ternary_writes, reshape_writes,
    Finset.singleton_subset_iff, List.mem_toFinset, List.map_cons, List.map_nil, List.mem_cons, true_or, or_true, and_self]

/-- The buffers the operations of `sC` write, in order. -/
def wC : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v6]

/-- A buffer the operations of `sC` do not write is after them what it was before. -/
theorem keep_sC (V : Valuation τ sig (Elt F)) {r : Ref sig .tc} (hr : r ∉ wC) :
    (after sC V)⟦r⟧ = V⟦r⟧ := by
  refine after_of_writes_sub sC V ?_ hr
  unfold sC wC
  simp only [List.Forall, nullary_writes, unary_writes, binary_writes, ternary_writes, reshape_writes,
    Finset.singleton_subset_iff, List.mem_toFinset, List.map_cons, List.map_nil, List.mem_cons, true_or, or_true, and_self]

/-- The buffers the operations of `sD` write, in order. -/
def wD : List (Ref sig .tc) :=
  [main_v7, main_v8, main_v9, main_cst, main_v10, main_v11, main_c_1, main_v12, main_v13, main_v14]

/-- A buffer the operations of `sD` do not write is after them what it was before. -/
theorem keep_sD (V : Valuation τ sig (Elt F)) {r : Ref sig .tc} (hr : r ∉ wD) :
    (after sD V)⟦r⟧ = V⟦r⟧ := by
  refine after_of_writes_sub sD V ?_ hr
  unfold sD wD
  simp only [List.Forall, nullary_writes, unary_writes, binary_writes, ternary_writes, reshape_writes,
    Finset.singleton_subset_iff, List.mem_toFinset, List.map_cons, List.map_nil, List.mem_cons, true_or, or_true, and_self]

/-- The buffers the operations of `sE` write, in order. -/
def wE : List (Ref sig .tc) :=
  [main_v15, main_call3_cst, main_call3_v0, main_call3_cst_0, main_call3_v1, main_call3_v2, main_call3_v3, main_call3_v4, main_call3_v5, main_call3_v6, main_call3_cst_1, main_call3_v7, main_call3_v8, main_call3_v9, main_call3_v10, main_v16]

/-- A buffer the operations of `sE` do not write is after them what it was before. -/
theorem keep_sE (V : Valuation τ sig (Elt F)) {r : Ref sig .tc} (hr : r ∉ wE) :
    (after sE V)⟦r⟧ = V⟦r⟧ := by
  refine after_of_writes_sub sE V ?_ hr
  unfold sE wE
  simp only [List.Forall, nullary_writes, unary_writes, binary_writes, ternary_writes, reshape_writes,
    Finset.singleton_subset_iff, List.mem_toFinset, List.map_cons, List.map_nil, List.mem_cons, true_or, or_true, and_self]

/-- The buffers the operations of `sF` write, in order. -/
def wF : List (Ref sig .tc) :=
  [main_c_2, main_v17, main_v18, main_c_3, main_call4_v0, main_call4_v1, main_v19, main_v20]

/-- A buffer the operations of `sF` do not write is after them what it was before. -/
theorem keep_sF (V : Valuation τ sig (Elt F)) {r : Ref sig .tc} (hr : r ∉ wF) :
    (after sF V)⟦r⟧ = V⟦r⟧ := by
  refine after_of_writes_sub sF V ?_ hr
  unfold sF wF
  simp only [List.Forall, nullary_writes, unary_writes, binary_writes, ternary_writes, reshape_writes,
    Finset.singleton_subset_iff, List.mem_toFinset, List.map_cons, List.map_nil, List.mem_cons, true_or, or_true, and_self]

/-- The buffers the operations of `sG` write, in order. -/
def wG : List (Ref sig .tc) :=
  [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_cst, main_call5_v14, main_v21]

/-- A buffer the operations of `sG` do not write is after them what it was before. -/
theorem keep_sG (V : Valuation τ sig (Elt F)) {r : Ref sig .tc} (hr : r ∉ wG) :
    (after sG V)⟦r⟧ = V⟦r⟧ := by
  refine after_of_writes_sub sG V ?_ hr
  unfold sG wG
  simp only [List.Forall, nullary_writes, unary_writes, binary_writes, ternary_writes, reshape_writes,
    Finset.singleton_subset_iff, List.mem_toFinset, List.map_cons, List.map_nil, List.mem_cons, true_or, or_true, and_self]

/-- The buffers the operations of `sH` write, in order. -/
def wH : List (Ref sig .tc) :=
  [main_v22, main_v23, main_v24, main_cst_4, main_v25, main_v26, main_c_5, main_v27, main_v28, main_v29]

/-- A buffer the operations of `sH` do not write is after them what it was before. -/
theorem keep_sH (V : Valuation τ sig (Elt F)) {r : Ref sig .tc} (hr : r ∉ wH) :
    (after sH V)⟦r⟧ = V⟦r⟧ := by
  refine after_of_writes_sub sH V ?_ hr
  unfold sH wH
  simp only [List.Forall, nullary_writes, unary_writes, binary_writes, ternary_writes, reshape_writes,
    Finset.singleton_subset_iff, List.mem_toFinset, List.map_cons, List.map_nil, List.mem_cons, true_or, or_true, and_self]

/-- The buffers the operations of `sI` write, in order. -/
def wI : List (Ref sig .tc) :=
  [main_v30, main_cst_6, main_cst_7, main_call6_v0, main_call6_v1, main_v31, main_cst_8, main_v32, main_v33, main_v34, main_v35, main_v36, main_v37, main_cst_9, main_v38, main_v39, main_cst_10, main_v40, main_v41, main_cst_11, main_v42, main_v43, main_cst_12, main_v44, main_cst_13, main_v45]

/-- A buffer the operations of `sI` do not write is after them what it was before. -/
theorem keep_sI (V : Valuation τ sig (Elt F)) {r : Ref sig .tc} (hr : r ∉ wI) :
    (after sI V)⟦r⟧ = V⟦r⟧ := by
  refine after_of_writes_sub sI V ?_ hr
  unfold sI wI
  simp only [List.Forall, nullary_writes, unary_writes, binary_writes, ternary_writes, reshape_writes,
    Finset.singleton_subset_iff, List.mem_toFinset, List.map_cons, List.map_nil, List.mem_cons, true_or, or_true, and_self]

/-! ## Every operation determines its result -/

theorem fresh_sA : (sA : List (HloOp τ sig (Elt F))).Forall fun op => op.fresh = ∅ := by
  unfold sA
  exact ⟨rfl, rfl, rfl, rfl, rfl, rfl, rfl, rfl, rfl, rfl, rfl, rfl, rfl, rfl, rfl, rfl⟩

theorem fresh_sB : (sB : List (HloOp τ sig (Elt F))).Forall fun op => op.fresh = ∅ := by
  unfold sB
  exact ⟨rfl, rfl, rfl, rfl, rfl, rfl, rfl, rfl⟩

theorem fresh_sC : (sC : List (HloOp τ sig (Elt F))).Forall fun op => op.fresh = ∅ := by
  unfold sC
  exact ⟨rfl, rfl, rfl, rfl, rfl, rfl, rfl, rfl, rfl, rfl, rfl, rfl, rfl, rfl, rfl, rfl, rfl, rfl, rfl, rfl, rfl, rfl⟩

theorem fresh_sD : (sD : List (HloOp τ sig (Elt F))).Forall fun op => op.fresh = ∅ := by
  unfold sD
  exact ⟨rfl, rfl, rfl, rfl, rfl, rfl, rfl, rfl, rfl, rfl⟩

theorem fresh_sE : (sE : List (HloOp τ sig (Elt F))).Forall fun op => op.fresh = ∅ := by
  unfold sE
  exact ⟨rfl, rfl, rfl, rfl, rfl, rfl, rfl, rfl, rfl, rfl, rfl, rfl, rfl, rfl, rfl, rfl⟩

theorem fresh_sF : (sF : List (HloOp τ sig (Elt F))).Forall fun op => op.fresh = ∅ := by
  unfold sF
  exact ⟨rfl, rfl, rfl, rfl, rfl, rfl, rfl, rfl⟩

theorem fresh_sG : (sG : List (HloOp τ sig (Elt F))).Forall fun op => op.fresh = ∅ := by
  unfold sG
  exact ⟨rfl, rfl, rfl, rfl, rfl, rfl, rfl, rfl, rfl, rfl, rfl, rfl, rfl, rfl, rfl, rfl, rfl, rfl, rfl, rfl, rfl, rfl⟩

theorem fresh_sH : (sH : List (HloOp τ sig (Elt F))).Forall fun op => op.fresh = ∅ := by
  unfold sH
  exact ⟨rfl, rfl, rfl, rfl, rfl, rfl, rfl, rfl, rfl, rfl⟩

theorem fresh_sI : (sI : List (HloOp τ sig (Elt F))).Forall fun op => op.fresh = ∅ := by
  unfold sI
  exact ⟨rfl, rfl, rfl, rfl, rfl, rfl, rfl, rfl, rfl, rfl, rfl, rfl, rfl, rfl, rfl, rfl, rfl, rfl, rfl, rfl, rfl, rfl, rfl, rfl, rfl, rfl⟩

/-- No operation of the list leaves the contents of its result open. -/
theorem ops_fresh : ∀ op ∈ (ops : List (HloOp τ sig (Elt F))), op.fresh = ∅ := by
  rw [ops_cut]
  simp only [List.mem_append]
  rintro op (h | h | h | h | h | h | h | h | h)
  · exact List.forall_iff_forall_mem.mp fresh_sA op h
  · exact List.forall_iff_forall_mem.mp fresh_sB op h
  · exact List.forall_iff_forall_mem.mp fresh_sC op h
  · exact List.forall_iff_forall_mem.mp fresh_sD op h
  · exact List.forall_iff_forall_mem.mp fresh_sE op h
  · exact List.forall_iff_forall_mem.mp fresh_sF op h
  · exact List.forall_iff_forall_mem.mp fresh_sG op h
  · exact List.forall_iff_forall_mem.mp fresh_sH op h
  · exact List.forall_iff_forall_mem.mp fresh_sI op h

/-- A buffer none of the nine stretches writes is after the whole list what it was before. -/
theorem keep_ops (V : Valuation τ sig (Elt F)) {r : Ref sig .tc} (hA : r ∉ wA) (hB : r ∉ wB) (hC : r ∉ wC) (hD : r ∉ wD)
    (hE : r ∉ wE) (hF : r ∉ wF) (hG : r ∉ wG) (hH : r ∉ wH) (hI : r ∉ wI) :
    (after ops V)⟦r⟧ = V⟦r⟧ := by
  rw [ops_cut, StableHlo.after_append, StableHlo.after_append, StableHlo.after_append, StableHlo.after_append,
    StableHlo.after_append, StableHlo.after_append, StableHlo.after_append, StableHlo.after_append]
  exact (keep_sI _ hI).trans ((keep_sH _ hH).trans ((keep_sG _ hG).trans ((keep_sF _ hF).trans ((keep_sE _ hE).trans
    ((keep_sD _ hD).trans ((keep_sC _ hC).trans ((keep_sB _ hB).trans (keep_sA V hA))))))))

/-! ## What a stretch computes -/

/-- After stretch A the first model's log-softmax is at its stage. -/
def St_sA : Prop := ∀ (V : Valuation τ sig (Elt F)) (x0 : (⟨S4x512x2048, .f32⟩ : BufTy).Contents (Elt F)) (x4 : (⟨S32000x2048, .f32⟩ : BufTy).Contents (Elt F)),
    V⟦main_arg0⟧ = x0 → V⟦main_arg4⟧ = x4 →
    (after sA V)⟦main_v1⟧ = val_main_v1 x0 x4

/-- After stretch B the label mask and the zeroed labels are at their stages. -/
def St_sB : Prop := ∀ (V : Valuation τ sig (Elt F)) (x2 : (⟨S4x512, .i32⟩ : BufTy).Contents (Elt F)),
    V⟦main_arg2⟧ = x2 →
    (after sB V)⟦main_v3⟧ = val_main_v3 x2 ∧ (after sB V)⟦main_v5⟧ = val_main_v5 x2

/-- After stretch C the first model's log-probability at each label is at its stage. -/
def St_sC : Prop := ∀ (V : Valuation τ sig (Elt F)) (x0 : (⟨S4x512x2048, .f32⟩ : BufTy).Contents (Elt F)) (x2 : (⟨S4x512, .i32⟩ : BufTy).Contents (Elt F)) (x4 : (⟨S32000x2048, .f32⟩ : BufTy).Contents (Elt F)),
    V⟦main_v1⟧ = val_main_v1 x0 x4 → V⟦main_v5⟧ = val_main_v5 x2 →
    (after sC V)⟦main_v6⟧ = val_main_v6 x0 x2 x4

/-- After stretch D the first model's mean log-probability per sequence is at its stage. -/
def St_sD : Prop := ∀ (V : Valuation τ sig (Elt F)) (x0 : (⟨S4x512x2048, .f32⟩ : BufTy).Contents (Elt F)) (x2 : (⟨S4x512, .i32⟩ : BufTy).Contents (Elt F)) (x4 : (⟨S32000x2048, .f32⟩ : BufTy).Contents (Elt F)),
    V⟦main_v3⟧ = val_main_v3 x2 → V⟦main_v6⟧ = val_main_v6 x0 x2 x4 →
    (after sD V)⟦main_v14⟧ = val_main_v14 x0 x2 x4

/-- After stretch E the second model's log-softmax is at its stage. -/
def St_sE : Prop := ∀ (V : Valuation τ sig (Elt F)) (x1 : (⟨S4x512x2048, .f32⟩ : BufTy).Contents (Elt F)) (x5 : (⟨S32000x2048, .f32⟩ : BufTy).Contents (Elt F)),
    V⟦main_arg1⟧ = x1 → V⟦main_arg5⟧ = x5 →
    (after sE V)⟦main_v16⟧ = val_main_v16 x1 x5

/-- After stretch F the second branch's label mask and zeroed labels are at their stages. -/
def St_sF : Prop := ∀ (V : Valuation τ sig (Elt F)) (x2 : (⟨S4x512, .i32⟩ : BufTy).Contents (Elt F)),
    V⟦main_arg2⟧ = x2 →
    (after sF V)⟦main_v18⟧ = val_main_v18 x2 ∧ (after sF V)⟦main_v20⟧ = val_main_v20 x2

/-- After stretch G the second model's log-probability at each label is at its stage. -/
def St_sG : Prop := ∀ (V : Valuation τ sig (Elt F)) (x1 : (⟨S4x512x2048, .f32⟩ : BufTy).Contents (Elt F)) (x2 : (⟨S4x512, .i32⟩ : BufTy).Contents (Elt F)) (x5 : (⟨S32000x2048, .f32⟩ : BufTy).Contents (Elt F)),
    V⟦main_v16⟧ = val_main_v16 x1 x5 → V⟦main_v20⟧ = val_main_v20 x2 →
    (after sG V)⟦main_v21⟧ = val_main_v21 x1 x2 x5

/-- After stretch H the second model's mean log-probability per sequence is at its stage. -/
def St_sH : Prop := ∀ (V : Valuation τ sig (Elt F)) (x1 : (⟨S4x512x2048, .f32⟩ : BufTy).Contents (Elt F)) (x2 : (⟨S4x512, .i32⟩ : BufTy).Contents (Elt F)) (x5 : (⟨S32000x2048, .f32⟩ : BufTy).Contents (Elt F)),
    V⟦main_v18⟧ = val_main_v18 x2 → V⟦main_v21⟧ = val_main_v21 x1 x2 x5 →
    (after sH V)⟦main_v29⟧ = val_main_v29 x1 x2 x5

/-- After stretch I the loss is at its last stage. -/
def St_sI : Prop := ∀ (V : Valuation τ sig (Elt F)) (x0 : (⟨S4x512x2048, .f32⟩ : BufTy).Contents (Elt F)) (x1 : (⟨S4x512x2048, .f32⟩ : BufTy).Contents (Elt F)) (x2 : (⟨S4x512, .i32⟩ : BufTy).Contents (Elt F)) (x3 : (⟨S4, .i1⟩ : BufTy).Contents (Elt F)) (x4 : (⟨S32000x2048, .f32⟩ : BufTy).Contents (Elt F)) (x5 : (⟨S32000x2048, .f32⟩ : BufTy).Contents (Elt F)),
    V⟦main_arg3⟧ = x3 → V⟦main_v14⟧ = val_main_v14 x0 x2 x4 → V⟦main_v29⟧ = val_main_v29 x1 x2 x5 →
    (after sI V)⟦main_v45⟧ = val_main_v45 x0 x1 x2 x3 x4 x5

end Cert.Kto.Ref

end
-- ==== Proof.RefRunHand.lean ====
/-
  The reference program's run, with its result read as the composition of its stages.

  The program is a list of 138 host operations, so every weakly fair execution terminates with each buffer at the
  list's fold over the launch contents.  The fold is evaluated here a stretch of operations at a time: after a stretch
  the buffers later stretches read are at their stage (the function of the arguments the reading module names
  `val_…`), and no stretch ever opens the whole composed term.

  The nine stretches and what each is to show are stated in the module of the stretches (`St_sA … St_sI`).  Each is
  shown here the same way: the fold over the stretch's short list is rewritten, operation by operation, to the
  operations' functions applied to the valuation before the stretch; the buffers read from before the stretch are
  replaced by their stages; what is left is the stage's own definition unfolded through the stretch, down to the
  stages the stretch started from, which are not opened.  The stretches are then chained: a fact established after
  one stretch is carried across the later ones that do not write its buffer.
-/
import proofs.«403809_j74698071212406_3_alg».proof.Proof.RefSegs

set_option maxRecDepth 16384

noncomputable section

namespace Cert.Kto.Ref

open Idealize.ShloMosaic Idealize.ShloMosaic.ValueIdx
open Idealize.ShloMosaic.TcCoe Idealize.SL.Sem Idealize.ShloMosaic.StableHlo
open Cert.ReferenceIdeal Cert.ReferenceIdeal.Gen Cert.ReferenceIdeal.ValueP Cert.ReferenceIdeal.ReadP

local notation:max V "⟦" r "⟧" => V (Proc.devRef Proc.tc r)

section Stretches

variable {F : FTy → Type} [FloatOps F]

/-! ## The stretches, each against its stages -/

set_option maxHeartbeats 2000000 in
/-- Stretch A: from the first model's two arguments, its log-softmax. -/
theorem val_sA : St_sA (F := F) := by
  intro V x0 x4 h1 h2
  unfold sA
  after_results
  rw [h1, h2]
  rfl

set_option maxHeartbeats 2000000 in
/-- Stretch B: from the labels, the mask of the labels that count and the labels with the ignored ones zeroed. -/
theorem val_sB : St_sB (F := F) := by
  intro V x2 h1
  refine ⟨?_, ?_⟩
  · unfold sB
    after_results
    rw [h1]
    rfl
  · unfold sB
    after_results
    rw [h1]
    rfl

set_option maxHeartbeats 2000000 in
/-- Stretch C: from the first model's log-softmax and the zeroed labels, its log-probability at each label. -/
theorem val_sC : St_sC (F := F) := by
  intro V x0 x2 x4 h1 h2
  unfold sC
  after_results
  rw [h1, h2]
  rfl

set_option maxHeartbeats 2000000 in
/-- Stretch D: from the mask and the log-probabilities at the labels, the first model's masked mean per sequence. -/
theorem val_sD : St_sD (F := F) := by
  intro V x0 x2 x4 h1 h2
  unfold sD
  after_results
  rw [h1, h2]
  rfl

set_option maxHeartbeats 2000000 in
/-- Stretch E: from the second model's two arguments, its log-softmax. -/
theorem val_sE : St_sE (F := F) := by
  intro V x1 x5 h1 h2
  unfold sE
  after_results
  rw [h1, h2]
  rfl

set_option maxHeartbeats 2000000 in
/-- Stretch F: the mask and the zeroed labels once more, for the second model's branch. -/
theorem val_sF : St_sF (F := F) := by
  intro V x2 h1
  refine ⟨?_, ?_⟩
  · unfold sF
    after_results
    rw [h1]
    rfl
  · unfold sF
    after_results
    rw [h1]
    rfl

set_option maxHeartbeats 2000000 in
/-- Stretch G: the second model's log-probability at each label. -/
theorem val_sG : St_sG (F := F) := by
  intro V x1 x2 x5 h1 h2
  unfold sG
  after_results
  rw [h1, h2]
  rfl

set_option maxHeartbeats 2000000 in
/-- Stretch H: the second model's masked mean per sequence. -/
theorem val_sH : St_sH (F := F) := by
  intro V x1 x2 x5 h1 h2
  unfold sH
  after_results
  rw [h1, h2]
  rfl

set_option maxHeartbeats 2000000 in
/-- Stretch I: from the two means and the examples' signs, the loss. -/
theorem val_sI : St_sI (F := F) := by
  intro V x0 x1 x2 x3 x4 x5 h1 h2 h3
  unfold sI
  after_results
  rw [h1, h2, h3]
  rfl

/-! ## The stretches in a row -/

/-- After the whole list the result buffer is at the last stage of the six arguments' launch contents. -/
theorem value_main_v45 (V : Valuation τ sig (Elt F)) :
    (after ops V)⟦main_v45⟧
      = val_main_v45 (V⟦main_arg0⟧) (V⟦main_arg1⟧) (V⟦main_arg2⟧) (V⟦main_arg3⟧) (V⟦main_arg4⟧) (V⟦main_arg5⟧) := by
  rw [ops_cut, StableHlo.after_append, StableHlo.after_append, StableHlo.after_append, StableHlo.after_append,
    StableHlo.after_append, StableHlo.after_append, StableHlo.after_append, StableHlo.after_append]
  -- after A: the first log-softmax; the arguments still to be read
  have a_v1 := val_sA V _ _ rfl rfl
  have a_1 : (after sA V)⟦main_arg1⟧ = V⟦main_arg1⟧ := keep_sA V (by decide)
  have a_2 : (after sA V)⟦main_arg2⟧ = V⟦main_arg2⟧ := keep_sA V (by decide)
  have a_3 : (after sA V)⟦main_arg3⟧ = V⟦main_arg3⟧ := keep_sA V (by decide)
  have a_5 : (after sA V)⟦main_arg5⟧ = V⟦main_arg5⟧ := keep_sA V (by decide)
  -- after B: the mask and the zeroed labels
  obtain ⟨b_v3, b_v5⟩ := val_sB _ _ a_2
  have b_v1 := (keep_sB _ (r := main_v1) (by decide)).trans a_v1
  have b_1 := (keep_sB _ (r := main_arg1) (by decide)).trans a_1
  have b_2 := (keep_sB _ (r := main_arg2) (by decide)).trans a_2
  have b_3 := (keep_sB _ (r := main_arg3) (by decide)).trans a_3
  have b_5 := (keep_sB _ (r := main_arg5) (by decide)).trans a_5
  -- after C: the first model's log-probabilities at the labels
  have c_v6 := val_sC _ _ _ _ b_v1 b_v5
  have c_v3 := (keep_sC _ (r := main_v3) (by decide)).trans b_v3
  have c_1 := (keep_sC _ (r := main_arg1) (by decide)).trans b_1
  have c_2 := (keep_sC _ (r := main_arg2) (by decide)).trans b_2
  have c_3 := (keep_sC _ (r := main_arg3) (by decide)).trans b_3
  have c_5 := (keep_sC _ (r := main_arg5) (by decide)).trans b_5
  -- after D: the first model's mean
  have d_v14 := val_sD _ _ _ _ c_v3 c_v6
  have d_1 := (keep_sD _ (r := main_arg1) (by decide)).trans c_1
  have d_2 := (keep_sD _ (r := main_arg2) (by decide)).trans c_2
  have d_3 := (keep_sD _ (r := main_arg3) (by decide)).trans c_3
  have d_5 := (keep_sD _ (r := main_arg5) (by decide)).trans c_5
  -- after E: the second log-softmax
  have e_v16 := val_sE _ _ _ d_1 d_5
  have e_v14 := (keep_sE _ (r := main_v14) (by decide)).trans d_v14
  have e_2 := (keep_sE _ (r := main_arg2) (by decide)).trans d_2
  have e_3 := (keep_sE _ (r := main_arg3) (by decide)).trans d_3
  -- after F: the mask and the zeroed labels again
  obtain ⟨f_v18, f_v20⟩ := val_sF _ _ e_2
  have f_v14 := (keep_sF _ (r := main_v14) (by decide)).trans e_v14
  have f_v16 := (keep_sF _ (r := main_v16) (by decide)).trans e_v16
  have f_3 := (keep_sF _ (r := main_arg3) (by decide)).trans e_3
  -- after G: the second model's log-probabilities at the labels
  have g_v21 := val_sG _ _ _ _ f_v16 f_v20
  have g_v14 := (keep_sG _ (r := main_v14) (by decide)).trans f_v14
  have g_v18 := (keep_sG _ (r := main_v18) (by decide)).trans f_v18
  have g_3 := (keep_sG _ (r := main_arg3) (by decide)).trans f_3
  -- after H: the second model's mean
  have h_v29 := val_sH _ _ _ _ g_v18 g_v21
  have h_v14 := (keep_sH _ (r := main_v14) (by decide)).trans g_v14
  have h_3 := (keep_sH _ (r := main_arg3) (by decide)).trans g_3
  -- after I: the loss
  exact val_sI _ _ _ _ _ _ _ h_3 h_v14 h_v29

end Stretches

/-! ## The run -/

variable (m : (ℓ : Loc nD τ sig) → Buf (Elt Ideal) ℓ) (ρ : Dev nD → PrngReg)

/-- Every weakly fair execution of the reference ends with the result at its last stage of the arguments, and with
    the six arguments unchanged. -/
theorem ref_run :
    θ_run defs (onTc (τ := τ) (main (F := Ideal))) ⟨m, fun _ => 0, ρ⟩ (fun r => ∀ c : Dev nD,
      r.2.mem ((c.tc : Thread nD τ).loc main_v45)
          = val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨(h c main_v45).trans (value_main_v45 (F := Ideal) (launchContents m c)),
       (h c main_arg0).trans (keep_ops (launchContents m c) (by decide) (by decide) (by decide) (by decide) (by decide) (by decide) (by decide) (by decide) (by decide)),
       (h c main_arg1).trans (keep_ops (launchContents m c) (by decide) (by decide) (by decide) (by decide) (by decide) (by decide) (by decide) (by decide) (by decide)),
       (h c main_arg2).trans (keep_ops (launchContents m c) (by decide) (by decide) (by decide) (by decide) (by decide) (by decide) (by decide) (by decide) (by decide)),
       (h c main_arg3).trans (keep_ops (launchContents m c) (by decide) (by decide) (by decide) (by decide) (by decide) (by decide) (by decide) (by decide) (by decide)),
       (h c main_arg4).trans (keep_ops (launchContents m c) (by decide) (by decide) (by decide) (by decide) (by decide) (by decide) (by decide) (by decide) (by decide)),
       (h c main_arg5).trans (keep_ops (launchContents m c) (by decide) (by decide) (by decide) (by decide) (by decide) (by decide) (by decide) (by decide) (by decide))⟩)
    (run_seq scopedRefs_eq scopedSems_eq defs main (fun _ => ops) main_eq (fun _ => ops_sub) m ρ (fun _ => ops_fresh))

end Cert.Kto.Ref

end
-- ==== Proof.RefToken.lean ====
/-
  The reference's per-token value is the log-softmax at the label.

  The reference forms every token's logit row by one contraction, subtracts the row's maximum, exponentiates, sums,
  takes the logarithm and subtracts it again; it then reads the row at the token's label word: a negative word is
  first raised by 32000, a word outside [0, 31999] answers a fill value, any other answers the row's entry there.
  For a label word that names a column `l` the raise and the fill do not apply, and the value read is the row's
  log-softmax at `l`.

  The steps: the label word and the start index of the read (`label_word`, `start_word`), the in-range bit
  (`inrange_bit`), the read of the row at a token (`gather_token`, `gather_token_col`), the row's logits, maximum,
  shifted logits and log-softmax (`logit_at`, `rowmax_at`, `shifted_at`, `logsoftmax_at`), and the two models'
  token values. The second model's stages are the first model's, term for term, at the other arrays (`stages_agree`).
-/
import proofs.«403809_j74698071212406_3_alg».proof.Proof.RefRead
import proofs.«403809_j74698071212406_3_alg».proof.Proof.Loss
import Idealize.ShloMosaic.Lib.StableHlo.Predicate

set_option maxRecDepth 16384

noncomputable section

namespace Cert.Kto.Ref

open Idealize.ShloMosaic Idealize.ShloMosaic.ValueIdx
open Cert.ReferenceIdeal Cert.ReferenceIdeal.Gen Cert.ReferenceIdeal.ReadP

/-! ## Words -/

/-- A column number is below 2³¹, so its word reads the same signed and unsigned. -/
theorem toNat_col (l : Fin 32000) : (BitVec.ofNat 32 l.val).toNat = l.val := by
  rw [BitVec.toNat_ofNat]; exact Nat.mod_eq_of_lt (by have := l.isLt; omega)

/-- The word of a column is not negative. -/
theorem col_not_slt_zero (l : Fin 32000) : ¬ IntOp.cmpi .slt (BitVec.ofNat 32 l.val) 0#32 = 1#1 := by
  intro h
  have h' := (StableHlo.Predicate.slt_iff_toNat (a := BitVec.ofNat 32 l.val) (b := 0#32)
    (by rw [toNat_col]; have := l.isLt; omega) (by decide)).1 h
  simp at h'

/-- … it is at least 0 … -/
theorem col_sge_zero (l : Fin 32000) : IntOp.cmpi .sge (BitVec.ofNat 32 l.val) 0#32 = 1#1 :=
  (StableHlo.Predicate.sge_iff_toNat (a := BitVec.ofNat 32 l.val) (b := 0#32)
    (by rw [toNat_col]; have := l.isLt; omega) (by decide)).2 (Nat.zero_le _)

/-- … and at most 31999. -/
theorem col_sle_last (l : Fin 32000) : IntOp.cmpi .sle (BitVec.ofNat 32 l.val) 31999#32 = 1#1 :=
  (StableHlo.Predicate.sle_iff_toNat (a := BitVec.ofNat 32 l.val) (b := 31999#32)
    (by rw [toNat_col]; have := l.isLt; omega) (by decide)).2
    (by rw [toNat_col]; show l.val ≤ 31999; have := l.isLt; omega)

/-- Read as a signed integer and clamped into the row, the word of a column is the column. -/
theorem col_clamp (l : Fin 32000) : min (BitVec.ofNat 32 l.val).toInt.toNat (32000 - 1) = l.val := by
  rw [StableHlo.Predicate.toInt_ofNat_small l.val (by have := l.isLt; omega)]
  have := l.isLt
  simp only [Int.toNat_natCast]; omega

/-! ## The label word, the index stages, the in-range bit -/

/-- The word the row is read at is the token's label word. -/
theorem label_word (x2 : (⟨S4x512, .i32⟩ : BufTy).Contents (Elt Ideal)) (b : Fin 4) (s : Fin 512) :
    val_main_v4 (F := Ideal) x2 (ix2 b s) = labelOf (x2 (ix2 b s)) := by
  rw [val_main_v4_apply, val_main_v3_apply, val_main_v2_apply, val_main_c_apply, val_main_call1_v1_apply,
    val_main_call1_v0_apply, val_main_c_0_apply]
  unfold labelOf Scalar.select IntOp.cmpi
  by_cases h : x2 (ix2 b s) = ignoreWord
  · rw [if_pos h, h]; rfl
  · rw [if_neg h]
    have hne : (x2 (ix2 b s) != 4294967196#32) = true := by simpa [bne_iff_ne] using h
    simp only [hne]
    rfl

/-- For a label word that names a column, the start index of the token's read is that word: the raise by
    32000 of a negative word does not apply. -/
theorem start_word (x2 : (⟨S4x512, .i32⟩ : BufTy).Contents (Elt Ideal)) (b : Fin 4) (s : Fin 512) (l : Fin 32000)
    (hl : labelOf (x2 (ix2 b s)) = BitVec.ofNat 32 l.val) :
    val_main_call2_v5 (F := Ideal) x2 (ix4 b s (0 : Fin 1) (0 : Fin 1)) = BitVec.ofNat 32 l.val := by
  have e5 : idx_main_call2_v5 (ix4 b s (0 : Fin 1) (0 : Fin 1)) = ix3 b s (0 : Fin 1) :=
    funext fun a => Fin.ext (by
      have hb := b.isLt; have hs := s.isLt
      match a with
      | ⟨0, _⟩ => show (((b.val * 512 + s.val) * 1 + 0) * 1 + 0) / 512 = b.val; omega
      | ⟨1, _⟩ => show (((b.val * 512 + s.val) * 1 + 0) * 1 + 0) / 1 % 512 = s.val; omega
      | ⟨2, _⟩ => rfl)
  have e4 : idx_main_v5 (ix3 b s (0 : Fin 1)) = ix2 b s :=
    funext fun a => Fin.ext (by match a with | ⟨0, _⟩ => rfl | ⟨1, _⟩ => rfl)
  have hw : val_main_v5 (F := Ideal) x2 (ix3 b s (0 : Fin 1)) = BitVec.ofNat 32 l.val := by
    rw [val_main_v5_apply, e4, label_word, hl]
  rw [val_main_call2_v5_apply, e5, val_main_call2_v4_apply, val_main_call2_v1_apply, hw, val_main_call2_v0_apply,
    val_main_call2_c_apply]
  unfold Scalar.select
  exact if_neg (col_not_slt_zero l)

/-- A fold over an axis of one coordinate is the operation at that coordinate against the initial value. -/
theorem fold_fin_one {α : Type} (op : α → α → α) [Std.Commutative op] [Std.Associative op] (init : α) (f : Fin 1 → α) :
    (Finset.univ : Finset (Fin 1)).fold op init f = op (f 0) init := by
  rw [Finset.univ_unique, Finset.fold_singleton]; rfl

/-- For a label word that names a column the in-range bit of the token's read is set: the word is at least 0 and at
    most 31999, and the conjunction over the one-coordinate axis is that bit. -/
theorem inrange_bit (x2 : (⟨S4x512, .i32⟩ : BufTy).Contents (Elt Ideal)) (b : Fin 4) (s : Fin 512) (l : Fin 32000)
    (hl : labelOf (x2 (ix2 b s)) = BitVec.ofNat 32 l.val) :
    val_main_call2_v12 (F := Ideal) x2 (ix3 b s (0 : Fin 1)) = 1#1 := by
  have h : S4x512x1x1.Reduces [3] S4x512x1 := by decide
  have eL : h.lift (ix3 b s (0 : Fin 1)) (0 : Fin 1) = ix4 b s (0 : Fin 1) (0 : Fin 1) :=
    funext fun a => Fin.ext (by match a with | ⟨0, _⟩ => rfl | ⟨1, _⟩ => rfl | ⟨2, _⟩ => rfl | ⟨3, _⟩ => rfl)
  unfold val_main_call2_v12
  rw [Host.reduce_eq_fold_single IntOp.andi _ _ reducesTo_S4x512x1x1_S4x512x1_d3 h h_S_]
  refine (fold_fin_one IntOp.andi _ _).trans ?_
  show IntOp.andi (val_main_call2_v11 (F := Ideal) x2 (h.lift (ix3 b s (0 : Fin 1)) (0 : Fin 1))) (1#1) = 1#1
  rw [eL, val_main_call2_v11_apply, val_main_call2_v7_apply, val_main_call2_v10_apply, start_word x2 b s l hl,
    val_main_call2_v6_apply, val_main_call2_c_2_apply, val_main_call2_v9_apply, val_main_call2_v8_apply,
    val_main_call2_c_1_apply, col_sge_zero, col_sle_last]
  decide

/-! ## The read of the row -/

/-- The row read at a token: batch coordinates the token's, the column the start index word read as a signed integer
    and clamped into the row. -/
theorem gather_token {α : Type} (x : S4x512x32000.Idx → α) (idx : IVec S4x512x1x1 32) (b : Fin 4) (s : Fin 512) :
    Host.gather gather_S4x512x32000_S4x512x1x1_S4x512x1_n_2_01_01_2_3_111 x idx (ix3 b s (0 : Fin 1))
      = x (ix3 b s ⟨min (idx (ix4 b s (0 : Fin 1) (0 : Fin 1))).toInt.toNat (32000 - 1), by omega⟩) := by
  unfold Host.gather
  refine congrArg x (funext fun a => Fin.ext ?_)
  have hsi : ∀ c, gather_S4x512x32000_S4x512x1x1_S4x512x1_n_2_01_01_2_3_111.siIdx (ix3 b s (0 : Fin 1)) c = ix4 b s (0 : Fin 1) (0 : Fin 1) := fun c =>
    funext fun a' => Fin.ext (by
      have hc : c.val < 1 := c.isLt
      match a' with
      | ⟨0, _⟩ => rfl
      | ⟨1, _⟩ => rfl
      | ⟨2, _⟩ => rfl
      | ⟨3, _⟩ => show c.val = 0; omega)
  match a with
  | ⟨0, _⟩ =>
    show gather_S4x512x32000_S4x512x1x1_S4x512x1_n_2_01_01_2_3_111.start _ idx 0 + gather_S4x512x32000_S4x512x1x1_S4x512x1_n_2_01_01_2_3_111.batchCoord _ 0 + gather_S4x512x32000_S4x512x1x1_S4x512x1_n_2_01_01_2_3_111.offCoord _ 0 = b.val
    rw [GatherDims.start_batching _ _ _ _ (by decide), GatherDims.offCoord_eq_zero _ _ _ (by decide)]
    unfold GatherDims.batchCoord
    rw [dif_pos (by decide), Nat.add_zero, Nat.zero_add]
    rfl
  | ⟨1, _⟩ =>
    show gather_S4x512x32000_S4x512x1x1_S4x512x1_n_2_01_01_2_3_111.start _ idx 1 + gather_S4x512x32000_S4x512x1x1_S4x512x1_n_2_01_01_2_3_111.batchCoord _ 1 + gather_S4x512x32000_S4x512x1x1_S4x512x1_n_2_01_01_2_3_111.offCoord _ 1 = s.val
    rw [GatherDims.start_batching _ _ _ _ (by decide), GatherDims.offCoord_eq_zero _ _ _ (by decide)]
    unfold GatherDims.batchCoord
    rw [dif_pos (by decide), Nat.add_zero, Nat.zero_add]
    rfl
  | ⟨2, _⟩ =>
    show gather_S4x512x32000_S4x512x1x1_S4x512x1_n_2_01_01_2_3_111.start _ idx 2 + gather_S4x512x32000_S4x512x1x1_S4x512x1_n_2_01_01_2_3_111.batchCoord _ 2 + gather_S4x512x32000_S4x512x1x1_S4x512x1_n_2_01_01_2_3_111.offCoord _ 2 = _
    rw [GatherDims.batchCoord_eq_zero _ _ _ (by decide), GatherDims.offCoord_eq_zero _ _ _ (by decide)]
    unfold GatherDims.start
    rw [dif_pos (by decide), hsi]
    rfl

/-- For a start index word that names a column the read is the row's entry there: the clamp does not move it. -/
theorem gather_token_col {α : Type} (x : S4x512x32000.Idx → α) (idx : IVec S4x512x1x1 32) (b : Fin 4) (s : Fin 512)
    (l : Fin 32000) (hidx : idx (ix4 b s (0 : Fin 1) (0 : Fin 1)) = BitVec.ofNat 32 l.val) :
    Host.gather gather_S4x512x32000_S4x512x1x1_S4x512x1_n_2_01_01_2_3_111 x idx (ix3 b s (0 : Fin 1)) = x (ix3 b s l) := by
  rw [gather_token]
  refine congrArg (fun c => x (ix3 b s c)) (Fin.ext ?_)
  show min (idx (ix4 b s (0 : Fin 1) (0 : Fin 1))).toInt.toNat (32000 - 1) = l.val
  rw [hidx]; exact col_clamp l

/-! ## The log-softmax of the row -/

/-- The logit of token `(b, s)` against vocabulary row `v`. -/
theorem logit_at (x0 : (⟨S4x512x2048, .f32⟩ : BufTy).Contents (Elt Ideal)) (x4 : (⟨S32000x2048, .f32⟩ : BufTy).Contents (Elt Ideal))
    (b : Fin 4) (s : Fin 512) (v : Fin 32000) :
    val_main_v0 (F := Ideal) x0 x4 (ix3 b s v) = rowZ x0 x4 b s v := by
  rw [val_main_v0_apply]
  show _ = ∑ h : Fin 2048, x0 (ix3 b s h) * x4 (ix2 v h)
  refine Finset.sum_congr rfl fun k _ => ?_
  have el : lidx_main_v0 (ix3 b s v) k = ix3 b s k :=
    funext fun a => Fin.ext (by match a with | ⟨0, _⟩ => rfl | ⟨1, _⟩ => rfl | ⟨2, _⟩ => rfl)
  have er : ridx_main_v0 (ix3 b s v) k = ix2 v k :=
    funext fun a => Fin.ext (by match a with | ⟨0, _⟩ => rfl | ⟨1, _⟩ => rfl)
  rw [el, er]

/-- The row's maximum as the program takes it — the fold of `max` from -∞ over the 32000 columns, then `max` against
    -∞ once more — is the maximum of the row. -/
theorem rowmax_at (x0 : (⟨S4x512x2048, .f32⟩ : BufTy).Contents (Elt Ideal)) (x4 : (⟨S32000x2048, .f32⟩ : BufTy).Contents (Elt Ideal))
    (b : Fin 4) (s : Fin 512) :
    val_main_call0_v2 (F := Ideal) x0 x4 (ix2 b s) = maxOver (rowZ x0 x4 b s) := by
  have h : S4x512x32000.Reduces [2] S4x512 := by decide
  have hbot : Ideal.ofBits .f32 0xFF800000#32 = (⊥ : EReal) := by simp [Ideal.ofBits, Ideal.ieee]
  rw [val_main_call0_v2_apply, val_main_call0_v1_apply, val_main_call0_cst_0_apply]
  unfold val_main_call0_v0
  rw [Host.reduce_eq_fold_single _ _ _ reducesTo_S4x512x32000_S4x512_d2 h h_S_]
  show max (Ideal.ofBits .f32 0xFF800000#32)
      ((Finset.univ : Finset (Fin 32000)).fold max (Ideal.ofBits .f32 0xFF800000#32)
        (fun k => val_main_v0 (F := Ideal) x0 x4 (h.lift (ix2 b s) k)))
    = (Finset.univ : Finset (Fin 32000)).fold max ⊥ (rowZ x0 x4 b s)
  rw [hbot, max_eq_right bot_le]
  refine congrArg (Finset.univ.fold max ⊥) (funext fun (k : Fin 32000) => ?_)
  have eL : h.lift (ix2 b s) k = ix3 b s k :=
    funext fun a => Fin.ext (by match a with | ⟨0, _⟩ => rfl | ⟨1, _⟩ => rfl | ⟨2, _⟩ => rfl)
  rw [eL]
  exact logit_at x0 x4 b s k

/-- The shifted logit: the logit less the row's maximum. -/
theorem shifted_at (x0 : (⟨S4x512x2048, .f32⟩ : BufTy).Contents (Elt Ideal)) (x4 : (⟨S32000x2048, .f32⟩ : BufTy).Contents (Elt Ideal))
    (b : Fin 4) (s : Fin 512) (v : Fin 32000) :
    val_main_call0_v5 (F := Ideal) x0 x4 (ix3 b s v) = rowZ x0 x4 b s v - maxOver (rowZ x0 x4 b s) := by
  have e4 : idx_main_call0_v4 (ix3 b s v) = ix3 b s (0 : Fin 1) :=
    funext fun a => Fin.ext (by match a with | ⟨0, _⟩ => rfl | ⟨1, _⟩ => rfl | ⟨2, _⟩ => rfl)
  have e3 : idx_main_call0_v3 (ix3 b s (0 : Fin 1)) = ix2 b s :=
    funext fun a => Fin.ext (by match a with | ⟨0, _⟩ => rfl | ⟨1, _⟩ => rfl)
  rw [val_main_call0_v5_apply, logit_at, val_main_call0_v4_apply, e4, val_main_call0_v3_apply, e3, rowmax_at]
  rfl

/-- The program's log-softmax of the row at column `l`. -/
theorem logsoftmax_at (x0 : (⟨S4x512x2048, .f32⟩ : BufTy).Contents (Elt Ideal)) (x4 : (⟨S32000x2048, .f32⟩ : BufTy).Contents (Elt Ideal))
    (b : Fin 4) (s : Fin 512) (l : Fin 32000) :
    val_main_v1 (F := Ideal) x0 x4 (ix3 b s l) = logSoftmaxAt (rowZ x0 x4 b s) l := by
  have e10 : idx_main_call0_v10 (ix3 b s l) = ix3 b s (0 : Fin 1) :=
    funext fun a => Fin.ext (by match a with | ⟨0, _⟩ => rfl | ⟨1, _⟩ => rfl | ⟨2, _⟩ => rfl)
  have e8 : idx_main_call0_v8 (ix3 b s (0 : Fin 1)) = ix2 b s :=
    funext fun a => Fin.ext (by match a with | ⟨0, _⟩ => rfl | ⟨1, _⟩ => rfl)
  have e7 : ∀ k : Fin 32000, idx_main_call0_v7 (ix2 b s) k = ix3 b s k := fun k =>
    funext fun a => Fin.ext (by match a with | ⟨0, _⟩ => rfl | ⟨1, _⟩ => rfl | ⟨2, _⟩ => rfl)
  rw [val_main_v1_apply, shifted_at, val_main_call0_v10_apply, e10, val_main_call0_v9_apply, val_main_call0_v8_apply, e8,
    val_main_call0_v7_apply, val_main_call0_cst_1_apply]
  simp only [Ideal.subf_def, Ideal.hostUnary_log_def, Ideal.ofBits_def, Ideal.ofBits_zero_f32, zero_add]
  unfold logSoftmaxAt
  refine congrArg (fun t => (rowZ x0 x4 b s l - maxOver (rowZ x0 x4 b s)) - Ideal.log t) (Finset.sum_congr rfl fun k _ => ?_)
  rw [e7, val_main_call0_v6_apply, shifted_at]
  rfl

/-! ## The token value -/

/-- The policy model's token value. -/
theorem token_policy (x0 : (⟨S4x512x2048, .f32⟩ : BufTy).Contents (Elt Ideal)) (x2 : (⟨S4x512, .i32⟩ : BufTy).Contents (Elt Ideal)) (x4 : (⟨S32000x2048, .f32⟩ : BufTy).Contents (Elt Ideal))
    (b : Fin 4) (s : Fin 512) (l : Fin 32000) (hl : labelOf (x2 (ix2 b s)) = BitVec.ofNat 32 l.val) :
    val_main_v7 (F := Ideal) x0 x2 x4 (ix2 b s) = logSoftmaxAt (rowZ x0 x4 b s) l := by
  have e7 : idx_main_v7 (ix2 b s) = ix3 b s (0 : Fin 1) :=
    funext fun a => Fin.ext (by
      have hb := b.isLt; have hs := s.isLt
      match a with
      | ⟨0, _⟩ => show (b.val * 512 + s.val) / 512 = b.val; omega
      | ⟨1, _⟩ => show (b.val * 512 + s.val) / 1 % 512 = s.val; omega
      | ⟨2, _⟩ => rfl)
  rw [val_main_v7_apply, e7, val_main_v6_apply, inrange_bit x2 b s l hl, select_one]
  unfold val_main_call2_v13
  exact (gather_token_col _ _ b s l (start_word x2 b s l hl)).trans (logsoftmax_at x0 x4 b s l)

/-- The second model's token values are the first model's stages at the second model's arrays: the two chains of
    operations are one term. -/
theorem stages_agree (x1 : (⟨S4x512x2048, .f32⟩ : BufTy).Contents (Elt Ideal)) (x2 : (⟨S4x512, .i32⟩ : BufTy).Contents (Elt Ideal)) (x5 : (⟨S32000x2048, .f32⟩ : BufTy).Contents (Elt Ideal)) :
    val_main_v22 (F := Ideal) x1 x2 x5 = val_main_v7 (F := Ideal) x1 x2 x5 := rfl

/-- The reference model's token value. -/
theorem token_reference (x1 : (⟨S4x512x2048, .f32⟩ : BufTy).Contents (Elt Ideal)) (x2 : (⟨S4x512, .i32⟩ : BufTy).Contents (Elt Ideal)) (x5 : (⟨S32000x2048, .f32⟩ : BufTy).Contents (Elt Ideal))
    (b : Fin 4) (s : Fin 512) (l : Fin 32000) (hl : labelOf (x2 (ix2 b s)) = BitVec.ofNat 32 l.val) :
    val_main_v22 (F := Ideal) x1 x2 x5 (ix2 b s) = logSoftmaxAt (rowZ x1 x5 b s) l := by
  rw [stages_agree]
  exact token_policy x1 x2 x5 b s l hl

end Cert.Kto.Ref

end
-- ==== Proof.RefCount.lean ====
/-
  Counting a sequence's unmasked tokens in 32-bit integers.

  The reference widens each token's mask bit to a 32-bit word, adds the 512 words of a sequence, and converts the
  sum to a float.  A sum of 512 zeros and ones stays below 2^31, so it does not wrap and reads the same signed or
  unsigned: converted, it is the number of unmasked tokens, which is also the sum of the masks taken as reals.
-/
import proofs.«403809_j74698071212406_3_alg».proof.Proof.RefRead
import proofs.«403809_j74698071212406_3_alg».proof.Proof.Loss
import Idealize.ShloMosaic.Lib.StableHlo.Predicate

set_option maxRecDepth 16384

noncomputable section

namespace Cert.Kto.Ref

open Idealize.ShloMosaic Idealize.ShloMosaic.ValueIdx
open Cert.ReferenceIdeal Cert.ReferenceIdeal.ReadP

/-- The coercion of a finite real sum is the sum of the coercions. -/
theorem coe_sum_real {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Row `p`, column `q` of a rectangle, written in either of the two ways the library writes it. -/
theorem ij_eq_ix2 {n m : Nat} (p : Fin n) (q : Fin m) : StableHlo.Predicate.ij p q = ix2 p q := by
  funext d
  match d with
  | ⟨0, _⟩ => rfl
  | ⟨1, _⟩ => rfl

/-- A [4 × 512] mask whose bit at `(b, s)` is set exactly when the target `y b s` is not the ignore value: its widened
    bits, added along each row in 32-bit words and converted, give the row's sum of masks.  The integer sum is the
    number of set bits, at most 512, so it neither wraps nor reads differently signed. -/
theorem count_of_mask (mask : IVec (⟨2, ![4, 512]⟩ : Shape) 1) (y : Fin 4 → Fin 512 → BitVec 32)
    (hmask : ∀ b s, mask (ix2 b s) = 1#1 ↔ y b s ≠ ignoreWord) (hw : 1 < 32)
    (h : (⟨2, ![4, 512]⟩ : Shape).ReducesTo [1] ⟨1, ![4]⟩) {u : Shape} (hu : 0 < u.numel) (b : Fin 4) :
    FloatOps.sitofp (F := Ideal) .f32
        (Host.reduce IntOp.addi (extui 32 mask hw) (constantI u 32 0#32) h hu (ix1 b))
      = maskCount (fun b s => maskOf (y b s)) b := by
  classical
  have hc := StableHlo.Predicate.toNat_reduce_count_cols (n := 4) (m := 512) (by norm_num) mask hw h hu (ix1 b)
  generalize Host.reduce IntOp.addi (extui 32 mask hw) (constantI u 32 0#32) h hu (ix1 b) = c at hc
  have hle : c.toNat ≤ 512 := by
    rw [hc]
    exact (Finset.card_le_univ _).trans (by simp)
  have hint : c.toInt = (c.toNat : ℤ) := StableHlo.Predicate.toInt_eq_toNat_of_lt (by omega)
  show (((c.toInt : ℝ)) : EReal) = _
  rw [hint, Int.cast_natCast, hc, Finset.card_filter, Nat.cast_sum, coe_sum_real]
  unfold maskCount
  rw [zero_add]
  refine Finset.sum_congr rfl (fun q _ => ?_)
  show (((if mask (StableHlo.Predicate.ij b q) = 1#1 then 1 else 0 : ℕ) : ℝ) : EReal) = maskOf (y b q)
  rw [ij_eq_ix2]
  unfold maskOf
  by_cases hy : y b q = ignoreWord
  · rw [if_neg (fun e => (hmask b q).1 e hy), if_pos hy]
    simp
  · rw [if_pos ((hmask b q).2 hy), if_neg hy]
    simp

/-- The integer count of a sequence's unmasked tokens, converted, is the float sum of its masks (policy model's copy). -/
theorem count_policy (x2 : (⟨S4x512, .i32⟩ : BufTy).Contents (Elt Ideal)) (b : Fin 4) :
    val_main_v13 (F := Ideal) x2 (ix1 b) = maskCount (fun b s => maskOf (x2 (ix2 b s))) b := by
  rw [val_main_v13_apply]
  unfold val_main_v12 val_main_v11 val_main_c_1
  refine count_of_mask (val_main_v3 (F := Ideal) x2) (fun b s => x2 (ix2 b s)) (fun b s => ?_) _ _ _ b
  rw [val_main_v3_apply, val_main_v2_apply, val_main_c_apply]
  exact IntOp.cmpi_ne

/-- The same for the reference model's copy of the count. -/
theorem count_reference (x2 : (⟨S4x512, .i32⟩ : BufTy).Contents (Elt Ideal)) (b : Fin 4) :
    val_main_v28 (F := Ideal) x2 (ix1 b) = maskCount (fun b s => maskOf (x2 (ix2 b s))) b := by
  rw [val_main_v28_apply]
  unfold val_main_v27 val_main_v26 val_main_c_5
  refine count_of_mask (val_main_v18 (F := Ideal) x2) (fun b s => x2 (ix2 b s)) (fun b s => ?_) _ _ _ b
  rw [val_main_v18_apply, val_main_v17_apply, val_main_c_2_apply]
  exact IntOp.cmpi_ne

end Cert.Kto.Ref

end
-- ==== Proof.RefLoss.lean ====
/-
  The reference's result in the shared form.

  The reference divides each sequence's masked sum of token values by the sequence's number of unmasked tokens,
  counted in 32-bit integers and then converted; 512 zeros and ones do not wrap, so the converted count is the float
  sum of the masks.  From the two models' scores on, its operations are the shared loss.
-/
import proofs.«403809_j74698071212406_3_alg».proof.Proof.RefRead
import proofs.«403809_j74698071212406_3_alg».proof.Proof.RefCount
import proofs.«403809_j74698071212406_3_alg».proof.Proof.Loss
import Idealize.ShloMosaic.Lib.ValueIdxRank1

set_option maxRecDepth 16384

noncomputable section

namespace Cert.Kto.Ref

open Idealize.ShloMosaic Idealize.ShloMosaic.ValueIdx
open Cert.ReferenceIdeal Cert.ReferenceIdeal.ReadP

/-- The one-bit answer to "does the target differ from the ignore value", read as a float, is the mask: the bit is
    0 at the ignore value and 1 elsewhere, and a one-bit word read unsigned is that 0 or 1. -/
theorem uitofp_ne_ignore (y : BitVec 32) :
    FloatOps.uitofp (F := Ideal) .f32 (IntOp.cmpi .ne y 4294967196#32) = maskOf y := by
  unfold maskOf IntOp.cmpi
  by_cases h : y = 4294967196#32
  · rw [if_pos h]
    subst h
    show (((BitVec.ofBool (4294967196#32 != 4294967196#32)).toNat : ℝ) : EReal) = 0
    simp
  · rw [if_neg h]
    have hb : (y != 4294967196#32) = true := by simp [h]
    show (((BitVec.ofBool (y != 4294967196#32)).toNat : ℝ) : EReal) = 1
    rw [hb]
    simp

/-- The policy model's copy of the mask at token (b, s). -/
theorem mask_policy (x2 : (⟨S4x512, .i32⟩ : BufTy).Contents (Elt Ideal)) (b : Fin 4) (s : Fin 512) :
    val_main_v8 (F := Ideal) x2 (ix2 b s) = maskOf (x2 (ix2 b s)) := by
  rw [val_main_v8_apply, val_main_v3_apply, val_main_v2_apply, val_main_c_apply]
  exact uitofp_ne_ignore _

/-- The reference model's copy of the mask at token (b, s). -/
theorem mask_reference (x2 : (⟨S4x512, .i32⟩ : BufTy).Contents (Elt Ideal)) (b : Fin 4) (s : Fin 512) :
    val_main_v23 (F := Ideal) x2 (ix2 b s) = maskOf (x2 (ix2 b s)) := by
  rw [val_main_v23_apply, val_main_v18_apply, val_main_v17_apply, val_main_c_2_apply]
  exact uitofp_ne_ignore _

/-- The selected sign of sequence b: the word of 1.0 where the preference bit is set, the word of -1.0 where not. -/
theorem sign_at (x3 : (⟨S4, .i1⟩ : BufTy).Contents (Elt Ideal)) (b : Fin 4) :
    val_main_v34 (F := Ideal) x3 (ix1 b) = prefSign (x3 (ix1 b)) := by
  rw [val_main_v34_apply, val_main_v31_apply, val_main_call6_v0_apply, val_main_call6_v1_apply,
    val_main_cst_6_apply, val_main_cst_7_apply]
  rfl

/-- The policy model's score of sequence b: the masked sum of its token values over the count of unmasked tokens. -/
theorem score_policy (x0 : (⟨S4x512x2048, .f32⟩ : BufTy).Contents (Elt Ideal)) (x2 : (⟨S4x512, .i32⟩ : BufTy).Contents (Elt Ideal))
    (x4 : (⟨S32000x2048, .f32⟩ : BufTy).Contents (Elt Ideal)) (b : Fin 4) :
    val_main_v14 (F := Ideal) x0 x2 x4 (ix1 b)
      = maskedAvg (fun b s => val_main_v7 (F := Ideal) x0 x2 x4 (ix2 b s)) (fun b s => maskOf (x2 (ix2 b s)))
          (maskCount fun b s => maskOf (x2 (ix2 b s))) b := by
  rw [val_main_v14_apply, val_main_v10_apply, count_policy, val_main_cst_apply]
  simp only [Ideal.hostDivf_def, Ideal.ofBits_def, Ideal.ofBits_zero_f32]
  unfold maskedAvg
  refine congrArg (fun t => Ideal.div (0 + t) _) (Finset.sum_congr rfl fun s _ => ?_)
  have hi : idx_main_v10 (ix1 b) s = ix2 b s :=
    funext fun a => Fin.ext (by match a with | ⟨0, _⟩ => rfl | ⟨1, _⟩ => rfl)
  rw [hi, val_main_v9_apply, Ideal.mulf_def, mask_policy]

/-- The reference model's score of sequence b, likewise. -/
theorem score_reference (x1 : (⟨S4x512x2048, .f32⟩ : BufTy).Contents (Elt Ideal)) (x2 : (⟨S4x512, .i32⟩ : BufTy).Contents (Elt Ideal))
    (x5 : (⟨S32000x2048, .f32⟩ : BufTy).Contents (Elt Ideal)) (b : Fin 4) :
    val_main_v29 (F := Ideal) x1 x2 x5 (ix1 b)
      = maskedAvg (fun b s => val_main_v22 (F := Ideal) x1 x2 x5 (ix2 b s)) (fun b s => maskOf (x2 (ix2 b s)))
          (maskCount fun b s => maskOf (x2 (ix2 b s))) b := by
  rw [val_main_v29_apply, val_main_v25_apply, count_reference, val_main_cst_4_apply]
  simp only [Ideal.hostDivf_def, Ideal.ofBits_def, Ideal.ofBits_zero_f32]
  unfold maskedAvg
  refine congrArg (fun t => Ideal.div (0 + t) _) (Finset.sum_congr rfl fun s _ => ?_)
  have hi : idx_main_v25 (ix1 b) s = ix2 b s :=
    funext fun a => Fin.ext (by match a with | ⟨0, _⟩ => rfl | ⟨1, _⟩ => rfl)
  rw [hi, val_main_v24_apply, Ideal.mulf_def, mask_reference]

/-- The loss of sequence b, operation by operation, from the two scores and the sign. -/
theorem seq_loss (x0 x1 : (⟨S4x512x2048, .f32⟩ : BufTy).Contents (Elt Ideal)) (x2 : (⟨S4x512, .i32⟩ : BufTy).Contents (Elt Ideal))
    (x3 : (⟨S4, .i1⟩ : BufTy).Contents (Elt Ideal)) (x4 x5 : (⟨S32000x2048, .f32⟩ : BufTy).Contents (Elt Ideal)) (b : Fin 4) :
    val_main_v43 (F := Ideal) x0 x1 x2 x3 x4 x5 (ix1 b)
      = Ideal.ofBits .f32 0x3F800000#32
        - Ideal.div (Ideal.ofBits .f32 0x3F800000#32)
            (Ideal.ofBits .f32 0x3F800000#32
              + Ideal.exp (-(Ideal.ofBits .f32 0x3DCCCCCD#32
                  * (maskedAvg (fun b s => val_main_v7 (F := Ideal) x0 x2 x4 (ix2 b s)) (fun b s => maskOf (x2 (ix2 b s)))
                        (maskCount fun b s => maskOf (x2 (ix2 b s))) b
                      - maskedAvg (fun b s => val_main_v22 (F := Ideal) x1 x2 x5 (ix2 b s)) (fun b s => maskOf (x2 (ix2 b s)))
                        (maskCount fun b s => maskOf (x2 (ix2 b s))) b)
                  * prefSign (x3 (ix1 b))))) := by
  rw [val_main_v43_apply, val_main_v42_apply, val_main_cst_11_apply, val_main_v41_apply, val_main_v40_apply,
    val_main_cst_10_apply, val_main_v39_apply, val_main_v38_apply, val_main_cst_9_apply, val_main_v37_apply,
    val_main_v36_apply, val_main_v35_apply, val_main_v33_apply, val_main_v32_apply, val_main_cst_8_apply,
    val_main_v30_apply, sign_at, score_policy, score_reference]
  simp only [Ideal.subf_def, Ideal.hostDivf_def, Ideal.addf_def, Ideal.hostUnary_exp_def, Ideal.hostNegf_def,
    Ideal.negf_def, Ideal.mulf_def, Ideal.ofBits_def]

/-- The reference's result is the shared loss of its token values. -/
theorem ref_result (x0 x1 : (⟨S4x512x2048, .f32⟩ : BufTy).Contents (Elt Ideal)) (x2 : (⟨S4x512, .i32⟩ : BufTy).Contents (Elt Ideal)) (x3 : (⟨S4, .i1⟩ : BufTy).Contents (Elt Ideal)) (x4 x5 : (⟨S32000x2048, .f32⟩ : BufTy).Contents (Elt Ideal)) :
    val_main_v45 (F := Ideal) x0 x1 x2 x3 x4 x5
      = fun _ => resultOf (fun b s => val_main_v7 (F := Ideal) x0 x2 x4 (ix2 b s)) (fun b s => val_main_v22 (F := Ideal) x1 x2 x5 (ix2 b s))
          (fun b s => x2 (ix2 b s)) (maskCount fun b s => maskOf (x2 (ix2 b s))) (fun b => x3 (ix1 b)) := by
  funext i
  -- the four sequences' losses, summed over the rank-1 index set, are the sum over b : Fin 4
  have hsum : ∑ j : S4.Idx, val_main_v43 (F := Ideal) x0 x1 x2 x3 x4 x5 j
      = ∑ b : Fin 4, val_main_v43 (F := Ideal) x0 x1 x2 x3 x4 x5 (ix1 b) :=
    (Equiv.sum_comp (idxEquiv1 (n := 4)).symm (val_main_v43 (F := Ideal) x0 x1 x2 x3 x4 x5)).symm
  rw [val_main_v45_apply, val_main_v44_apply, val_main_cst_12_apply, val_main_cst_13_apply, hsum]
  simp only [Ideal.hostDivf_def, Ideal.ofBits_def, Ideal.ofBits_zero_f32]
  unfold resultOf ktoLoss
  refine congrArg (fun t => Ideal.div (0 + t) (Ideal.ofBits .f32 0x40800000#32)) (Finset.sum_congr rfl fun b _ => ?_)
  exact seq_loss x0 x1 x2 x3 x4 x5 b

end Cert.Kto.Ref

end
-- ==== Proof.PreFacts.lean ====
/-
  What the precondition gives.

  The precondition is the conjunction of five tests, each an all-reduction of a pointwise test: every entry of the
  four float arrays is strictly below +∞ in absolute value, hence a real number; and every target word is the ignore
  value -100 or lies in [0, 32000) as a signed word, hence its label word (the target, or 0 at the ignore value) is
  the word of a vocabulary column.
-/
import proofs.«403809_j74698071212406_3_alg».proof.Defs
import proofs.«403809_j74698071212406_3_alg».proof.Proof.Gen.Pre_finite_inputs
import proofs.«403809_j74698071212406_3_alg».proof.Proof.Loss
import Idealize.ShloMosaic.Lib.ReduceAll
import Idealize.ShloMosaic.Lib.StableHlo.Predicate

set_option maxRecDepth 16384

noncomputable section

namespace Cert.Kto

open Idealize.ShloMosaic Idealize.ShloMosaic.ValueIdx
open Cert.Pre_finite_inputs

/-- The scalar shape has one index. -/
local instance subsingleton_scalarIdx : Subsingleton S_.Idx := ⟨fun a b => funext fun d => d.elim0⟩

/-- The f32 word `0x7F800000` is +∞. -/
theorem ofBits_inf : Ideal.ofBits .f32 0x7F800000#32 = (⊤ : EReal) := by
  simp [Ideal.ofBits, Ideal.ieee]

/-- An extended real whose absolute value `max x (-x)` tests strictly below +∞ is a real number. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => exact absurd h (by simp [Ideal.cmp])
  | coe r => exact ⟨r, rfl⟩
  | top => exact absurd h (by simp [Ideal.cmp])

/-- A target word that is the ignore value or lies in `[0, 32000)` as a signed word has a label word (itself, or 0 at
    the ignore value) that is the word of a vocabulary column. -/
theorem label_of_test (y : BitVec 32)
    (h : IntOp.ori (IntOp.cmpi .eq y 4294967196#32)
        (IntOp.andi (IntOp.cmpi .sge y 0#32) (IntOp.cmpi .slt y 32000#32)) = 1#1) :
    ∃ l : Fin 32000, labelOf y = BitVec.ofNat 32 l.val := by
  rcases IntOp.ori_eq_one.1 h with h | h
  · have hy : y = ignoreWord := IntOp.cmpi_eq.1 h
    exact ⟨⟨0, by norm_num⟩, by rw [labelOf, if_pos hy]⟩
  · obtain ⟨h1, h2⟩ := IntOp.andi_eq_one.1 h
    have h1' := IntOp.cmpi_sge.1 h1
    have h2' := IntOp.cmpi_slt.1 h2
    have e0 : (0#32 : BitVec 32).toInt = 0 := by decide
    have e1 : (32000#32 : BitVec 32).toInt = 32000 := by decide
    rw [e0] at h1'
    rw [e1] at h2'
    have hlt := y.isLt
    have hy : y.toNat < 32000 := by
      rw [BitVec.toInt_eq_toNat_cond] at h1' h2'
      split_ifs at h1' h2' <;> omega
    have hne : y ≠ ignoreWord := by
      intro e
      rw [e] at hy
      exact absurd hy (by decide)
    exact ⟨⟨y.toNat, hy⟩, by rw [labelOf, if_neg hne]; exact (BitVec.ofNat_toNat 32 y).symm⟩

/-- From the precondition's value being all ones: real entries, and labels that name a column. -/
theorem pre_facts [Cert.Pre_finite_inputs.Facts]
    (x0 x1 : FVec Ideal S4x512x2048 .f32) (x2 : IVec S4x512 32) (x3 : IVec S4 1) (x4 x5 : FVec Ideal S32000x2048 .f32)
    (h : Cert.Pre_finite_inputs.fn (F := Ideal) x0 x1 x2 x3 x4 x5 = fun _ => 1#1) :
    (∀ i, ∃ r : ℝ, x0 i = (r : EReal)) ∧ (∀ i, ∃ r : ℝ, x1 i = (r : EReal))
      ∧ (∀ i, ∃ r : ℝ, x4 i = (r : EReal)) ∧ (∀ i, ∃ r : ℝ, x5 i = (r : EReal))
      ∧ ∀ (b : Fin 4) (s : Fin 512), ∃ l : Fin 32000, labelOf (x2 (ix2 b s)) = BitVec.ofNat 32 l.val := by
  have h0 := congrFun h ValueIdx.ix0
  dsimp only [Cert.Pre_finite_inputs.fn, Cert.Pre_finite_inputs.fn_part1] at h0
  obtain ⟨h0, hy⟩ := IntOp.andi_eq_one.1 h0
  obtain ⟨h0, h5⟩ := IntOp.andi_eq_one.1 h0
  obtain ⟨h0, h4⟩ := IntOp.andi_eq_one.1 h0
  obtain ⟨h0, h1⟩ := IntOp.andi_eq_one.1 h0
  have a0 := Host.reduce_andi_all _ _ _ _ _ h0
  have a1 := Host.reduce_andi_all _ _ _ _ _ h1
  have a4 := Host.reduce_andi_all _ _ _ _ _ h4
  have a5 := Host.reduce_andi_all _ _ _ _ _ h5
  have ay := Host.reduce_andi_all _ _ _ _ _ hy
  exact ⟨fun i => real_of_abs_lt (x0 i) (a0 i), fun i => real_of_abs_lt (x1 i) (a1 i),
    fun i => real_of_abs_lt (x4 i) (a4 i), fun i => real_of_abs_lt (x5 i) (a5 i),
    fun b s => label_of_test (x2 (ix2 b s)) (ay (ix2 b s))⟩

end Cert.Kto

end
-- ==== Proof.OnlineSoftmax.lean ====
/-
  The streamed log-softmax is the textbook one.

  For a row of finite logits walked in 25 chunks of 1280 columns, the running maximum after `k` chunks is the
  maximum of the first `1280 k` logits; the running sum of exponentials, rescaled by `exp (m_old - m_new)`
  whenever the maximum grows, is the sum of `exp (z v - m)` over those columns (because
  `exp (a - b) * exp (z - a) = exp (z - b)` on the reals, and the first chunk starts from `exp (-∞) * 0 = 0`);
  and the sum of the logits at the columns equal to the label is the logit at the label once the label's column has
  been passed.  After all 25 chunks, `t - (m + log l) = (z l - m) - log l` since every term is a real number.
-/
import proofs.«403809_j74698071212406_3_alg».proof.Proof.Spec

noncomputable section

namespace Cert.Kto

open Idealize.ShloMosaic Idealize.ShloMosaic.ValueIdx

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A contraction of finite rows is finite. -/
theorem logit_real {X : (⟨2, ![2048, 2048]⟩ : Shape).Idx → EReal} {W : (⟨2, ![32000, 2048]⟩ : Shape).Idx → EReal}
    (hX : ∀ i, ∃ r : ℝ, X i = (r : EReal)) (hW : ∀ i, ∃ r : ℝ, W i = (r : EReal)) (n : Fin 2048) (v : Fin 32000) :
    ∃ r : ℝ, logit X W n v = (r : EReal) := by
  choose xr hxr using hX
  choose wr hwr using hW
  refine ⟨∑ h : Fin 2048, xr (ix2 n h) * wr (ix2 v h), ?_⟩
  rw [coe_sum]
  unfold logit
  refine Finset.sum_congr rfl (fun h _ => ?_)
  rw [hxr, hwr, EReal.coe_mul]

/-! ### The columns of the first `k` chunks -/

/-- The columns of the first `k` chunks: those numbered below `1280 k`. -/
def pre (k : ℕ) : Finset (Fin 32000) := Finset.univ.filter (fun v => v.val < 1280 * k)

/-- For the 25 chunks of the row the reduction mod 32000 in `col` does nothing. -/
theorem col_val {k : ℕ} (hk : k < 25) (j : Fin 1280) : (col k j).val = 1280 * k + j.val := by
  have hj := j.isLt
  show (1280 * k + j.val) % 32000 = _
  exact Nat.mod_eq_of_lt (by omega)

theorem col_injective {k : ℕ} (hk : k < 25) : Function.Injective (col k) := by
  intro a b h
  have h' := congrArg Fin.val h
  rw [col_val hk, col_val hk] at h'
  exact Fin.ext (by omega)

/-- The first `k + 1` chunks are the first `k` chunks together with chunk `k`. -/
theorem pre_succ {k : ℕ} (hk : k < 25) : pre (k + 1) = pre k ∪ Finset.univ.image (col k) := by
  ext v
  have hv := v.isLt
  simp only [pre, Finset.mem_filter, Finset.mem_univ, true_and, Finset.mem_union, Finset.mem_image]
  constructor
  · intro h
    by_cases h' : v.val < 1280 * k
    · exact Or.inl h'
    · refine Or.inr ⟨⟨v.val - 1280 * k, by omega⟩, ?_⟩
      apply Fin.ext
      rw [col_val hk]
      show 1280 * k + (v.val - 1280 * k) = v.val
      omega
  · rintro (h | ⟨j, rfl⟩)
    · omega
    · have hj := j.isLt
      rw [col_val hk]
      omega

theorem pre_disjoint {k : ℕ} (hk : k < 25) : Disjoint (pre k) (Finset.univ.image (col k)) := by
  rw [Finset.disjoint_left]
  intro v hv hv'
  simp only [pre, Finset.mem_filter, Finset.mem_univ, true_and] at hv
  obtain ⟨j, _, rfl⟩ := Finset.mem_image.mp hv'
  rw [col_val hk] at hv
  omega

theorem pre_zero : pre 0 = ∅ := by
  simp [pre]

theorem pre_full : pre 25 = Finset.univ := by
  apply Finset.filter_true_of_mem
  intro v _
  have hv := v.isLt
  omega

theorem pre_succ_nonempty (k : ℕ) : (pre (k + 1)).Nonempty :=
  ⟨⟨0, by norm_num⟩, by simp [pre]⟩

/-- A sum over the first `k + 1` chunks splits off the sum over chunk `k`. -/
theorem sum_pre_succ {α : Type} [AddCommMonoid α] {k : ℕ} (hk : k < 25) (f : Fin 32000 → α) :
    ∑ v ∈ pre (k + 1), f v = ∑ v ∈ pre k, f v + ∑ j : Fin 1280, f (col k j) := by
  rw [pre_succ hk, Finset.sum_union (pre_disjoint hk),
    Finset.sum_image (fun a _ b _ h => col_injective hk h)]

/-- The maximum over the first `k + 1` chunks is the larger of the maximum over the first `k` and that of chunk `k`. -/
theorem sup_pre_succ {k : ℕ} (hk : k < 25) (z : Fin 32000 → EReal) :
    (pre (k + 1)).sup z = max ((pre k).sup z) (maxOver (fun j => z (col k j))) := by
  rw [pre_succ hk, Finset.sup_union, Finset.sup_image]
  rfl

/-- The maximum of finitely many reals, over a nonempty set, is a real. -/
theorem sup_real {s : Finset (Fin 32000)} (hs : s.Nonempty) {z : Fin 32000 → EReal} {zr : Fin 32000 → ℝ}
    (hz : ∀ v, z v = (zr v : EReal)) : ∃ r : ℝ, s.sup z = (r : EReal) := by
  obtain ⟨i, _, hi⟩ := Finset.exists_mem_eq_sup s hs z
  exact ⟨zr i, by rw [hi, hz]⟩

/-- Rescaling a sum of exponentials from the maximum `m` to the maximum `M'`:
    `exp (m - M') * exp (x - m) = exp (x - M')`; on the empty set both sides are `0` even at `m = -∞`. -/
theorem rescale (s : Finset (Fin 32000)) (zr : Fin 32000 → ℝ) (m : EReal) (M' : ℝ)
    (hm : (s = ∅ ∧ m = ⊥) ∨ ∃ M : ℝ, m = (M : EReal)) :
    Ideal.exp (m - (M' : EReal)) * ((∑ v ∈ s, Real.exp (zr v - m.toReal) : ℝ) : EReal)
      = ((∑ v ∈ s, Real.exp (zr v - M') : ℝ) : EReal) := by
  rcases hm with ⟨rfl, rfl⟩ | ⟨M, rfl⟩
  · simp [EReal.bot_sub]
  · rw [EReal.toReal_coe, ← EReal.coe_sub, Ideal.exp_coe, ← EReal.coe_mul, Finset.mul_sum]
    refine congrArg _ (Finset.sum_congr rfl (fun v _ => ?_))
    rw [← Real.exp_add]
    congr 1
    ring

/-- After `k ≤ 25` chunks the three running numbers are the maximum, the sum of exponentials relative to that
    maximum, and the sum of the marked logits, each over the columns of the first `k` chunks. -/
theorem online_inv (z : Fin 32000 → EReal) (zr : Fin 32000 → ℝ) (hz : ∀ v, z v = (zr v : EReal))
    (hit : Fin 32000 → Bool) :
    ∀ k, k ≤ 25 →
      (online z hit k).1 = (pre k).sup z ∧
      (online z hit k).2.1 = ((∑ v ∈ pre k, Real.exp (zr v - ((pre k).sup z).toReal) : ℝ) : EReal) ∧
      (online z hit k).2.2 = ∑ v ∈ pre k, (if hit v then z v else 0) := by
  intro k
  induction k with
  | zero =>
    intro _
    rw [pre_zero]
    simp [online]
  | succ k ih =>
    intro hk
    have hk' : k < 25 := by omega
    obtain ⟨h1, h2, h3⟩ := ih (by omega)
    obtain ⟨M', hM'⟩ := sup_real (pre_succ_nonempty k) hz
    have hm' : stepM ((pre k).sup z) (fun j => z (col k j)) = (M' : EReal) := by
      rw [← hM', sup_pre_succ hk']
      rfl
    have hpre : (pre k = ∅ ∧ (pre k).sup z = ⊥) ∨ ∃ M : ℝ, (pre k).sup z = (M : EReal) := by
      rcases (pre k).eq_empty_or_nonempty with h | h
      · exact Or.inl ⟨h, by rw [h, Finset.sup_empty]⟩
      · exact Or.inr (sup_real h hz)
    refine ⟨?_, ?_, ?_⟩
    · show stepM (online z hit k).1 _ = _
      rw [h1, sup_pre_succ hk']
      rfl
    · show stepL (online z hit k).1 (online z hit k).2.1 _ = _
      rw [h1, h2, hM', EReal.toReal_coe, sum_pre_succ hk', EReal.coe_add]
      unfold stepL
      rw [hm']
      refine congrArg₂ (· + ·) (rescale _ zr _ M' hpre) ?_
      rw [coe_sum]
      refine Finset.sum_congr rfl (fun j _ => ?_)
      show Ideal.exp (z (col k j) - (M' : EReal)) = _
      rw [hz, ← EReal.coe_sub, Ideal.exp_coe]
    · show stepT (online z hit k).2.2 _ _ = _
      rw [h3, sum_pre_succ hk']
      rfl

/-- A label word that names column `l` marks column `l` and no other. -/
theorem hitOf_iff (lab : BitVec 32) (l : Fin 32000) (hl : lab = BitVec.ofNat 32 l.val) (v : Fin 32000) :
    hitOf lab v = true ↔ v = l := by
  have hv := v.isLt
  have hl' := l.isLt
  unfold hitOf
  rw [decide_eq_true_iff, hl]
  constructor
  · intro h
    have h' := congrArg BitVec.toNat h
    simp only [BitVec.toNat_ofNat] at h'
    apply Fin.ext
    omega
  · rintro rfl
    rfl

/-- On a row of finite logits whose label word names column `l`, the streamed result is the log-softmax at `l`. -/
theorem onlineLogp_eq (z : Fin 32000 → EReal) (hz : ∀ v, ∃ r : ℝ, z v = (r : EReal)) (lab : BitVec 32) (l : Fin 32000)
    (hl : lab = BitVec.ofNat 32 l.val) : onlineLogp z (hitOf lab) = logSoftmaxAt z l := by
  choose zr hzr using hz
  obtain ⟨h1, h2, h3⟩ := online_inv z zr hzr (hitOf lab) 25 le_rfl
  rw [pre_full] at h1 h2 h3
  have hne : (Finset.univ : Finset (Fin 32000)).Nonempty := ⟨l, Finset.mem_univ _⟩
  obtain ⟨M, hM⟩ := sup_real hne hzr
  have hmax : maxOver z = (M : EReal) := hM
  rw [hM] at h1
  rw [hM, EReal.toReal_coe] at h2
  have ht : (online z (hitOf lab) 25).2.2 = (zr l : EReal) := by
    rw [h3, ← hzr]
    have hfun : ∀ v, (if hitOf lab v = true then z v else 0) = if v = l then z v else 0 := by
      intro v
      by_cases hv : v = l
      · rw [if_pos ((hitOf_iff lab l hl v).mpr hv), if_pos hv]
      · rw [if_neg (fun h => hv ((hitOf_iff lab l hl v).mp h)), if_neg hv]
    rw [Finset.sum_congr rfl (fun v _ => hfun v)]
    simp
  have hL : 0 < ∑ v : Fin 32000, Real.exp (zr v - M) :=
    Finset.sum_pos (fun v _ => Real.exp_pos _) hne
  have hlogL : Ideal.log ((∑ v : Fin 32000, Real.exp (zr v - M) : ℝ) : EReal)
      = ((Real.log (∑ v : Fin 32000, Real.exp (zr v - M)) : ℝ) : EReal) := by
    rw [Ideal.log_coe, if_neg (not_le.mpr hL)]
  have hsum : ∑ v : Fin 32000, Ideal.exp (z v - (M : EReal))
      = ((∑ v : Fin 32000, Real.exp (zr v - M) : ℝ) : EReal) := by
    rw [coe_sum]
    refine Finset.sum_congr rfl (fun v _ => ?_)
    rw [hzr, ← EReal.coe_sub, Ideal.exp_coe]
  unfold onlineLogp logSoftmaxAt
  rw [h1, h2, ht, hmax, hsum, hlogL, hzr, ← EReal.coe_add, ← EReal.coe_sub, ← EReal.coe_sub, ← EReal.coe_sub]
  exact congrArg _ (by ring)

end Cert.Kto

end
-- ==== Proof.lean ====
/-
  The certificate: a kernel that streams the log-softmax of two language-model heads over vocabulary chunks, against
  the reference that forms it whole.

  Both programs end in the same loss of per-token log-probabilities (Loss.lean).  The reference's token value is
  the log-softmax of the token's logit row at its label (RefToken.lean); the kernel's is the streamed
  `t - (m + log l)` of the same row after 25 chunks (KPieces, KAccum, KFlush), the row being the same contraction of
  the same arguments once the flattening and stacking before the region are read through (KArrays).  Under the
  precondition every logit is a real number and every label word names a column (PreFacts.lean), and on such a row
  the streamed value is the log-softmax (OnlineSoftmax.lean).  The sequence denominators agree because a count of
  512 zeros and ones is the same in 32-bit integers and in the reals (RefLoss.lean).
-/
import proofs.«403809_j74698071212406_3_alg».proof.Defs
import proofs.«403809_j74698071212406_3_alg».proof.Proof.Gen.Kernel
import proofs.«403809_j74698071212406_3_alg».proof.Proof.Gen.Kernel.Frame
import proofs.«403809_j74698071212406_3_alg».proof.Proof.Gen.KernelIdeal
import proofs.«403809_j74698071212406_3_alg».proof.Proof.Gen.ReferenceIdeal
import proofs.«403809_j74698071212406_3_alg».proof.Proof.Gen.Pre_finite_inputs
import proofs.«403809_j74698071212406_3_alg».proof.Proof.KTail
import proofs.«403809_j74698071212406_3_alg».proof.Proof.RefRunHand
import proofs.«403809_j74698071212406_3_alg».proof.Proof.RefToken
import proofs.«403809_j74698071212406_3_alg».proof.Proof.RefLoss
import proofs.«403809_j74698071212406_3_alg».proof.Proof.PreFacts
import proofs.«403809_j74698071212406_3_alg».proof.Proof.OnlineSoftmax
import Idealize.ShloMosaic.Adequacy
import Idealize.ShloMosaic.Init

set_option maxRecDepth 16384

noncomputable section

namespace Cert.Proof

open Idealize.ShloMosaic Idealize.ShloMosaic.ValueIdx Idealize.ShloMosaic.TcCoe Idealize.SL.Sem
open Cert.Kto Cert.Kto.K Cert.Kto.Ref

/-- A logit row of real hidden states against real vocabulary rows is real. -/
theorem rowZ_real {x : (⟨3, ![4, 512, 2048]⟩ : Shape).Idx → EReal} {w : (⟨2, ![32000, 2048]⟩ : Shape).Idx → EReal}
    (hx : ∀ i, ∃ r : ℝ, x i = (r : EReal)) (hw : ∀ i, ∃ r : ℝ, w i = (r : EReal)) (b : Fin 4) (s : Fin 512) (v : Fin 32000) :
    ∃ r : ℝ, rowZ x w b s v = (r : EReal) := by
  choose xr hxr using hx
  choose wr hwr using hw
  refine ⟨∑ h : Fin 2048, xr (ix3 b s h) * wr (ix2 v h), ?_⟩
  unfold rowZ
  rw [coe_sum]
  exact Finset.sum_congr rfl fun h _ => by rw [hxr, hwr, EReal.coe_mul]

section Bridge

variable (m : (ℓ : Loc Cert.KernelIdeal.nD Cert.KernelIdeal.τ Cert.KernelIdeal.sig) → Buf (Elt Ideal) ℓ) (c : Dev Cert.KernelIdeal.nD)

/-- The kernel's streamed value of token `(b, s)` under a model whose stacked rows are the arguments `x`, `w`, is the
    log-softmax of the token's logit row at the column its label names. -/
theorem streamed_eq (mdl : Fin 2) (x : (⟨3, ![4, 512, 2048]⟩ : Shape).Idx → EReal) (w : (⟨2, ![32000, 2048]⟩ : Shape).Idx → EReal)
    (hxa : ∀ b s h, xarr m c (ix3 mdl (tokIx b s) h) = x (ix3 b s h)) (hwa : ∀ v h, warr m c (ix3 mdl v h) = w (ix2 v h))
    (hx : ∀ i, ∃ r : ℝ, x i = (r : EReal)) (hw : ∀ i, ∃ r : ℝ, w i = (r : EReal))
    (b : Fin 4) (s : Fin 512) (l : Fin 32000) (hl : labelOf (a2 m c (ix2 b s)) = BitVec.ofNat 32 l.val) :
    oarr m c (ix3 mdl (tokIx b s) 0) = logSoftmaxAt (rowZ x w b s) l := by
  rw [oarr_apply, larr_apply]
  have hz : zK m c mdl (tokIx b s) = rowZ x w b s := by
    funext v
    unfold zK rowZ
    exact Finset.sum_congr rfl fun h _ => by rw [hxa, hwa]
  rw [hz]
  exact onlineLogp_eq _ (rowZ_real hx hw b s) _ l hl

end Bridge

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (ref_run m ρ)

/-- The two programs end with the same result: the shared loss of token values that agree token by token. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, kernel_run m ρ, ?_⟩
  refine (θ_run Cert.ReferenceIdeal.defs _ _).mono (fun _ h c => ⟨(h c).1.trans ?_, (h c).2⟩) (ref_run m' ρ')
  rw [(hagree c).1, (hagree c).2.1, (hagree c).2.2.1, (hagree c).2.2.2.1, (hagree c).2.2.2.2.1, (hagree c).2.2.2.2.2]
  obtain ⟨h0, h1, h4, h5, hlab⟩ := pre_facts _ _ _ _ _ _ (hpre c)
  rw [ref_result]
  have hP : (fun b s => Cert.ReferenceIdeal.ReadP.val_main_v7 (F := Ideal) (a0 m c) (a2 m c) (a4 m c) (ix2 b s))
      = fun b s => oarr m c (ix3 0 (tokIx b s) 0) := by
    funext b s
    obtain ⟨l, hl⟩ := hlab b s
    rw [token_policy _ _ _ b s l hl,
      streamed_eq m c 0 (a0 m c) (a4 m c) (fun b s h => xarr_policy m c b s h) (fun v h => warr_policy m c v h) h0 h4 b s l hl]
  have hR : (fun b s => Cert.ReferenceIdeal.ReadP.val_main_v22 (F := Ideal) (a1 m c) (a2 m c) (a5 m c) (ix2 b s))
      = fun b s => oarr m c (ix3 1 (tokIx b s) 0) := by
    funext b s
    obtain ⟨l, hl⟩ := hlab b s
    rw [token_reference _ _ _ b s l hl,
      streamed_eq m c 1 (a1 m c) (a5 m c) (fun b s h => xarr_reference m c b s h) (fun v h => warr_reference m c v h) h1 h5 b s l hl]
  rw [hP, hR]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
